-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x900x91 : Shape := ⟨3, ![16, 900, 91]⟩
abbrev S16x900x4 : Shape := ⟨3, ![16, 900, 4]⟩
abbrev S1600x4 : Shape := ⟨2, ![1600, 4]⟩
abbrev S1600 : Shape := ⟨1, ![1600]⟩
abbrev S_ : Shape := ⟨0, ![]⟩
abbrev S16x900x2 : Shape := ⟨3, ![16, 900, 2]⟩
abbrev S1600x2 : Shape := ⟨2, ![1600, 2]⟩

class Facts : Prop where
  bcast_S_S16x900x91 : S_.BroadcastsInDim S16x900x91 (![] : Fin 0 → Fin S16x900x91.rank)
  reducesTo_S16x900x91_S_d0_1_2 : S16x900x91.ReducesTo [0, 1, 2] S_
  h_S_ : 0 < S_.numel
  bcast_S_S16x900x4 : S_.BroadcastsInDim S16x900x4 (![] : Fin 0 → Fin S16x900x4.rank)
  reducesTo_S16x900x4_S_d0_1_2 : S16x900x4.ReducesTo [0, 1, 2] S_
  bcast_S_S1600x4 : S_.BroadcastsInDim S1600x4 (![] : Fin 0 → Fin S1600x4.rank)
  reducesTo_S1600x4_S_d0_1 : S1600x4.ReducesTo [0, 1] S_
  bcast_S_S1600 : S_.BroadcastsInDim S1600 (![] : Fin 0 → Fin S1600.rank)
  reducesTo_S1600_S_d0 : S1600.ReducesTo [0] S_
  slices_S16x900x4_S16x900x2_0_0_2 : S16x900x4.Slices ![0, 0, 2] S16x900x2
  bcast_S_S16x900x2 : S_.BroadcastsInDim S16x900x2 (![] : Fin 0 → Fin S16x900x2.rank)
  reducesTo_S16x900x2_S_d0_1_2 : S16x900x2.ReducesTo [0, 1, 2] S_
  slices_S1600x4_S1600x2_0_2 : S1600x4.Slices ![0, 2] S1600x2
  bcast_S_S1600x2 : S_.BroadcastsInDim S1600x2 (![] : Fin 0 → Fin S1600x2.rank)
  reducesTo_S1600x2_S_d0_1 : S1600x2.ReducesTo [0, 1] S_

variable [Facts]

def fn_part1 {F : FTy → Type} [FloatOps F] (main_arg1 : FVec F S16x900x4 .f32) (main_arg2 : FVec F S1600x4 .f32) (main_arg3 : IVec S1600 32) (main_v13 : IVec S_ 1) (main_v15 : IVec S1600 1) (main_c_5 : IVec S_ 1) : IVec S_ 1 :=
  let main_v16 : IVec S_ 1 := (fun x v => Host.reduce IntOp.andi x v reducesTo_S1600_S_d0 h_S_) main_v15 main_c_5
  let main_v17 : IVec S_ 1 := andi main_v13 main_v16
  let main_c_6 : IVec S_ 32 := constantI S_ 32 91#32
  let main_v18 : IVec S1600 32 := broadcastInDim S1600 ![] bcast_S_S1600 main_c_6
  let main_v19 : IVec S1600 1 := cmpi .slt main_arg3 main_v18
  let main_c_7 : IVec S_ 1 := constantI S_ 1 1#1
  let main_v20 : IVec S_ 1 := (fun x v => Host.reduce IntOp.andi x v reducesTo_S1600_S_d0 h_S_) main_v19 main_c_7
  let main_v21 : IVec S_ 1 := andi main_v17 main_v20
  let main_v22 : FVec F S16x900x2 .f32 := (extractStridedSlice S16x900x2 ![0, 0, 2] · slices_S16x900x4_S16x900x2_0_0_2) main_arg1
  let main_cst_8 : FVec F S_ .f32 := constant S_ .f32 0x00000000#32
  let main_v23 : FVec F S16x900x2 .f32 := broadcastInDim S16x900x2 ![] bcast_S_S16x900x2 main_cst_8
  let main_v24 : IVec S16x900x2 1 := cmpf .oge main_v22 main_v23
  let main_c_9 : IVec S_ 1 := constantI S_ 1 1#1
  let main_v25 : IVec S_ 1 := (fun x v => Host.reduce IntOp.andi x v reducesTo_S16x900x2_S_d0_1_2 h_S_) main_v24 main_c_9
  let main_v26 : IVec S_ 1 := andi main_v21 main_v25
  let main_v27 : FVec F S1600x2 .f32 := (extractStridedSlice S1600x2 ![0, 2] · slices_S1600x4_S1600x2_0_2) main_arg2
  let main_cst_10 : FVec F S_ .f32 := constant S_ .f32 0x00000000#32
  let main_v28 : FVec F S1600x2 .f32 := broadcastInDim S1600x2 ![] bcast_S_S1600x2 main_cst_10
  let main_v29 : IVec S1600x2 1 := cmpf .oge main_v27 main_v28
  let main_c_11 : IVec S_ 1 := constantI S_ 1 1#1
  let main_v30 : IVec S_ 1 := (fun x v => Host.reduce IntOp.andi x v reducesTo_S1600x2_S_d0_1 h_S_) main_v29 main_c_11
  let main_v31 : IVec S_ 1 := andi main_v26 main_v30
  main_v31

def fn {F : FTy → Type} [FloatOps F] (main_arg0 : FVec F S16x900x91 .f32) (main_arg1 : FVec F S16x900x4 .f32) (main_arg2 : FVec F S1600x4 .f32) (main_arg3 : IVec S1600 32) : IVec S_ 1 :=
  let main_v0 : FVec F S16x900x91 .f32 := Host.absf main_arg0
  let main_cst : FVec F S_ .f32 := constant S_ .f32 0x7F800000#32
  let main_v1 : FVec F S16x900x91 .f32 := broadcastInDim S16x900x91 ![] bcast_S_S16x900x91 main_cst
  let main_v2 : IVec S16x900x91 1 := cmpf .olt main_v0 main_v1
  let main_c : IVec S_ 1 := constantI S_ 1 1#1
  let main_v3 : IVec S_ 1 := (fun x v => Host.reduce IntOp.andi x v reducesTo_S16x900x91_S_d0_1_2 h_S_) main_v2 main_c
  let main_v4 : FVec F S16x900x4 .f32 := Host.absf main_arg1
  let main_cst_0 : FVec F S_ .f32 := constant S_ .f32 0x7F800000#32
  let main_v5 : FVec F S16x900x4 .f32 := broadcastInDim S16x900x4 ![] bcast_S_S16x900x4 main_cst_0
  let main_v6 : IVec S16x900x4 1 := cmpf .olt main_v4 main_v5
  let main_c_1 : IVec S_ 1 := constantI S_ 1 1#1
  let main_v7 : IVec S_ 1 := (fun x v => Host.reduce IntOp.andi x v reducesTo_S16x900x4_S_d0_1_2 h_S_) main_v6 main_c_1
  let main_v8 : IVec S_ 1 := andi main_v3 main_v7
  let main_v9 : FVec F S1600x4 .f32 := Host.absf main_arg2
  let main_cst_2 : FVec F S_ .f32 := constant S_ .f32 0x7F800000#32
  let main_v10 : FVec F S1600x4 .f32 := broadcastInDim S1600x4 ![] bcast_S_S1600x4 main_cst_2
  let main_v11 : IVec S1600x4 1 := cmpf .olt main_v9 main_v10
  let main_c_3 : IVec S_ 1 := constantI S_ 1 1#1
  let main_v12 : IVec S_ 1 := (fun x v => Host.reduce IntOp.andi x v reducesTo_S1600x4_S_d0_1 h_S_) main_v11 main_c_3
  let main_v13 : IVec S_ 1 := andi main_v8 main_v12
  let main_c_4 : IVec S_ 32 := constantI S_ 32 0#32
  let main_v14 : IVec S1600 32 := broadcastInDim S1600 ![] bcast_S_S1600 main_c_4
  let main_v15 : IVec S1600 1 := cmpi .sge main_arg3 main_v14
  let main_c_5 : IVec S_ 1 := constantI S_ 1 1#1
  fn_part1 (F := F) main_arg1 main_arg2 main_arg3 main_v13 main_v15 main_c_5
-- ==== Kernel.lean ====
abbrev S16x900x91 : Shape := ⟨3, ![16, 900, 91]⟩
abbrev S16x900x4 : Shape := ⟨3, ![16, 900, 4]⟩
abbrev S1600x4 : Shape := ⟨2, ![1600, 4]⟩
abbrev S1600 : Shape := ⟨1, ![1600]⟩
abbrev S14400x91 : Shape := ⟨2, ![14400, 91]⟩
abbrev S14400x4 : Shape := ⟨2, ![14400, 4]⟩
abbrev S1600x1 : Shape := ⟨2, ![1600, 1]⟩
abbrev S1x91 : Shape := ⟨2, ![1, 91]⟩
abbrev S1600x91 : Shape := ⟨2, ![1600, 91]⟩
abbrev S91x1600 : Shape := ⟨2, ![91, 1600]⟩
abbrev S1x1600 : Shape := ⟨2, ![1, 1600]⟩
abbrev S4x1600 : Shape := ⟨2, ![4, 1600]⟩
abbrev S_ : Shape := ⟨0, ![]⟩
abbrev S14400x1600 : Shape := ⟨2, ![14400, 1600]⟩
abbrev S720x91 : Shape := ⟨2, ![720, 91]⟩
abbrev S720x4 : Shape := ⟨2, ![720, 4]⟩
abbrev S720x1600 : Shape := ⟨2, ![720, 1600]⟩
abbrev S720x1 : Shape := ⟨2, ![720, 1]⟩
abbrev S16x900x1600 : Shape := ⟨3, ![16, 900, 1600]⟩

abbrev nBuf : Space → Nat
  | .hbm => 49
  | .vmem => 9
  | .smem => 0
  | _ => 0

abbrev bufTy : (tb : Table) → Fin (tcTables nBuf tb) → BufTy
  | .hbm, ⟨0, _⟩ => ⟨S16x900x91, .f32⟩
  | .hbm, ⟨1, _⟩ => ⟨S16x900x4, .f32⟩
  | .hbm, ⟨2, _⟩ => ⟨S1600x4, .f32⟩
  | .hbm, ⟨3, _⟩ => ⟨S1600, .i32⟩
  | .hbm, ⟨4, _⟩ => ⟨S14400x91, .f32⟩
  | .hbm, ⟨5, _⟩ => ⟨S14400x4, .f32⟩
  | .hbm, ⟨6, _⟩ => ⟨S1600x1, .i32⟩
  | .hbm, ⟨7, _⟩ => ⟨S1x91, .i32⟩
  | .hbm, ⟨8, _⟩ => ⟨S1600x91, .i32⟩
  | .hbm, ⟨9, _⟩ => ⟨S1600x91, .i32⟩
  | .hbm, ⟨10, _⟩ => ⟨S1600x91, .i1⟩
  | .hbm, ⟨11, _⟩ => ⟨S1600x91, .f32⟩
  | .hbm, ⟨12, _⟩ => ⟨S91x1600, .f32⟩
  | .hbm, ⟨13, _⟩ => ⟨S1600x1, .f32⟩
  | .hbm, ⟨14, _⟩ => ⟨S1600, .f32⟩
  | .hbm, ⟨15, _⟩ => ⟨S1600x1, .f32⟩
  | .hbm, ⟨16, _⟩ => ⟨S1600, .f32⟩
  | .hbm, ⟨17, _⟩ => ⟨S1600x1, .f32⟩
  | .hbm, ⟨18, _⟩ => ⟨S1600, .f32⟩
  | .hbm, ⟨19, _⟩ => ⟨S1600x1, .f32⟩
  | .hbm, ⟨20, _⟩ => ⟨S1600, .f32⟩
  | .hbm, ⟨21, _⟩ => ⟨S1x1600, .f32⟩
  | .hbm, ⟨22, _⟩ => ⟨S1x1600, .f32⟩
  | .hbm, ⟨23, _⟩ => ⟨S1x1600, .f32⟩
  | .hbm, ⟨24, _⟩ => ⟨S1x1600, .f32⟩
  | .hbm, ⟨25, _⟩ => ⟨S4x1600, .f32⟩
  | .hbm, ⟨26, _⟩ => ⟨S_, .f32⟩
  | .hbm, ⟨27, _⟩ => ⟨S1600, .f32⟩
  | .hbm, ⟨28, _⟩ => ⟨S1600, .f32⟩
  | .hbm, ⟨29, _⟩ => ⟨S1600, .f32⟩
  | .hbm, ⟨30, _⟩ => ⟨S_, .f32⟩
  | .hbm, ⟨31, _⟩ => ⟨S1600, .f32⟩
  | .hbm, ⟨32, _⟩ => ⟨S1600, .f32⟩
  | .hbm, ⟨33, _⟩ => ⟨S1600, .f32⟩
  | .hbm, ⟨34, _⟩ => ⟨S_, .f32⟩
  | .hbm, ⟨35, _⟩ => ⟨S1600, .f32⟩
  | .hbm, ⟨36, _⟩ => ⟨S1600, .f32⟩
  | .hbm, ⟨37, _⟩ => ⟨S1600, .f32⟩
  | .hbm, ⟨38, _⟩ => ⟨S_, .f32⟩
  | .hbm, ⟨39, _⟩ => ⟨S1600, .f32⟩
  | .hbm, ⟨40, _⟩ => ⟨S1600, .f32⟩
  | .hbm, ⟨41, _⟩ => ⟨S1600, .f32⟩
  | .hbm, ⟨42, _⟩ => ⟨S1x1600, .f32⟩
  | .hbm, ⟨43, _⟩ => ⟨S1x1600, .f32⟩
  | .hbm, ⟨44, _⟩ => ⟨S1x1600, .f32⟩
  | .hbm, ⟨45, _⟩ => ⟨S1x1600, .f32⟩
  | .hbm, ⟨46, _⟩ => ⟨S4x1600, .f32⟩
  | .hbm, ⟨47, _⟩ => ⟨S14400x1600, .f32⟩
  | .hbm, ⟨48, _⟩ => ⟨S16x900x1600, .f32⟩
  | .local _ .vmem, ⟨0, _⟩ => ⟨S720x91, .f32⟩
  | .local _ .vmem, ⟨1, _⟩ => ⟨S720x91, .f32⟩
  | .local _ .vmem, ⟨2, _⟩ => ⟨S720x4, .f32⟩
  | .local _ .vmem, ⟨3, _⟩ => ⟨S720x4, .f32⟩
  | .local _ .vmem, ⟨4, _⟩ => ⟨S91x1600, .f32⟩
  | .local _ .vmem, ⟨5, _⟩ => ⟨S4x1600, .f32⟩
  | .local _ .vmem, ⟨6, _⟩ => ⟨S4x1600, .f32⟩
  | .local _ .vmem, ⟨7, _⟩ => ⟨S720x1600, .f32⟩
  | .local _ .vmem, ⟨8, _⟩ => ⟨S720x1600, .f32⟩
  | _, _ => ⟨S16x900x91, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S720x91 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S720x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S91x1600 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1600 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1600 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S720x1600 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x900x91_S14400x91 : S16x900x91.ShapeCasts S14400x91
  shapeCasts_S16x900x4_S14400x4 : S16x900x4.ShapeCasts S14400x4
  bcast_S1600_S1600x1_0 : S1600.BroadcastsInDim S1600x1 (![0] : Fin 1 → Fin S1600x1.rank)
  bcast_S1600x1_S1600x91_0_1 : S1600x1.BroadcastsInDim S1600x91 (![0, 1] : Fin 2 → Fin S1600x91.rank)
  bcast_S1x91_S1600x91_0_1 : S1x91.BroadcastsInDim S1600x91 (![0, 1] : Fin 2 → Fin S1600x91.rank)
  transposes_S1600x91_S91x1600_1_0 : S1600x91.Transposes [1, 0] S91x1600
  slices_S1600x4_S1600x1_0_0 : S1600x4.Slices ![0, 0] S1600x1
  shapeCasts_S1600x1_S1600 : S1600x1.ShapeCasts S1600
  slices_S1600x4_S1600x1_0_1 : S1600x4.Slices ![0, 1] S1600x1
  slices_S1600x4_S1600x1_0_2 : S1600x4.Slices ![0, 2] S1600x1
  slices_S1600x4_S1600x1_0_3 : S1600x4.Slices ![0, 3] S1600x1
  bcast_S1600_S1x1600_1 : S1600.BroadcastsInDim S1x1600 (![1] : Fin 1 → Fin S1x1600.rank)
  concatenates_S1x1600_S1x1600_S1x1600_S1x1600_S4x1600_d0 : Shape.Concatenates [S1x1600, S1x1600, S1x1600, S1x1600] S4x1600 0
  bcast_S_S1600 : S_.BroadcastsInDim S1600 (![] : Fin 0 → Fin S1600.rank)
  inb_S720x91_S720x91_0_0 : ∀ a, (![0, 0] : Fin 2 → Nat) a + S720x91.size a ≤ S720x91.size a
  h_S720x91 : 0 < S720x91.numel
  shapeCasts_S720x91_S720x91 : S720x91.ShapeCasts S720x91
  inb_S91x1600_S91x1600_0_0 : ∀ a, (![0, 0] : Fin 2 → Nat) a + S91x1600.size a ≤ S91x1600.size a
  h_S91x1600 : 0 < S91x1600.numel
  shapeCasts_S91x1600_S91x1600 : S91x1600.ShapeCasts S91x1600
  inb_S720x4_S720x4_0_0 : ∀ a, (![0, 0] : Fin 2 → Nat) a + S720x4.size a ≤ S720x4.size a
  h_S720x4 : 0 < S720x4.numel
  shapeCasts_S720x4_S720x4 : S720x4.ShapeCasts S720x4
  slices_S720x4_o0_0_S720x1 : S720x4.Slices ![0, 0] S720x1
  slices_S720x4_o0_1_S720x1 : S720x4.Slices ![0, 1] S720x1
  slices_S720x4_o0_2_S720x1 : S720x4.Slices ![0, 2] S720x1
  slices_S720x4_o0_3_S720x1 : S720x4.Slices ![0, 3] S720x1
  inb_S4x1600_S4x1600_0_0 : ∀ a, (![0, 0] : Fin 2 → Nat) a + S4x1600.size a ≤ S4x1600.size a
  h_S4x1600 : 0 < S4x1600.numel
  shapeCasts_S4x1600_S4x1600 : S4x1600.ShapeCasts S4x1600
  slices_S4x1600_o0_0_S1x1600 : S4x1600.Slices ![0, 0] S1x1600
  slices_S4x1600_o1_0_S1x1600 : S4x1600.Slices ![1, 0] S1x1600
  slices_S4x1600_o2_0_S1x1600 : S4x1600.Slices ![2, 0] S1x1600
  slices_S4x1600_o3_0_S1x1600 : S4x1600.Slices ![3, 0] S1x1600
  broadcasts_S720x1_S720x1600 : S720x1.Broadcasts S720x1600
  broadcasts_S1x1600_S720x1600 : S1x1600.Broadcasts S720x1600
  inb_S720x1600_S720x1600_0_0 : ∀ a, (![0, 0] : Fin 2 → Nat) a + S720x1600.size a ≤ S720x1600.size a
  h_S720x1600 : 0 < S720x1600.numel
  shapeCasts_S14400x1600_S16x900x1600 : S14400x1600.ShapeCasts S16x900x1600
  dot_S720x91_S91x1600_S720x1600_1_0_0_1_n_n_wf : DotDims.WF S720x91 S91x1600 S720x1600 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S720x91.size a ≤ S14400x91.size a
  hwx0_0 : ∀ i : grid0.Coords, EltTy.bits .f32 = 32 ∨ (Rect.block (s := S14400x91) S720x91.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S720x4.size a ≤ S14400x4.size a
  hwx0_1 : ∀ i : grid0.Coords, EltTy.bits .f32 = 32 ∨ (Rect.block (s := S14400x4) S720x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S91x1600.size a ≤ S91x1600.size a
  hwx0_2 : ∀ i : grid0.Coords, EltTy.bits .f32 = 32 ∨ (Rect.block (s := S91x1600) S91x1600.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1600.size a ≤ S4x1600.size a
  hwx0_3 : ∀ i : grid0.Coords, EltTy.bits .f32 = 32 ∨ (Rect.block (s := S4x1600) S4x1600.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x1600.size a ≤ S4x1600.size a
  hwx0_4 : ∀ i : grid0.Coords, EltTy.bits .f32 = 32 ∨ (Rect.block (s := S4x1600) S4x1600.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S720x1600.size a ≤ S14400x1600.size a
  hwx0_5 : ∀ i : grid0.Coords, EltTy.bits .f32 = 32 ∨ (Rect.block (s := S14400x1600) S720x1600.size (cc0_transform_5 i) (hinb0_5 i)).WholeWords (EltTy.packing .f32)

variable [Facts₀]

def dot_S720x91_S91x1600_S720x1600_1_0_0_1_n_n : DotDims S720x91 S91x1600 S720x1600 where
  lhsContracting := [1]
  rhsContracting := [0]
  lhsNonContracting := [0]
  rhsNonContracting := [1]
  lhsBatch := []
  rhsBatch := []
  wf := dot_S720x91_S91x1600_S720x1600_1_0_0_1_n_n_wf

abbrev win0_0 : Pipeline.Window sig grid0 :=
  Pipeline.Window.ofSpec (Memref.whole main_v0) S720x91.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S720x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S91x1600.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4x1600.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S4x1600.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S720x1600.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x900x91 : Shape := ⟨3, ![16, 900, 91]⟩
abbrev S16x900x4 : Shape := ⟨3, ![16, 900, 4]⟩
abbrev S1600x4 : Shape := ⟨2, ![1600, 4]⟩
abbrev S1600 : Shape := ⟨1, ![1600]⟩
abbrev S14400x91 : Shape := ⟨2, ![14400, 91]⟩
abbrev S_ : Shape := ⟨0, ![]⟩
abbrev S14400x4 : Shape := ⟨2, ![14400, 4]⟩
abbrev S1600x1 : Shape := ⟨2, ![1600, 1]⟩
abbrev S14400x1600 : Shape := ⟨2, ![14400, 1600]⟩
abbrev S14400x1x4 : Shape := ⟨3, ![14400, 1, 4]⟩
abbrev S1x1600x4 : Shape := ⟨3, ![1, 1600, 4]⟩
abbrev S14400x1600x4 : Shape := ⟨3, ![14400, 1600, 4]⟩
abbrev S14400x1 : Shape := ⟨2, ![14400, 1]⟩
abbrev S14400 : Shape := ⟨1, ![14400]⟩
abbrev S14400x2 : Shape := ⟨2, ![14400, 2]⟩
abbrev S14400x1x2 : Shape := ⟨3, ![14400, 1, 2]⟩
abbrev S1600x2 : Shape := ⟨2, ![1600, 2]⟩
abbrev S1x1600x2 : Shape := ⟨3, ![1, 1600, 2]⟩
abbrev S14400x1600x2 : Shape := ⟨3, ![14400, 1600, 2]⟩
abbrev S14400x1600x1 : Shape := ⟨3, ![14400, 1600, 1]⟩
abbrev S1x1600 : Shape := ⟨2, ![1, 1600]⟩
abbrev S16x900x1600 : Shape := ⟨3, ![16, 900, 1600]⟩

abbrev nBuf : Space → Nat
  | .hbm => 213
  | .vmem => 0
  | .smem => 0
  | _ => 0

abbrev hbmTy0_0 (i : Nat) : BufTy := match i % 128 with
  | 0 => ⟨S16x900x91, .f32⟩
  | 1 => ⟨S16x900x4, .f32⟩
  | 2 => ⟨S1600x4, .f32⟩
  | 3 => ⟨S1600, .i32⟩
  | 4 => ⟨S14400x91, .f32⟩
  | 5 => ⟨S14400x91, .f32⟩
  | 6 => ⟨S14400x91, .f32⟩
  | 7 => ⟨S_, .f32⟩
  | 8 => ⟨S14400x91, .f32⟩
  | 9 => ⟨S14400x91, .f32⟩
  | 10 => ⟨S_, .f32⟩
  | 11 => ⟨S14400x91, .f32⟩
  | 12 => ⟨S14400x91, .f32⟩
  | 13 => ⟨S14400x4, .f32⟩
  | 14 => ⟨S_, .i32⟩
  | 15 => ⟨S1600, .i32⟩
  | 16 => ⟨S1600, .i1⟩
  | 17 => ⟨S_, .i32⟩
  | 18 => ⟨S1600, .i32⟩
  | 19 => ⟨S1600, .i32⟩
  | 20 => ⟨S1600, .i32⟩
  | 21 => ⟨S1600x1, .i32⟩
  | 22 => ⟨S14400x1600, .f32⟩
  | 23 => ⟨S_, .f32⟩
  | 24 => ⟨S14400x1600, .f32⟩
  | 25 => ⟨S14400x1600, .f32⟩
  | 26 => ⟨S_, .f32⟩
  | 27 => ⟨S14400x1600, .f32⟩
  | 28 => ⟨S14400x1600, .f32⟩
  | 29 => ⟨S_, .f32⟩
  | 30 => ⟨S14400x1600, .f32⟩
  | 31 => ⟨S14400x1600, .f32⟩
  | 32 => ⟨S_, .f32⟩
  | 33 => ⟨S14400x1600, .f32⟩
  | 34 => ⟨S14400x1600, .f32⟩
  | 35 => ⟨S14400x1600, .f32⟩
  | 36 => ⟨S14400x1600, .f32⟩
  | 37 => ⟨S14400x1600, .f32⟩
  | 38 => ⟨S_, .f32⟩
  | 39 => ⟨S14400x1600, .f32⟩
  | 40 => ⟨S14400x1600, .f32⟩
  | 41 => ⟨S_, .f32⟩
  | 42 => ⟨S14400x1600, .f32⟩
  | 43 => ⟨S14400x1600, .f32⟩
  | 44 => ⟨S_, .f32⟩
  | 45 => ⟨S14400x1600, .f32⟩
  | 46 => ⟨S14400x1600, .f32⟩
  | 47 => ⟨S_, .f32⟩
  | 48 => ⟨S14400x1600, .f32⟩
  | 49 => ⟨S14400x1600, .f32⟩
  | 50 => ⟨S14400x1600, .f32⟩
  | 51 => ⟨S14400x1600, .f32⟩
  | 52 => ⟨S14400x1600, .f32⟩
  | 53 => ⟨S14400x1600, .f32⟩
  | 54 => ⟨S14400x1x4, .f32⟩
  | 55 => ⟨S1x1600x4, .f32⟩
  | 56 => ⟨S14400x1600x4, .f32⟩
  | 57 => ⟨S14400x1600x4, .f32⟩
  | 58 => ⟨S14400x1600x4, .f32⟩
  | 59 => ⟨S14400x1600x4, .f32⟩
  | 60 => ⟨S_, .f32⟩
  | 61 => ⟨S14400x1600, .f32⟩
  | 62 => ⟨S14400x1, .f32⟩
  | 63 => ⟨S14400, .f32⟩
  | 64 => ⟨S14400x1, .f32⟩
  | 65 => ⟨S14400, .f32⟩
  | 66 => ⟨S14400x1, .f32⟩
  | 67 => ⟨S14400, .f32⟩
  | 68 => ⟨S14400x1, .f32⟩
  | 69 => ⟨S14400, .f32⟩
  | 70 => ⟨S_, .f32⟩
  | 71 => ⟨S14400, .f32⟩
  | 72 => ⟨S14400, .f32⟩
  | 73 => ⟨S14400, .f32⟩
  | 74 => ⟨S_, .f32⟩
  | 75 => ⟨S14400, .f32⟩
  | 76 => ⟨S14400, .f32⟩
  | 77 => ⟨S14400, .f32⟩
  | 78 => ⟨S_, .f32⟩
  | 79 => ⟨S14400, .f32⟩
  | 80 => ⟨S14400, .f32⟩
  | 81 => ⟨S14400, .f32⟩
  | 82 => ⟨S_, .f32⟩
  | 83 => ⟨S14400, .f32⟩
  | 84 => ⟨S14400, .f32⟩
  | 85 => ⟨S14400, .f32⟩
  | 86 => ⟨S14400x1, .f32⟩
  | 87 => ⟨S14400x1, .f32⟩
  | 88 => ⟨S14400x1, .f32⟩
  | 89 => ⟨S14400x1, .f32⟩
  | 90 => ⟨S14400x4, .f32⟩
  | 91 => ⟨S1600x1, .f32⟩
  | 92 => ⟨S1600, .f32⟩
  | 93 => ⟨S1600x1, .f32⟩
  | 94 => ⟨S1600, .f32⟩
  | 95 => ⟨S1600x1, .f32⟩
  | 96 => ⟨S1600, .f32⟩
  | 97 => ⟨S1600x1, .f32⟩
  | 98 => ⟨S1600, .f32⟩
  | 99 => ⟨S_, .f32⟩
  | 100 => ⟨S1600, .f32⟩
  | 101 => ⟨S1600, .f32⟩
  | 102 => ⟨S1600, .f32⟩
  | 103 => ⟨S_, .f32⟩
  | 104 => ⟨S1600, .f32⟩
  | 105 => ⟨S1600, .f32⟩
  | 106 => ⟨S1600, .f32⟩
  | 107 => ⟨S_, .f32⟩
  | 108 => ⟨S1600, .f32⟩
  | 109 => ⟨S1600, .f32⟩
  | 110 => ⟨S1600, .f32⟩
  | 111 => ⟨S_, .f32⟩
  | 112 => ⟨S1600, .f32⟩
  | 113 => ⟨S1600, .f32⟩
  | 114 => ⟨S1600, .f32⟩
  | 115 => ⟨S1600x1, .f32⟩
  | 116 => ⟨S1600x1, .f32⟩
  | 117 => ⟨S1600x1, .f32⟩
  | 118 => ⟨S1600x1, .f32⟩
  | 119 => ⟨S1600x4, .f32⟩
  | 120 => ⟨S14400x1, .f32⟩
  | 121 => ⟨S14400, .f32⟩
  | 122 => ⟨S14400x1, .f32⟩
  | 123 => ⟨S14400, .f32⟩
  | 124 => ⟨S14400, .f32⟩
  | 125 => ⟨S14400x1, .f32⟩
  | 126 => ⟨S14400, .f32⟩
  | 127 => ⟨S14400x1, .f32⟩
  | _ => ⟨S16x900x91, .f32⟩

abbrev hbmTy0_1 (i : Nat) : BufTy := match i % 128 with
  | 0 => ⟨S14400, .f32⟩
  | 1 => ⟨S14400, .f32⟩
  | 2 => ⟨S14400, .f32⟩
  | 3 => ⟨S1600x1, .f32⟩
  | 4 => ⟨S1600, .f32⟩
  | 5 => ⟨S1600x1, .f32⟩
  | 6 => ⟨S1600, .f32⟩
  | 7 => ⟨S1600, .f32⟩
  | 8 => ⟨S1600x1, .f32⟩
  | 9 => ⟨S1600, .f32⟩
  | 10 => ⟨S1600x1, .f32⟩
  | 11 => ⟨S1600, .f32⟩
  | 12 => ⟨S1600, .f32⟩
  | 13 => ⟨S1600, .f32⟩
  | 14 => ⟨S14400x2, .f32⟩
  | 15 => ⟨S14400x1x2, .f32⟩
  | 16 => ⟨S1600x2, .f32⟩
  | 17 => ⟨S1x1600x2, .f32⟩
  | 18 => ⟨S14400x1600x2, .f32⟩
  | 19 => ⟨S14400x1600x2, .f32⟩
  | 20 => ⟨S14400x1600x2, .f32⟩
  | 21 => ⟨S14400x2, .f32⟩
  | 22 => ⟨S14400x1x2, .f32⟩
  | 23 => ⟨S1600x2, .f32⟩
  | 24 => ⟨S1x1600x2, .f32⟩
  | 25 => ⟨S14400x1600x2, .f32⟩
  | 26 => ⟨S14400x1600x2, .f32⟩
  | 27 => ⟨S14400x1600x2, .f32⟩
  | 28 => ⟨S14400x1600x2, .f32⟩
  | 29 => ⟨S_, .f32⟩
  | 30 => ⟨S_, .f32⟩
  | 31 => ⟨S14400x1600x2, .f32⟩
  | 32 => ⟨S14400x1600x2, .f32⟩
  | 33 => ⟨S14400x1600x1, .f32⟩
  | 34 => ⟨S14400x1600, .f32⟩
  | 35 => ⟨S14400x1600x1, .f32⟩
  | 36 => ⟨S14400x1600, .f32⟩
  | 37 => ⟨S14400x1600, .f32⟩
  | 38 => ⟨S14400x1, .f32⟩
  | 39 => ⟨S1x1600, .f32⟩
  | 40 => ⟨S14400x1600, .f32⟩
  | 41 => ⟨S14400x1600, .f32⟩
  | 42 => ⟨S14400x1600, .f32⟩
  | 43 => ⟨S14400x1600, .f32⟩
  | 44 => ⟨S14400x1600, .f32⟩
  | 45 => ⟨S14400x2, .f32⟩
  | 46 => ⟨S14400x1x2, .f32⟩
  | 47 => ⟨S1600x2, .f32⟩
  | 48 => ⟨S1x1600x2, .f32⟩
  | 49 => ⟨S14400x1600x2, .f32⟩
  | 50 => ⟨S14400x1600x2, .f32⟩
  | 51 => ⟨S14400x1600x2, .f32⟩
  | 52 => ⟨S14400x2, .f32⟩
  | 53 => ⟨S14400x1x2, .f32⟩
  | 54 => ⟨S1600x2, .f32⟩
  | 55 => ⟨S1x1600x2, .f32⟩
  | 56 => ⟨S14400x1600x2, .f32⟩
  | 57 => ⟨S14400x1600x2, .f32⟩
  | 58 => ⟨S14400x1600x2, .f32⟩
  | 59 => ⟨S14400x1600x2, .f32⟩
  | 60 => ⟨S_, .f32⟩
  | 61 => ⟨S_, .f32⟩
  | 62 => ⟨S14400x1600x2, .f32⟩
  | 63 => ⟨S14400x1600x2, .f32⟩
  | 64 => ⟨S14400x1600x1, .f32⟩
  | 65 => ⟨S14400x1600, .f32⟩
  | 66 => ⟨S14400x1600x1, .f32⟩
  | 67 => ⟨S14400x1600, .f32⟩
  | 68 => ⟨S14400x1600, .f32⟩
  | 69 => ⟨S14400x1600, .f32⟩
  | 70 => ⟨S14400x1600, .f32⟩
  | 71 => ⟨S14400x1600, .f32⟩
  | 72 => ⟨S14400x1600, .f32⟩
  | 73 => ⟨S_, .f32⟩
  | 74 => ⟨S14400x1600, .f32⟩
  | 75 => ⟨S14400x1600, .f32⟩
  | 76 => ⟨S_, .f32⟩
  | 77 => ⟨S14400x1600, .f32⟩
  | 78 => ⟨S14400x1600, .f32⟩
  | 79 => ⟨S14400x1600, .f32⟩
  | 80 => ⟨S_, .f32⟩
  | 81 => ⟨S14400x1600, .f32⟩
  | 82 => ⟨S14400x1600, .f32⟩
  | 83 => ⟨S14400x1600, .f32⟩
  | 84 => ⟨S16x900x1600, .f32⟩
  | _ => ⟨S16x900x91, .f32⟩

abbrev hbmTy (i : Nat) : BufTy := match i / 128 with
  | 0 => hbmTy0_0 i
  | 1 => hbmTy0_1 i
  | _ => ⟨S16x900x91, .f32⟩

abbrev bufTy : (tb : Table) → Fin (tcTables nBuf tb) → BufTy
  | .hbm, ⟨i, _⟩ => hbmTy i
  | _, _ => ⟨S16x900x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_12 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_13 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_14 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_15 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_16 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_17 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_18 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_cst_19 : Ref sig .tc := ⟨.hbm, 157, rfl⟩
abbrev main_call0_v0 : Ref sig .tc := ⟨.hbm, 158, rfl⟩
abbrev main_call0_v1 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_cst_20 : Ref sig .tc := ⟨.hbm, 188, rfl⟩
abbrev main_call1_v0 : Ref sig .tc := ⟨.hbm, 189, rfl⟩
abbrev main_call1_v1 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_cst_21 : Ref sig .tc := ⟨.hbm, 201, rfl⟩
abbrev main_v170 : Ref sig .tc := ⟨.hbm, 202, rfl⟩
abbrev main_v171 : Ref sig .tc := ⟨.hbm, 203, rfl⟩
abbrev main_cst_22 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_cst_23 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩

abbrev nD : Nat := 1
abbrev τ : Topo := Topo.v7x

variable {F : FTy → Type} [FloatOps F]

class Facts₀ : Prop where
  shapeCasts_S16x900x91_S14400x91 : S16x900x91.ShapeCasts S14400x91
  bcast_S_S14400x91 : S_.BroadcastsInDim S14400x91 (![] : Fin 0 → Fin S14400x91.rank)
  shapeCasts_S16x900x4_S14400x4 : S16x900x4.ShapeCasts S14400x4
  bcast_S_S1600 : S_.BroadcastsInDim S1600 (![] : Fin 0 → Fin S1600.rank)
  bcast_S1600_S1600x1_0 : S1600.BroadcastsInDim S1600x1 (![0] : Fin 1 → Fin S1600x1.rank)
  bcast_S_S14400x1600 : S_.BroadcastsInDim S14400x1600 (![] : Fin 0 → Fin S14400x1600.rank)
  bcast_S14400x4_S14400x1x4_0_2 : S14400x4.BroadcastsInDim S14400x1x4 (![0, 2] : Fin 2 → Fin S14400x1x4.rank)
  bcast_S1600x4_S1x1600x4_1_2 : S1600x4.BroadcastsInDim S1x1600x4 (![1, 2] : Fin 2 → Fin S1x1600x4.rank)
  bcast_S14400x1x4_S14400x1600x4_0_1_2 : S14400x1x4.BroadcastsInDim S14400x1600x4 (![0, 1, 2] : Fin 3 → Fin S14400x1600x4.rank)
  bcast_S1x1600x4_S14400x1600x4_0_1_2 : S1x1600x4.BroadcastsInDim S14400x1600x4 (![0, 1, 2] : Fin 3 → Fin S14400x1600x4.rank)
  reducesTo_S14400x1600x4_S14400x1600_d2 : S14400x1600x4.ReducesTo [2] S14400x1600
  h_S_ : 0 < S_.numel
  slices_S14400x4_S14400x1_0_0 : S14400x4.Slices ![0, 0] S14400x1
  shapeCasts_S14400x1_S14400 : S14400x1.ShapeCasts S14400
  slices_S14400x4_S14400x1_0_1 : S14400x4.Slices ![0, 1] S14400x1
  slices_S14400x4_S14400x1_0_2 : S14400x4.Slices ![0, 2] S14400x1
  slices_S14400x4_S14400x1_0_3 : S14400x4.Slices ![0, 3] S14400x1
  bcast_S_S14400 : S_.BroadcastsInDim S14400 (![] : Fin 0 → Fin S14400.rank)
  bcast_S14400_S14400x1_0 : S14400.BroadcastsInDim S14400x1 (![0] : Fin 1 → Fin S14400x1.rank)
  concatenates_S14400x1_S14400x1_S14400x1_S14400x1_S14400x4_d1 : Shape.Concatenates [S14400x1, S14400x1, S14400x1, S14400x1] S14400x4 1
  slices_S1600x4_S1600x1_0_0 : S1600x4.Slices ![0, 0] S1600x1
  shapeCasts_S1600x1_S1600 : S1600x1.ShapeCasts S1600
  slices_S1600x4_S1600x1_0_1 : S1600x4.Slices ![0, 1] S1600x1
  slices_S1600x4_S1600x1_0_2 : S1600x4.Slices ![0, 2] S1600x1
  slices_S1600x4_S1600x1_0_3 : S1600x4.Slices ![0, 3] S1600x1
  concatenates_S1600x1_S1600x1_S1600x1_S1600x1_S1600x4_d1 : Shape.Concatenates [S1600x1, S1600x1, S1600x1, S1600x1] S1600x4 1
  slices_S14400x4_S14400x2_0_0 : S14400x4.Slices ![0, 0] S14400x2
  bcast_S14400x2_S14400x1x2_0_2 : S14400x2.BroadcastsInDim S14400x1x2 (![0, 2] : Fin 2 → Fin S14400x1x2.rank)
  slices_S1600x4_S1600x2_0_0 : S1600x4.Slices ![0, 0] S1600x2
  bcast_S1600x2_S1x1600x2_1_2 : S1600x2.BroadcastsInDim S1x1600x2 (![1, 2] : Fin 2 → Fin S1x1600x2.rank)
  bcast_S14400x1x2_S14400x1600x2_0_1_2 : S14400x1x2.BroadcastsInDim S14400x1600x2 (![0, 1, 2] : Fin 3 → Fin S14400x1600x2.rank)
  bcast_S1x1600x2_S14400x1600x2_0_1_2 : S1x1600x2.BroadcastsInDim S14400x1600x2 (![0, 1, 2] : Fin 3 → Fin S14400x1600x2.rank)
  slices_S14400x4_S14400x2_0_2 : S14400x4.Slices ![0, 2] S14400x2
  slices_S1600x4_S1600x2_0_2 : S1600x4.Slices ![0, 2] S1600x2
  bcast_S_S14400x1600x2 : S_.BroadcastsInDim S14400x1600x2 (![] : Fin 0 → Fin S14400x1600x2.rank)
  slices_S14400x1600x2_S14400x1600x1_0_0_0 : S14400x1600x2.Slices ![0, 0, 0] S14400x1600x1
  shapeCasts_S14400x1600x1_S14400x1600 : S14400x1600x1.ShapeCasts S14400x1600
  slices_S14400x1600x2_S14400x1600x1_0_0_1 : S14400x1600x2.Slices ![0, 0, 1] S14400x1600x1
  bcast_S1600_S1x1600_1 : S1600.BroadcastsInDim S1x1600 (![1] : Fin 1 → Fin S1x1600.rank)
  bcast_S14400x1_S14400x1600_0_1 : S14400x1.BroadcastsInDim S14400x1600 (![0, 1] : Fin 2 → Fin S14400x1600.rank)
  bcast_S1x1600_S14400x1600_0_1 : S1x1600.BroadcastsInDim S14400x1600 (![0, 1] : Fin 2 → Fin S14400x1600.rank)
  shapeCasts_S14400x1600_S16x900x1600 : S14400x1600.ShapeCasts S16x900x1600
  gather_S14400x91_S1600x1_S14400x1600_0_1_n_n_1_1_144001_wf : GatherDims.WF S14400x91 S1600x1 S14400x1600 [0] [1] [] [1] [] 1 ![14400, 1]

variable [Facts₀]

def gather_S14400x91_S1600x1_S14400x1600_0_1_n_n_1_1_144001 : GatherDims S14400x91 S1600x1 S14400x1600 where
  offsetDims := [0]
  collapsedSliceDims := [1]
  operandBatchingDims := []
  startIndicesBatchingDims := []
  startIndexMap := [1]
  indexVectorDim := 1
  sliceSizes := ![14400, 1]
  wf := gather_S14400x91_S1600x1_S14400x1600_0_1_n_n_1_1_144001_wf

class Facts : Prop extends Facts₀ where

variable [Facts]
-- ==== Proof.RefRun.lean ====
import proofs.«420544_j2259152798180_3_alg».proof.Proof.Gen.ReferenceIdeal.Run
import proofs.«420544_j2259152798180_3_alg».proof.Proof.Gen.ReferenceIdeal.Read

/-! The reference program's run and its read-at-an-index lemmas, brought in for the value bridge. -/
-- ==== Proof.FrameI.lean ====
import proofs.«420544_j2259152798180_3_alg».proof.Proof.Gen.KernelIdeal.Launch
import proofs.«420544_j2259152798180_3_alg».proof.Proof.Gen.KernelIdeal.Skeleton
import proofs.«420544_j2259152798180_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! The frame of the cost-matrix program: host lines, one pipelined region of twenty grid points, one
host line.  The region's body loads its five input blocks whole, computes one 720 x 1600 tile and
stores it whole, so after the body the output's staging buffer is one function of the five input
blocks (bodyVal), whatever it held before; each input's staging buffer holds its block of the array
the host lines left.  From that: the body's triple, the pipeline's proof data, the run of @main to
the library's frame post, and the frame claim (the four argument arrays end as launched, since no
host line and no window writes them). -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffer contents when the region is entered: after the three stretches of host lines. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the last host line, entered at V. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The line after the region touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And writes no array of the pipeline: only its own result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.TRef.unary, StableHlo.TRef.nullary, StableHlo.TRef.binary, StableHlo.nullary_writes, StableHlo.unary_writes, StableHlo.binary_writes,
      StableHlo.reshape_writes, StableHlo.nary_writes, Finset.mem_singleton]
    repeat' apply And.intro
    all_goals exact StableHlo.devRef_ne_of_ne (by decide)))

/-- Nor does the line after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.TRef.unary, StableHlo.TRef.nullary, StableHlo.TRef.binary, StableHlo.nullary_writes, StableHlo.unary_writes, StableHlo.binary_writes,
      StableHlo.reshape_writes, StableHlo.nary_writes, Finset.mem_singleton]
    repeat' apply And.intro
    all_goals exact StableHlo.devRef_ne_of_ne (by decide)))

/-- Nor does the line after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.TRef.unary, StableHlo.TRef.nullary, StableHlo.TRef.binary, StableHlo.nullary_writes, StableHlo.unary_writes, StableHlo.binary_writes,
      StableHlo.reshape_writes, StableHlo.nary_writes, Finset.mem_singleton]
    repeat' apply And.intro
    all_goals exact StableHlo.devRef_ne_of_ne (by decide)))

/-- Nor does the line after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.TRef.unary, StableHlo.TRef.nullary, StableHlo.TRef.binary, StableHlo.nullary_writes, StableHlo.unary_writes, StableHlo.binary_writes,
      StableHlo.reshape_writes, StableHlo.nary_writes, Finset.mem_singleton]
    repeat' apply And.intro
    all_goals exact StableHlo.devRef_ne_of_ne (by decide)))

/-- Nor does the line after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body's accesses: every load and the store take the whole buffer -/

abbrev rL : Rect S720x91 := Rect.unit (s := S720x91) ![0, 0] S720x91.size inb_S720x91_S720x91_0_0
abbrev rB : Rect S720x4 := Rect.unit (s := S720x4) ![0, 0] S720x4.size inb_S720x4_S720x4_0_0
abbrev rH : Rect S91x1600 := Rect.unit (s := S91x1600) ![0, 0] S91x1600.size inb_S91x1600_S91x1600_0_0
abbrev rT : Rect S4x1600 := Rect.unit (s := S4x1600) ![0, 0] S4x1600.size inb_S4x1600_S4x1600_0_0
abbrev rO : Rect S720x1600 := Rect.unit (s := S720x1600) ![0, 0] S720x1600.size inb_S720x1600_S720x1600_0_0

/-! ## What the body leaves in the output window's buffer -/

/-- The tile the body stores, from what it loads: the logits block, the boxes block, the class
    columns, the targets in centre form and in corner form. -/
def bodyVal (v0 : Vec F S720x91 .f32) (v29 : Vec F S720x4 .f32) (v26 : Vec F S91x1600 .f32) (v47 : Vec F S4x1600 .f32) (v72 : Vec F S4x1600 .f32) :
    FVec F S720x1600 .f32 :=
  k0_pay1 (k0_pay2 v0 v26) (k0_pay8 v29) (k0_pay9 v29)
    (k0_pay10 (k0_pay4 v29) (k0_pay6 v29) (Scalar.ofBits .f32 0x3F000000#32)) (k0_pay11 (k0_pay5 v29) (k0_pay7 v29))
    (k0_pay12 (k0_pay4 v29) (k0_pay5 v29) (k0_pay6 v29) (k0_pay7 v29) v47)
    (k0_pay14 v72) (k0_pay15 v72) (k0_pay16 v72) (k0_pay17 v72)
    (k0_pay18 (k0_pay4 v29) (k0_pay5 v29) (k0_pay6 v29) (k0_pay7 v29) (k0_pay8 v29) (k0_pay9 v29) (Scalar.ofBits .f32 0x3F000000#32))
    (k0_pay19 v72) (k0_pay20 (k0_pay8 v29) v72) (k0_pay21 (k0_pay9 v29) v72)
    (k0_pay22 (k0_pay4 v29) (k0_pay6 v29) (Scalar.ofBits .f32 0x3F000000#32) v72) (k0_pay23 (k0_pay5 v29) (k0_pay7 v29) v72)

/-- Window 5's staging buffer after the body, from the input windows' blocks: its one store. -/
def out0_5 (x0 : Vec F S720x91 .f32) (x1 : Vec F S720x4 .f32) (x2 : Vec F S91x1600 .f32) (x3 : Vec F S4x1600 .f32) (x4 : Vec F S4x1600 .f32) :
    Vec F S720x1600 .f32 :=
  View.canon [⟨rO, bodyVal (View.ld x0 rL) (View.ld x1 rB) (View.ld x2 rH) (View.ld x3 rT) (View.ld x4 rT)⟩]

/-- The store takes the whole buffer, so it covers it. -/
theorem cover0_5 (p0 : Vec F S720x1600 .f32) (y : S720x1600.Idx) :
    ∃ pc ∈ ([⟨rO, p0⟩] : List (View.Piece (Elt F) S720x1600 .f32)), y ∈ pc.1.set :=
  View.cover_of_tiled [⟨rO, p0⟩] S720x1600.size (by rfl) y

/-! ## The body's triple -/

set_option maxHeartbeats 4000000 in
/-- The body on whole staging memrefs, the inputs' at contents xW and the output's at anything, runs to the
    continuation holding the inputs' as they were and the output's at out0_5 of the inputs'. -/
theorem sound_kernel (c : Dev nD) (E : Set ℕ) (i : grid0.Coords)
    (arg1 : Memref sig .tc .vmem S720x91 .f32) (harg1 : arg1.IsWhole) (arg2 : Memref sig .tc .vmem S720x4 .f32) (harg2 : arg2.IsWhole)
    (arg3 : Memref sig .tc .vmem S91x1600 .f32) (harg3 : arg3.IsWhole) (arg4 : Memref sig .tc .vmem S4x1600 .f32) (harg4 : arg4.IsWhole)
    (arg5 : Memref sig .tc .vmem S4x1600 .f32) (harg5 : arg5.IsWhole) (arg6 : Memref sig .tc .vmem S720x1600 .f32) (harg6 : arg6.IsWhole)
    (x0 : Vec F S720x91 .f32) (x1 : Vec F S720x4 .f32) (x2 : Vec F S91x1600 .f32) (x3 : Vec F S4x1600 .f32) (x4 : Vec F S4x1600 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__cost_kernel i arg1 harg1 arg2 harg2 arg3 harg3 arg4 harg4 arg5 harg5 arg6 harg6) K := by
  simp only [cc0__cost_kernel_eq_skeleton]; unfold cc0__cost_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the pipeline on core c: the arrays as the region finds them; after the body at
    point t each input's buffer at its block and the output's at out0_5 of the input blocks; the class's
    invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at
    what the library computes from the proof data and every other unscoped buffer as the last host line leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Fr

end
-- ==== Proof.FrameK.lean ====
import proofs.«420544_j2259152798180_3_alg».proof.Proof.Gen.Kernel.Launch
import proofs.«420544_j2259152798180_3_alg».proof.Proof.Gen.Kernel.Skeleton
import proofs.«420544_j2259152798180_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! The frame of the cost-matrix program: host lines, one pipelined region of twenty grid points, one
host line.  The region's body loads its five input blocks whole, computes one 720 x 1600 tile and
stores it whole, so after the body the output's staging buffer is one function of the five input
blocks (bodyVal), whatever it held before; each input's staging buffer holds its block of the array
the host lines left.  From that: the body's triple, the pipeline's proof data, the run of @main to
the library's frame post, and the frame claim (the four argument arrays end as launched, since no
host line and no window writes them). -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffer contents when the region is entered: after the three stretches of host lines. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the last host line, entered at V. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The line after the region touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And writes no array of the pipeline: only its own result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.TRef.unary, StableHlo.TRef.nullary, StableHlo.TRef.binary, StableHlo.nullary_writes, StableHlo.unary_writes, StableHlo.binary_writes,
      StableHlo.reshape_writes, StableHlo.nary_writes, Finset.mem_singleton]
    repeat' apply And.intro
    all_goals exact StableHlo.devRef_ne_of_ne (by decide)))

/-- Nor does the line after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.TRef.unary, StableHlo.TRef.nullary, StableHlo.TRef.binary, StableHlo.nullary_writes, StableHlo.unary_writes, StableHlo.binary_writes,
      StableHlo.reshape_writes, StableHlo.nary_writes, Finset.mem_singleton]
    repeat' apply And.intro
    all_goals exact StableHlo.devRef_ne_of_ne (by decide)))

/-- Nor does the line after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.TRef.unary, StableHlo.TRef.nullary, StableHlo.TRef.binary, StableHlo.nullary_writes, StableHlo.unary_writes, StableHlo.binary_writes,
      StableHlo.reshape_writes, StableHlo.nary_writes, Finset.mem_singleton]
    repeat' apply And.intro
    all_goals exact StableHlo.devRef_ne_of_ne (by decide)))

/-- Nor does the line after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.TRef.unary, StableHlo.TRef.nullary, StableHlo.TRef.binary, StableHlo.nullary_writes, StableHlo.unary_writes, StableHlo.binary_writes,
      StableHlo.reshape_writes, StableHlo.nary_writes, Finset.mem_singleton]
    repeat' apply And.intro
    all_goals exact StableHlo.devRef_ne_of_ne (by decide)))

/-- Nor does the line after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body's accesses: every load and the store take the whole buffer -/

abbrev rL : Rect S720x91 := Rect.unit (s := S720x91) ![0, 0] S720x91.size inb_S720x91_S720x91_0_0
abbrev rB : Rect S720x4 := Rect.unit (s := S720x4) ![0, 0] S720x4.size inb_S720x4_S720x4_0_0
abbrev rH : Rect S91x1600 := Rect.unit (s := S91x1600) ![0, 0] S91x1600.size inb_S91x1600_S91x1600_0_0
abbrev rT : Rect S4x1600 := Rect.unit (s := S4x1600) ![0, 0] S4x1600.size inb_S4x1600_S4x1600_0_0
abbrev rO : Rect S720x1600 := Rect.unit (s := S720x1600) ![0, 0] S720x1600.size inb_S720x1600_S720x1600_0_0

/-! ## What the body leaves in the output window's buffer -/

/-- The tile the body stores, from what it loads: the logits block, the boxes block, the class
    columns, the targets in centre form and in corner form. -/
def bodyVal (v0 : Vec F S720x91 .f32) (v29 : Vec F S720x4 .f32) (v26 : Vec F S91x1600 .f32) (v47 : Vec F S4x1600 .f32) (v72 : Vec F S4x1600 .f32) :
    FVec F S720x1600 .f32 :=
  k0_pay1 (k0_pay2 v0 v26) (k0_pay8 v29) (k0_pay9 v29)
    (k0_pay10 (k0_pay4 v29) (k0_pay6 v29) (Scalar.ofBits .f32 0x3F000000#32)) (k0_pay11 (k0_pay5 v29) (k0_pay7 v29))
    (k0_pay12 (k0_pay4 v29) (k0_pay5 v29) (k0_pay6 v29) (k0_pay7 v29) v47)
    (k0_pay14 v72) (k0_pay15 v72) (k0_pay16 v72) (k0_pay17 v72)
    (k0_pay18 (k0_pay4 v29) (k0_pay5 v29) (k0_pay6 v29) (k0_pay7 v29) (k0_pay8 v29) (k0_pay9 v29) (Scalar.ofBits .f32 0x3F000000#32))
    (k0_pay19 v72) (k0_pay20 (k0_pay8 v29) v72) (k0_pay21 (k0_pay9 v29) v72)
    (k0_pay22 (k0_pay4 v29) (k0_pay6 v29) (Scalar.ofBits .f32 0x3F000000#32) v72) (k0_pay23 (k0_pay5 v29) (k0_pay7 v29) v72)

/-- Window 5's staging buffer after the body, from the input windows' blocks: its one store. -/
def out0_5 (x0 : Vec F S720x91 .f32) (x1 : Vec F S720x4 .f32) (x2 : Vec F S91x1600 .f32) (x3 : Vec F S4x1600 .f32) (x4 : Vec F S4x1600 .f32) :
    Vec F S720x1600 .f32 :=
  View.canon [⟨rO, bodyVal (View.ld x0 rL) (View.ld x1 rB) (View.ld x2 rH) (View.ld x3 rT) (View.ld x4 rT)⟩]

/-- The store takes the whole buffer, so it covers it. -/
theorem cover0_5 (p0 : Vec F S720x1600 .f32) (y : S720x1600.Idx) :
    ∃ pc ∈ ([⟨rO, p0⟩] : List (View.Piece (Elt F) S720x1600 .f32)), y ∈ pc.1.set :=
  View.cover_of_tiled [⟨rO, p0⟩] S720x1600.size (by rfl) y

/-! ## The body's triple -/

set_option maxHeartbeats 4000000 in
/-- The body on whole staging memrefs, the inputs' at contents xW and the output's at anything, runs to the
    continuation holding the inputs' as they were and the output's at out0_5 of the inputs'. -/
theorem sound_kernel (c : Dev nD) (E : Set ℕ) (i : grid0.Coords)
    (arg1 : Memref sig .tc .vmem S720x91 .f32) (harg1 : arg1.IsWhole) (arg2 : Memref sig .tc .vmem S720x4 .f32) (harg2 : arg2.IsWhole)
    (arg3 : Memref sig .tc .vmem S91x1600 .f32) (harg3 : arg3.IsWhole) (arg4 : Memref sig .tc .vmem S4x1600 .f32) (harg4 : arg4.IsWhole)
    (arg5 : Memref sig .tc .vmem S4x1600 .f32) (harg5 : arg5.IsWhole) (arg6 : Memref sig .tc .vmem S720x1600 .f32) (harg6 : arg6.IsWhole)
    (x0 : Vec F S720x91 .f32) (x1 : Vec F S720x4 .f32) (x2 : Vec F S91x1600 .f32) (x3 : Vec F S4x1600 .f32) (x4 : Vec F S4x1600 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__cost_kernel i arg1 harg1 arg2 harg2 arg3 harg3 arg4 harg4 arg5 harg5 arg6 harg6) K := by
  simp only [cc0__cost_kernel_eq_skeleton]; unfold cc0__cost_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the pipeline on core c: the arrays as the region finds them; after the body at
    point t each input's buffer at its block and the output's at out0_5 of the input blocks; the class's
    invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at
    what the library computes from the proof data and every other unscoped buffer as the last host line leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Fr

end
-- ==== Proof.Spec.lean ====
import Idealize.ShloMosaic.PureOps.Ideal
import Idealize.ShloMosaic.Lib.ValueIdx

/-! The matching cost of one (query, target) pair as a function of the pair's numbers, written twice.

Kcost is the arrangement the kernel uses: the focal class cost is formed for every class from the
query's logits and the target's class is picked out by a 0/1 column (a sum over the classes), and the
two quotients of the generalized IoU are merged over the common denominator union * areaE.
Rcost is the reference's arrangement: the probability of the target's class is picked first, the
focal cost is formed once with squares written as powers, and the generalized IoU is
iou - (areaE - union) / areaE, negated.  Both are over the extended reals with the exact
operations; the constants are kept as the words the programs carry. -/

noncomputable section

namespace Cert.Spec

open Idealize.ShloMosaic

abbrev c0 : EReal := Ideal.ofBits .f32 0x00000000#32      -- 0
abbrev c1 : EReal := Ideal.ofBits .f32 0x3F800000#32      -- 1
abbrev c2 : EReal := Ideal.ofBits .f32 0x40000000#32      -- 2
abbrev c5 : EReal := Ideal.ofBits .f32 0x40A00000#32      -- 5
abbrev chalf : EReal := Ideal.ofBits .f32 0x3F000000#32   -- 1/2
abbrev c025 : EReal := Ideal.ofBits .f32 0x3E800000#32    -- 1/4
abbrev c075 : EReal := Ideal.ofBits .f32 0x3F400000#32    -- 3/4
abbrev ceps : EReal := Ideal.ofBits .f32 0x322BCC77#32    -- the f32 nearest 1e-8

/-- The absolute value as the exact operations have it. -/
abbrev eabs (x : EReal) : EReal := max x (-x)

/-! ## The kernel's arrangement -/

/-- The focal cost of one class from its logit, already doubled. -/
def focalK (x : EReal) : EReal :=
  let p := Ideal.logistic x
  let q := c1 - p
  let neg := (c075 * (p * p)) * (c0 - Ideal.log (q + ceps))
  let pos := (c025 * (q * q)) * (c0 - Ideal.log (p + ceps))
  c2 * (pos - neg)

/-- The class cost: the per-class costs weighted by the target's 0/1 column. -/
def clsK (lg oh : Fin 91 → EReal) : EReal := ∑ k : Fin 91, focalK (lg k) * oh k

/-- The L1 distance of the two boxes in (cx, cy, w, h) form, summed left to right. -/
def l1K (cx cy w h tcx tcy tw th : EReal) : EReal :=
  ((eabs (cx - tcx) + eabs (cy - tcy)) + eabs (w - tw)) + eabs (h - th)

/-- The generalized-IoU cost, doubled, with the two quotients over one denominator; the query box
    in centre form, the target box already in corner form. -/
def giouK (cx cy w h tx1 ty1 tx2 ty2 : EReal) : EReal :=
  let x1 := cx - chalf * w
  let y1 := cy - chalf * h
  let x2 := cx + chalf * w
  let y2 := cy + chalf * h
  let area1 := (x2 - x1) * (y2 - y1)
  let area2 := (tx2 - tx1) * (ty2 - ty1)
  let inter := max (min x2 tx2 - max x1 tx1) c0 * max (min y2 ty2 - max y1 ty1) c0
  let union := (area1 + area2) - inter
  let areaE := max (max x2 tx2 - min x1 tx1) c0 * max (max y2 ty2 - min y1 ty1) c0
  let numer := inter * areaE + union * union
  let denom := union * areaE
  c2 * (c1 - Ideal.div numer denom)

/-- One entry of the kernel's cost matrix. -/
def Kcost (lg oh : Fin 91 → EReal) (cx cy w h tcx tcy tw th tx1 ty1 tx2 ty2 : EReal) : EReal :=
  (c5 * l1K cx cy w h tcx tcy tw th + clsK lg oh) + giouK cx cy w h tx1 ty1 tx2 ty2

/-! ## The reference's arrangement -/

/-- The probability of a class from its logit, as a quotient. -/
def sigR (x : EReal) : EReal := Ideal.div c1 (c1 + Ideal.exp (-x))

/-- The focal cost from the probability of the target's class. -/
def focalR (p : EReal) : EReal :=
  let neg := (c075 * Ideal.pow p c2) * (-(Ideal.log ((c1 - p) + ceps)))
  let pos := (c025 * Ideal.pow (c1 - p) c2) * (-(Ideal.log (p + ceps)))
  pos - neg

/-- The L1 distance as a sum over the four coordinates from zero. -/
def l1R (b t : Fin 4 → EReal) : EReal := c0 + ∑ k : Fin 4, eabs (b k - t k)

/-- The generalized-IoU cost (not doubled) from the two boxes in centre form. -/
def giouR (b t : Fin 4 → EReal) : EReal :=
  let x1 := b 0 - chalf * b 2
  let y1 := b 1 - chalf * b 3
  let x2 := b 0 + chalf * b 2
  let y2 := b 1 + chalf * b 3
  let tx1 := t 0 - chalf * t 2
  let ty1 := t 1 - chalf * t 3
  let tx2 := t 0 + chalf * t 2
  let ty2 := t 1 + chalf * t 3
  let area1 := (x2 - x1) * (y2 - y1)
  let area2 := (tx2 - tx1) * (ty2 - ty1)
  let inter := max c0 (min x2 tx2 - max x1 tx1) * max c0 (min y2 ty2 - max y1 ty1)
  let union := (area1 + area2) - inter
  let iou := Ideal.div inter union
  let areaE := max c0 (max x2 tx2 - min x1 tx1) * max c0 (max y2 ty2 - min y1 ty1)
  let giou := iou - Ideal.div (areaE - union) areaE
  (-giou)

/-- One entry of the reference's cost matrix, from the logit of the target's class. -/
def Rcost (x : EReal) (b t : Fin 4 → EReal) : EReal :=
  (c5 * l1R b t + c2 * focalR (sigR x)) + c2 * giouR b t

/-! ## The whole arrays -/

abbrev S16x900x91 : Shape := ⟨3, ![16, 900, 91]⟩
abbrev S16x900x4 : Shape := ⟨3, ![16, 900, 4]⟩
abbrev S1600x4 : Shape := ⟨2, ![1600, 4]⟩
abbrev S1600 : Shape := ⟨1, ![1600]⟩
abbrev S16x900x1600 : Shape := ⟨3, ![16, 900, 1600]⟩

/-- Index constructors over the literal shapes. -/
def iL (b : Fin 16) (q : Fin 900) (k : Fin 91) : S16x900x91.Idx := ValueIdx.ix3 b q k
def iB (b : Fin 16) (q : Fin 900) (k : Fin 4) : S16x900x4.Idx := ValueIdx.ix3 b q k
def iT (t : Fin 1600) (k : Fin 4) : S1600x4.Idx := ValueIdx.ix2 t k
def iI (t : Fin 1600) : S1600.Idx := ValueIdx.ix1 t

/-- The 0/1 column of a target's class: 1 at the class whose number is the label's word, else 0
    (a label outside the 91 classes gives the zero column). -/
def onehot (lab : BitVec 32) (k : Fin 91) : EReal := if lab = BitVec.ofNat 32 k.val then 1 else 0

/-- The kernel's cost matrix from the four argument arrays. -/
def KG (L : S16x900x91.Idx → EReal) (B : S16x900x4.Idx → EReal) (T : S1600x4.Idx → EReal) (I : S1600.Idx → BitVec 32) :
    S16x900x1600.Idx → EReal := fun i =>
  let b : Fin 16 := i 0
  let q : Fin 900 := i 1
  let t : Fin 1600 := i 2
  Kcost (fun k => L (iL b q k)) (onehot (I (iI t)))
    (B (iB b q 0)) (B (iB b q 1)) (B (iB b q 2)) (B (iB b q 3))
    (T (iT t 0)) (T (iT t 1)) (T (iT t 2)) (T (iT t 3))
    (T (iT t 0) - chalf * T (iT t 2)) (T (iT t 1) - chalf * T (iT t 3))
    (T (iT t 0) + chalf * T (iT t 2)) (T (iT t 1) + chalf * T (iT t 3))

/-- The class a label's word selects when it lies in [0, 91). -/
def cls (lab : BitVec 32) : Fin 91 := ⟨lab.toNat % 91, Nat.mod_lt _ (by decide)⟩

/-- The reference's cost matrix from the four argument arrays, at labels in range. -/
def RG (L : S16x900x91.Idx → EReal) (B : S16x900x4.Idx → EReal) (T : S1600x4.Idx → EReal) (I : S1600.Idx → BitVec 32) :
    S16x900x1600.Idx → EReal := fun i =>
  let b : Fin 16 := i 0
  let q : Fin 900 := i 1
  let t : Fin 1600 := i 2
  Rcost (L (iL b q (cls (I (iI t))))) (fun k => B (iB b q k)) (fun k => T (iT t k))

end Cert.Spec

end
-- ==== Proof.KPay.lean ====
import proofs.«420544_j2259152798180_3_alg».proof.Proof.FrameI
import proofs.«420544_j2259152798180_3_alg».proof.Proof.Spec
import Idealize.ShloMosaic.Lib.ValueIdx
import Idealize.ShloMosaic.Lib.ValueLayout
import Idealize.ShloMosaic.Lib.Pipeline.Value
import Idealize.ShloMosaic.PureOps.Ideal.Laws

/-! One entry of the tile the body stores, from the entries of the five blocks it loads: entry (p, q)
depends on row p of the logits and boxes blocks and on column q of the class columns and of the two
target tables, and is the kernel's arrangement of the cost at those numbers. -/

noncomputable section

namespace Cert.KernelIdeal.KP

open Idealize.ShloMosaic Idealize.ShloMosaic.ValueIdx Cert.KernelIdeal Cert.KernelIdeal.Gen Cert.KernelIdeal.Fr

/-! ## The boxes block: its four columns and the corners made of them, at row p -/

/-- The cast of the boxes block to its own shape is the block. -/
theorem pay3_eq (x1 : Vec Ideal S720x4 .f32) : k0_pay3 (F := Ideal) x1 = x1 := by
  unfold k0_pay3
  exact shapeCast_self _ _

/-- Column 0 of the boxes block at row p: the centre's x. -/
theorem pay4_apply (x1 : Vec Ideal S720x4 .f32) (p : Fin 720) :
    k0_pay4 (F := Ideal) x1 (ix2 p (0 : Fin 1)) = x1 (ix2 p (0 : Fin 4)) := by
  unfold k0_pay4
  rw [pay3_eq]
  exact slice2_axis1_apply 0 x1 slices_S720x4_o0_0_S720x1 p (0 : Fin 1) (0 : Fin 4) rfl

/-- Column 1 at row p: the centre's y. -/
theorem pay5_apply (x1 : Vec Ideal S720x4 .f32) (p : Fin 720) :
    k0_pay5 (F := Ideal) x1 (ix2 p (0 : Fin 1)) = x1 (ix2 p (1 : Fin 4)) := by
  unfold k0_pay5
  rw [pay3_eq]
  exact slice2_axis1_apply 1 x1 slices_S720x4_o0_1_S720x1 p (0 : Fin 1) (1 : Fin 4) rfl

/-- Column 2 at row p: the width. -/
theorem pay6_apply (x1 : Vec Ideal S720x4 .f32) (p : Fin 720) :
    k0_pay6 (F := Ideal) x1 (ix2 p (0 : Fin 1)) = x1 (ix2 p (2 : Fin 4)) := by
  unfold k0_pay6
  rw [pay3_eq]
  exact slice2_axis1_apply 2 x1 slices_S720x4_o0_2_S720x1 p (0 : Fin 1) (2 : Fin 4) rfl

/-- Column 3 at row p: the height. -/
theorem pay7_apply (x1 : Vec Ideal S720x4 .f32) (p : Fin 720) :
    k0_pay7 (F := Ideal) x1 (ix2 p (0 : Fin 1)) = x1 (ix2 p (3 : Fin 4)) := by
  unfold k0_pay7
  rw [pay3_eq]
  exact slice2_axis1_apply 3 x1 slices_S720x4_o0_3_S720x1 p (0 : Fin 1) (3 : Fin 4) rfl

/-- The left edge at row p: cx - w / 2. -/
theorem pay8_apply (x1 : Vec Ideal S720x4 .f32) (p : Fin 720) :
    k0_pay8 (F := Ideal) x1 (ix2 p (0 : Fin 1))
      = x1 (ix2 p (0 : Fin 4)) - Cert.Spec.chalf * x1 (ix2 p (2 : Fin 4)) := by
  unfold k0_pay8
  simp only [subf_apply, mulf_apply, broadcast_apply, pay4_apply, pay6_apply]
  rfl

/-- The top edge at row p: cy - h / 2. -/
theorem pay9_apply (x1 : Vec Ideal S720x4 .f32) (p : Fin 720) :
    k0_pay9 (F := Ideal) x1 (ix2 p (0 : Fin 1))
      = x1 (ix2 p (1 : Fin 4)) - Cert.Spec.chalf * x1 (ix2 p (3 : Fin 4)) := by
  unfold k0_pay9
  simp only [subf_apply, mulf_apply, broadcast_apply, pay5_apply, pay7_apply]
  rfl

/-- The right edge, from the centre's x and the width as columns: cx + c * w. -/
theorem pay10_apply (v31 v33 : FVec Ideal S720x1 .f32) (c : Ideal .f32) (i : S720x1.Idx) :
    k0_pay10 (F := Ideal) v31 v33 c i = v31 i + c * v33 i := rfl

/-- The bottom edge: cy + h / 2. -/
theorem pay11_apply (v32 v34 : FVec Ideal S720x1 .f32) (i : S720x1.Idx) :
    k0_pay11 (F := Ideal) v32 v34 i = v32 i + Cert.Spec.chalf * v34 i := rfl

/-- The query box's area, from its edges as columns. -/
theorem pay18_apply (v31 v32 v33 v34 v37 v40 : FVec Ideal S720x1 .f32) (c : Ideal .f32) (i : S720x1.Idx) :
    k0_pay18 (F := Ideal) v31 v32 v33 v34 v37 v40 c i
      = ((v31 i + c * v33 i) - v37 i) * ((v32 i + Cert.Spec.chalf * v34 i) - v40 i) := rfl

/-! ## The targets' corner table: its four rows and the area made of them, at column q -/

/-- The cast of a target table to its own shape is the table. -/
theorem pay13_eq (x4 : Vec Ideal S4x1600 .f32) : k0_pay13 (F := Ideal) x4 = x4 := by
  unfold k0_pay13
  exact shapeCast_self _ _

/-- Row 0 of the corner table at column q: the left edge. -/
theorem pay14_apply (x4 : Vec Ideal S4x1600 .f32) (q : Fin 1600) :
    k0_pay14 (F := Ideal) x4 (ix2 (0 : Fin 1) q) = x4 (ix2 (0 : Fin 4) q) := by
  unfold k0_pay14
  rw [pay13_eq]
  exact slice2_axis0_apply 0 x4 slices_S4x1600_o0_0_S1x1600 (0 : Fin 1) q (0 : Fin 4) rfl

/-- Row 1 at column q: the top edge. -/
theorem pay15_apply (x4 : Vec Ideal S4x1600 .f32) (q : Fin 1600) :
    k0_pay15 (F := Ideal) x4 (ix2 (0 : Fin 1) q) = x4 (ix2 (1 : Fin 4) q) := by
  unfold k0_pay15
  rw [pay13_eq]
  exact slice2_axis0_apply 1 x4 slices_S4x1600_o1_0_S1x1600 (0 : Fin 1) q (1 : Fin 4) rfl

/-- Row 2 at column q: the right edge. -/
theorem pay16_apply (x4 : Vec Ideal S4x1600 .f32) (q : Fin 1600) :
    k0_pay16 (F := Ideal) x4 (ix2 (0 : Fin 1) q) = x4 (ix2 (2 : Fin 4) q) := by
  unfold k0_pay16
  rw [pay13_eq]
  exact slice2_axis0_apply 2 x4 slices_S4x1600_o2_0_S1x1600 (0 : Fin 1) q (2 : Fin 4) rfl

/-- Row 3 at column q: the bottom edge. -/
theorem pay17_apply (x4 : Vec Ideal S4x1600 .f32) (q : Fin 1600) :
    k0_pay17 (F := Ideal) x4 (ix2 (0 : Fin 1) q) = x4 (ix2 (3 : Fin 4) q) := by
  unfold k0_pay17
  rw [pay13_eq]
  exact slice2_axis0_apply 3 x4 slices_S4x1600_o3_0_S1x1600 (0 : Fin 1) q (3 : Fin 4) rfl

/-- The target box's area at column q. -/
theorem pay19_apply (x4 : Vec Ideal S4x1600 .f32) (q : Fin 1600) :
    k0_pay19 (F := Ideal) x4 (ix2 (0 : Fin 1) q)
      = (x4 (ix2 (2 : Fin 4) q) - x4 (ix2 (0 : Fin 4) q)) * (x4 (ix2 (3 : Fin 4) q) - x4 (ix2 (1 : Fin 4) q)) := by
  unfold k0_pay19
  simp only [subf_apply, mulf_apply, pay14_apply, pay15_apply, pay16_apply, pay17_apply]

/-! ## Columns and rows spread over the tile -/

section Spread
variable {α : Type}

/-- A column spread over the tile reads, at (p, q), the column at p. -/
theorem bcol_apply (v : S720x1.Idx → α) (p : Fin 720) (q : Fin 1600) :
    broadcastTo S720x1600 v broadcasts_S720x1_S720x1600 (ix2 p q) = v (ix2 p (0 : Fin 1)) := by
  refine broadcastTo_apply v broadcasts_S720x1_S720x1600 (ix2 p q) (ix2 p (0 : Fin 1)) fun ax => ?_
  match ax with
  | ⟨0, _⟩ => rfl
  | ⟨1, _⟩ => rfl

/-- A row spread over the tile reads, at (p, q), the row at q. -/
theorem brow_apply (v : S1x1600.Idx → α) (p : Fin 720) (q : Fin 1600) :
    broadcastTo S720x1600 v broadcasts_S1x1600_S720x1600 (ix2 p q) = v (ix2 (0 : Fin 1) q) :=
  broadcastTo_1b_ab_apply v broadcasts_S1x1600_S720x1600 p q

end Spread

/-- The absolute value at an index is the larger of the element and its negation. -/
theorem absf_apply {s : Shape} (a : FVec Ideal s .f32) (i : s.Idx) : absf a i = max (a i) (-(a i)) := rfl

/-! ## The tile payloads at (p, q) -/

/-- The four rows of the centre-form target table at column q. -/
theorem slice3_apply (x3 : Vec Ideal S4x1600 .f32) (q : Fin 1600) :
    extractStridedSlice S1x1600 ![0, 0] (shapeCast S4x1600 x3 shapeCasts_S4x1600_S4x1600) slices_S4x1600_o0_0_S1x1600 (ix2 (0 : Fin 1) q)
        = x3 (ix2 (0 : Fin 4) q)
    ∧ extractStridedSlice S1x1600 ![1, 0] (shapeCast S4x1600 x3 shapeCasts_S4x1600_S4x1600) slices_S4x1600_o1_0_S1x1600 (ix2 (0 : Fin 1) q)
        = x3 (ix2 (1 : Fin 4) q)
    ∧ extractStridedSlice S1x1600 ![2, 0] (shapeCast S4x1600 x3 shapeCasts_S4x1600_S4x1600) slices_S4x1600_o2_0_S1x1600 (ix2 (0 : Fin 1) q)
        = x3 (ix2 (2 : Fin 4) q)
    ∧ extractStridedSlice S1x1600 ![3, 0] (shapeCast S4x1600 x3 shapeCasts_S4x1600_S4x1600) slices_S4x1600_o3_0_S1x1600 (ix2 (0 : Fin 1) q)
        = x3 (ix2 (3 : Fin 4) q) := by
  rw [shapeCast_self]
  exact ⟨slice2_axis0_apply 0 x3 slices_S4x1600_o0_0_S1x1600 (0 : Fin 1) q (0 : Fin 4) rfl,
    slice2_axis0_apply 1 x3 slices_S4x1600_o1_0_S1x1600 (0 : Fin 1) q (1 : Fin 4) rfl,
    slice2_axis0_apply 2 x3 slices_S4x1600_o2_0_S1x1600 (0 : Fin 1) q (2 : Fin 4) rfl,
    slice2_axis0_apply 3 x3 slices_S4x1600_o3_0_S1x1600 (0 : Fin 1) q (3 : Fin 4) rfl⟩

/-- The L1 distance at (p, q), from the query box's columns and the centre-form target table. -/
theorem pay12_apply (v31 v32 v33 v34 : FVec Ideal S720x1 .f32) (x3 : Vec Ideal S4x1600 .f32) (p : Fin 720) (q : Fin 1600) :
    k0_pay12 (F := Ideal) v31 v32 v33 v34 x3 (ix2 p q)
      = Cert.Spec.l1K (v31 (ix2 p (0 : Fin 1))) (v32 (ix2 p (0 : Fin 1))) (v33 (ix2 p (0 : Fin 1))) (v34 (ix2 p (0 : Fin 1)))
          (x3 (ix2 (0 : Fin 4) q)) (x3 (ix2 (1 : Fin 4) q)) (x3 (ix2 (2 : Fin 4) q)) (x3 (ix2 (3 : Fin 4) q)) := by
  obtain ⟨h0, h1, h2, h3⟩ := slice3_apply x3 q
  unfold k0_pay12
  simp only [addf_apply, subf_apply, absf_apply, bcol_apply, brow_apply, h0, h1, h2, h3]
  rfl

/-- The larger of the two left edges at (p, q). -/
theorem pay20_apply (v37 : FVec Ideal S720x1 .f32) (x4 : Vec Ideal S4x1600 .f32) (p : Fin 720) (q : Fin 1600) :
    k0_pay20 (F := Ideal) v37 x4 (ix2 p q) = max (v37 (ix2 p (0 : Fin 1))) (x4 (ix2 (0 : Fin 4) q)) := by
  unfold k0_pay20
  simp only [maximumf_apply, bcol_apply, brow_apply, pay14_apply]

/-- The larger of the two top edges at (p, q). -/
theorem pay21_apply (v40 : FVec Ideal S720x1 .f32) (x4 : Vec Ideal S4x1600 .f32) (p : Fin 720) (q : Fin 1600) :
    k0_pay21 (F := Ideal) v40 x4 (ix2 p q) = max (v40 (ix2 p (0 : Fin 1))) (x4 (ix2 (1 : Fin 4) q)) := by
  unfold k0_pay21
  simp only [maximumf_apply, bcol_apply, brow_apply, pay15_apply]

/-- The smaller of the two right edges at (p, q). -/
theorem pay22_apply (v31 v33 : FVec Ideal S720x1 .f32) (c : Ideal .f32) (x4 : Vec Ideal S4x1600 .f32) (p : Fin 720) (q : Fin 1600) :
    k0_pay22 (F := Ideal) v31 v33 c x4 (ix2 p q)
      = min (v31 (ix2 p (0 : Fin 1)) + c * v33 (ix2 p (0 : Fin 1))) (x4 (ix2 (2 : Fin 4) q)) := by
  unfold k0_pay22
  simp only [minimumf_apply, bcol_apply, brow_apply, pay16_apply, pay10_apply]

/-- The smaller of the two bottom edges at (p, q). -/
theorem pay23_apply (v32 v34 : FVec Ideal S720x1 .f32) (x4 : Vec Ideal S4x1600 .f32) (p : Fin 720) (q : Fin 1600) :
    k0_pay23 (F := Ideal) v32 v34 x4 (ix2 p q)
      = min (v32 (ix2 p (0 : Fin 1)) + Cert.Spec.chalf * v34 (ix2 p (0 : Fin 1))) (x4 (ix2 (3 : Fin 4) q)) := by
  unfold k0_pay23
  simp only [minimumf_apply, bcol_apply, brow_apply, pay17_apply, pay11_apply]

/-! ## The class cost: the product of the per-class costs with the class columns -/

/-- The left operand is read at the result's row … -/
theorem lhs_dot_0 (j : S720x1600.Idx) (k : dot_S720x91_S91x1600_S720x1600_1_0_0_1_n_n.contr.Idx) :
    (dot_S720x91_S91x1600_S720x1600_1_0_0_1_n_n.lhsIdx j k 0).val = (j 0).val := by
  unfold DotDims.lhsIdx
  rw [dif_neg (show ¬(0 : Fin S720x91.rank) ∈ dot_S720x91_S91x1600_S720x1600_1_0_0_1_n_n.lhsBatch by decide),
    dif_pos (show (0 : Fin S720x91.rank) ∈ dot_S720x91_S91x1600_S720x1600_1_0_0_1_n_n.lhsNonContracting by decide)]
  rfl

/-- … and at the contracted class on its columns. -/
theorem lhs_dot_1 (j : S720x1600.Idx) (k : dot_S720x91_S91x1600_S720x1600_1_0_0_1_n_n.contr.Idx) :
    (dot_S720x91_S91x1600_S720x1600_1_0_0_1_n_n.lhsIdx j k 1).val = (k ⟨0, by decide⟩).val :=
  dot_S720x91_S91x1600_S720x1600_1_0_0_1_n_n.lhsIdx_val_of_single (cl := 1) rfl j k

/-- The right operand is read at the contracted class on its rows … -/
theorem rhs_dot_0 (j : S720x1600.Idx) (k : dot_S720x91_S91x1600_S720x1600_1_0_0_1_n_n.contr.Idx) :
    (dot_S720x91_S91x1600_S720x1600_1_0_0_1_n_n.rhsIdx j k 0).val = (k ⟨0, by decide⟩).val :=
  dot_S720x91_S91x1600_S720x1600_1_0_0_1_n_n.rhsIdx_val_of_single (cr := 0) rfl j k

/-- … and at the result's column. -/
theorem rhs_dot_1 (j : S720x1600.Idx) (k : dot_S720x91_S91x1600_S720x1600_1_0_0_1_n_n.contr.Idx) :
    (dot_S720x91_S91x1600_S720x1600_1_0_0_1_n_n.rhsIdx j k 1).val = (j 1).val := by
  unfold DotDims.rhsIdx
  rw [dif_neg (show ¬(1 : Fin S91x1600.rank) ∈ dot_S720x91_S91x1600_S720x1600_1_0_0_1_n_n.rhsBatch by decide),
    dif_pos (show (1 : Fin S91x1600.rank) ∈ dot_S720x91_S91x1600_S720x1600_1_0_0_1_n_n.rhsNonContracting by decide)]
  rfl

/-- The product onto the zero tile at (p, q) is the sum over the 91 classes. -/
theorem dot_apply (A : FVec Ideal S720x91 .f32) (B : FVec Ideal S91x1600 .f32) (p : Fin 720) (q : Fin 1600) :
    matmul dot_S720x91_S91x1600_S720x1600_1_0_0_1_n_n (some .fp32) A B (constant (F := Ideal) S720x1600 .f32 0x00000000#32) (ix2 p q)
      = ∑ k : Fin 91, A (ix2 p k) * B (ix2 k q) := by
  show FloatOps.matmul _ _ A B _ (ix2 p q) = _
  rw [Ideal.matmul_constant_zero_apply,
    ← Equiv.sum_comp (contrEquiv1 dot_S720x91_S91x1600_S720x1600_1_0_0_1_n_n 91 rfl rfl).symm]
  refine Finset.sum_congr rfl fun c _ => ?_
  have hk := contrEquiv1_symm_val dot_S720x91_S91x1600_S720x1600_1_0_0_1_n_n 91 rfl rfl c
  have hl : dot_S720x91_S91x1600_S720x1600_1_0_0_1_n_n.lhsIdx (ix2 p q)
      ((contrEquiv1 dot_S720x91_S91x1600_S720x1600_1_0_0_1_n_n 91 rfl rfl).symm c) = ix2 p c := by
    funext ax; apply Fin.ext
    match ax with
    | ⟨0, _⟩ => exact lhs_dot_0 _ _
    | ⟨1, _⟩ => exact (lhs_dot_1 _ _).trans hk
  have hr : dot_S720x91_S91x1600_S720x1600_1_0_0_1_n_n.rhsIdx (ix2 p q)
      ((contrEquiv1 dot_S720x91_S91x1600_S720x1600_1_0_0_1_n_n 91 rfl rfl).symm c) = ix2 c q := by
    funext ax; apply Fin.ext
    match ax with
    | ⟨0, _⟩ => exact (rhs_dot_0 _ _).trans hk
    | ⟨1, _⟩ => exact rhs_dot_1 _ _
  rw [hl, hr]

/-- The class cost at (p, q): the per-class costs of row p weighted by the class column q. Each
    per-class cost is the chain logistic, 1 - p, the two logarithms, the two weighted squares, their
    difference doubled, read at (p, k). -/
theorem pay2_apply (x0 : Vec Ideal S720x91 .f32) (x2 : Vec Ideal S91x1600 .f32) (p : Fin 720) (q : Fin 1600) :
    k0_pay2 (F := Ideal) x0 x2 (ix2 p q)
      = Cert.Spec.clsK (fun k : Fin 91 => x0 (ix2 p k)) (fun k : Fin 91 => x2 (ix2 k q)) := by
  unfold k0_pay2
  rw [shapeCast_self, shapeCast_self]
  refine (dot_apply _ _ p q).trans ?_
  unfold Cert.Spec.clsK
  exact Finset.sum_congr rfl fun k _ => rfl

/-! ## The stored tile -/

/-- The stored tile at (p, q), from the sixteen values it is made of. -/
theorem pay1_apply (v28 : FVec Ideal S720x1600 .f32) (v37 v40 v43 v46 : FVec Ideal S720x1 .f32) (v71 : FVec Ideal S720x1600 .f32)
    (v74 v75 v76 v77 : FVec Ideal S1x1600 .f32) (v80 : FVec Ideal S720x1 .f32) (v83 : FVec Ideal S1x1600 .f32)
    (v86 v89 v92 v95 : FVec Ideal S720x1600 .f32) (p : Fin 720) (q : Fin 1600) :
    k0_pay1 (F := Ideal) v28 v37 v40 v43 v46 v71 v74 v75 v76 v77 v80 v83 v86 v89 v92 v95 (ix2 p q)
      = (Cert.Spec.c5 * v71 (ix2 p q) + v28 (ix2 p q))
        + Cert.Spec.c2 * (Cert.Spec.c1 - Ideal.div
            ((max (v92 (ix2 p q) - v86 (ix2 p q)) Cert.Spec.c0 * max (v95 (ix2 p q) - v89 (ix2 p q)) Cert.Spec.c0)
                * (max (max (v43 (ix2 p (0 : Fin 1))) (v76 (ix2 (0 : Fin 1) q)) - min (v37 (ix2 p (0 : Fin 1))) (v74 (ix2 (0 : Fin 1) q))) Cert.Spec.c0
                  * max (max (v46 (ix2 p (0 : Fin 1))) (v77 (ix2 (0 : Fin 1) q)) - min (v40 (ix2 p (0 : Fin 1))) (v75 (ix2 (0 : Fin 1) q))) Cert.Spec.c0)
              + ((v80 (ix2 p (0 : Fin 1)) + v83 (ix2 (0 : Fin 1) q))
                  - max (v92 (ix2 p q) - v86 (ix2 p q)) Cert.Spec.c0 * max (v95 (ix2 p q) - v89 (ix2 p q)) Cert.Spec.c0)
                * ((v80 (ix2 p (0 : Fin 1)) + v83 (ix2 (0 : Fin 1) q))
                  - max (v92 (ix2 p q) - v86 (ix2 p q)) Cert.Spec.c0 * max (v95 (ix2 p q) - v89 (ix2 p q)) Cert.Spec.c0))
            (((v80 (ix2 p (0 : Fin 1)) + v83 (ix2 (0 : Fin 1) q))
                  - max (v92 (ix2 p q) - v86 (ix2 p q)) Cert.Spec.c0 * max (v95 (ix2 p q) - v89 (ix2 p q)) Cert.Spec.c0)
              * (max (max (v43 (ix2 p (0 : Fin 1))) (v76 (ix2 (0 : Fin 1) q)) - min (v37 (ix2 p (0 : Fin 1))) (v74 (ix2 (0 : Fin 1) q))) Cert.Spec.c0
                  * max (max (v46 (ix2 p (0 : Fin 1))) (v77 (ix2 (0 : Fin 1) q)) - min (v40 (ix2 p (0 : Fin 1))) (v75 (ix2 (0 : Fin 1) q))) Cert.Spec.c0))) := by
  unfold k0_pay1
  simp only [addf_apply, subf_apply, mulf_apply, divf_apply, maximumf_apply, minimumf_apply, broadcast_apply,
    bcol_apply, brow_apply]
  rfl

/-- The stored tile at (p, q). -/
theorem bodyVal_apply (x0 : Vec Ideal S720x91 .f32) (x1 : Vec Ideal S720x4 .f32) (x2 : Vec Ideal S91x1600 .f32)
    (x3 : Vec Ideal S4x1600 .f32) (x4 : Vec Ideal S4x1600 .f32) (p : Fin 720) (q : Fin 1600) :
    bodyVal (F := Ideal) x0 x1 x2 x3 x4 (ix2 p q)
      = Cert.Spec.Kcost (fun k : Fin 91 => x0 (ix2 p k)) (fun k : Fin 91 => x2 (ix2 k q))
          (x1 (ix2 p (0 : Fin 4))) (x1 (ix2 p (1 : Fin 4))) (x1 (ix2 p (2 : Fin 4))) (x1 (ix2 p (3 : Fin 4)))
          (x3 (ix2 (0 : Fin 4) q)) (x3 (ix2 (1 : Fin 4) q)) (x3 (ix2 (2 : Fin 4) q)) (x3 (ix2 (3 : Fin 4) q))
          (x4 (ix2 (0 : Fin 4) q)) (x4 (ix2 (1 : Fin 4) q)) (x4 (ix2 (2 : Fin 4) q)) (x4 (ix2 (3 : Fin 4) q)) := by
  unfold bodyVal
  rw [pay1_apply]
  simp only [pay2_apply, pay12_apply, pay20_apply, pay21_apply, pay22_apply, pay23_apply, pay18_apply, pay19_apply,
    pay10_apply, pay11_apply, pay14_apply, pay15_apply, pay16_apply, pay17_apply, pay8_apply, pay9_apply,
    pay4_apply, pay5_apply, pay6_apply, pay7_apply]
  rfl

end Cert.KernelIdeal.KP

end
-- ==== Proof.KHost.lean ====
import proofs.«420544_j2259152798180_3_alg».proof.Proof.FrameI
import proofs.«420544_j2259152798180_3_alg».proof.Proof.Spec
import Idealize.ShloMosaic.Lib.ValueIdx
import Idealize.ShloMosaic.Lib.ValueLayout
import Idealize.ShloMosaic.Lib.Pipeline.Value
import Idealize.ShloMosaic.Lib.StableHlo.Run

/-! What the host lines before the region leave in the five arrays the region's windows read, entry
by entry, from the four argument arrays: the logits and the boxes with the two leading axes merged,
the 0/1 class columns, the targets in centre form transposed, the targets in corner form transposed. -/

noncomputable section

namespace Cert.KernelIdeal.KH

open Idealize.ShloMosaic Idealize.ShloMosaic.ValueIdx Cert.KernelIdeal Cert.KernelIdeal.Gen Cert.KernelIdeal.Fr Idealize.SL.Sem

variable (m : (ℓ : Loc nD τ sig) → Buf (Elt Ideal) ℓ) (c : Dev nD)

/-- The argument arrays as launched on core c. -/
abbrev aL : S16x900x91.Idx → EReal := m ((c.tc : Thread nD τ).loc main_arg0)
abbrev aB : S16x900x4.Idx → EReal := m ((c.tc : Thread nD τ).loc main_arg1)
abbrev aT : S1600x4.Idx → EReal := m ((c.tc : Thread nD τ).loc main_arg2)
abbrev aI : S1600.Idx → BitVec 32 := m ((c.tc : Thread nD τ).loc main_arg3)

/-! ## Each array as one term of the arguments -/

/-- The merged logits are the launched logits recast to [14400,91]. -/
theorem V_v0_eq : (V m c main_v0 : S14400x91.Idx → EReal) = shapeCast S14400x91 (aL m c) shapeCasts_S16x900x91_S14400x91 := by
  dsimp only [Fr.V, Fr.V0]
  simp only [hostOps0, hostOps0_1, hostOps0_2, List.flatten_cons, List.flatten_nil, List.append_nil, List.cons_append, List.nil_append]
  after_results
  rfl

/-- The merged boxes are the launched boxes recast to [14400,4]. -/
theorem V_v1_eq : (V m c main_v1 : S14400x4.Idx → EReal) = shapeCast S14400x4 (aB m c) shapeCasts_S16x900x4_S14400x4 := by
  dsimp only [Fr.V, Fr.V0]
  simp only [hostOps0, hostOps0_1, hostOps0_2, List.flatten_cons, List.flatten_nil, List.append_nil, List.cons_append, List.nil_append]
  after_results
  rfl

/-- The class columns: the labels spread along the classes, compared with the class numbers spread along the
    targets, the bit read as a number, transposed. -/
theorem V_v3_eq : (V m c main_v3 : S91x1600.Idx → EReal) =
    transpose S91x1600 [1, 0] (uitofp (F := Ideal) .f32 (cmpi .eq
      (broadcastInDim S1600x91 ![0, 1] bcast_S1600x1_S1600x91_0_1 (broadcastInDim S1600x1 ![0] bcast_S1600_S1600x1_0 (aI m c)))
      (broadcastInDim S1600x91 ![0, 1] bcast_S1x91_S1600x91_0_1 (iotaInDim S1x91 32 1)))) transposes_S1600x91_S91x1600_1_0 := by
  dsimp only [Fr.V, Fr.V0]
  simp only [hostOps0, hostOps0_1, hostOps0_2, List.flatten_cons, List.flatten_nil, List.append_nil, List.cons_append, List.nil_append]
  after_results
  rfl

/-- The centre-form rows: the four columns of the targets, each flattened and laid as one row, stacked. -/
theorem V_v16_eq : (V m c main_v16 : S4x1600.Idx → EReal) =
    concatenate S4x1600 0
      [⟨S1x1600, broadcastInDim S1x1600 ![1] bcast_S1600_S1x1600_1
          (shapeCast S1600 (extractStridedSlice S1600x1 ![0, 0] (aT m c) slices_S1600x4_S1600x1_0_0) shapeCasts_S1600x1_S1600)⟩,
       ⟨S1x1600, broadcastInDim S1x1600 ![1] bcast_S1600_S1x1600_1
          (shapeCast S1600 (extractStridedSlice S1600x1 ![0, 1] (aT m c) slices_S1600x4_S1600x1_0_1) shapeCasts_S1600x1_S1600)⟩,
       ⟨S1x1600, broadcastInDim S1x1600 ![1] bcast_S1600_S1x1600_1
          (shapeCast S1600 (extractStridedSlice S1600x1 ![0, 2] (aT m c) slices_S1600x4_S1600x1_0_2) shapeCasts_S1600x1_S1600)⟩,
       ⟨S1x1600, broadcastInDim S1x1600 ![1] bcast_S1600_S1x1600_1
          (shapeCast S1600 (extractStridedSlice S1600x1 ![0, 3] (aT m c) slices_S1600x4_S1600x1_0_3) shapeCasts_S1600x1_S1600)⟩]
      concatenates_S1x1600_S1x1600_S1x1600_S1x1600_S4x1600_d0 := by
  dsimp only [Fr.V, Fr.V0]
  simp only [hostOps0, hostOps0_1, hostOps0_2, List.flatten_cons, List.flatten_nil, List.append_nil, List.cons_append, List.nil_append]
  after_results
  rfl

/-- Column r of the targets as a [1600] vector. -/
abbrev tc0 : S1600.Idx → EReal := shapeCast S1600 (extractStridedSlice S1600x1 ![0, 0] (aT m c) slices_S1600x4_S1600x1_0_0) shapeCasts_S1600x1_S1600
abbrev tc1 : S1600.Idx → EReal := shapeCast S1600 (extractStridedSlice S1600x1 ![0, 1] (aT m c) slices_S1600x4_S1600x1_0_1) shapeCasts_S1600x1_S1600
abbrev tc2 : S1600.Idx → EReal := shapeCast S1600 (extractStridedSlice S1600x1 ![0, 2] (aT m c) slices_S1600x4_S1600x1_0_2) shapeCasts_S1600x1_S1600
abbrev tc3 : S1600.Idx → EReal := shapeCast S1600 (extractStridedSlice S1600x1 ![0, 3] (aT m c) slices_S1600x4_S1600x1_0_3) shapeCasts_S1600x1_S1600
/-- The constant one half spread over [1600]. -/
abbrev halfv : S1600.Idx → EReal := broadcastInDim S1600 ![] bcast_S_S1600 (constant (F := Ideal) S_ .f32 0x3F000000#32)

/-- The corner-form rows: centre minus or plus half the extent, column by column, each laid as one row, stacked. -/
theorem V_v33_eq : (V m c main_v33 : S4x1600.Idx → EReal) =
    concatenate S4x1600 0
      [⟨S1x1600, broadcastInDim S1x1600 ![1] bcast_S1600_S1x1600_1 (subf (F := Ideal) (φ := .f32) (tc0 m c) (mulf (F := Ideal) (φ := .f32) halfv (tc2 m c)))⟩,
       ⟨S1x1600, broadcastInDim S1x1600 ![1] bcast_S1600_S1x1600_1 (subf (F := Ideal) (φ := .f32) (tc1 m c) (mulf (F := Ideal) (φ := .f32) halfv (tc3 m c)))⟩,
       ⟨S1x1600, broadcastInDim S1x1600 ![1] bcast_S1600_S1x1600_1 (addf (F := Ideal) (φ := .f32) (tc0 m c) (mulf (F := Ideal) (φ := .f32) halfv (tc2 m c)))⟩,
       ⟨S1x1600, broadcastInDim S1x1600 ![1] bcast_S1600_S1x1600_1 (addf (F := Ideal) (φ := .f32) (tc1 m c) (mulf (F := Ideal) (φ := .f32) halfv (tc3 m c)))⟩]
      concatenates_S1x1600_S1x1600_S1x1600_S1x1600_S4x1600_d0 := by
  dsimp only [Fr.V, Fr.V0]
  simp only [hostOps0, hostOps0_1, hostOps0_2, List.flatten_cons, List.flatten_nil, List.append_nil, List.cons_append, List.nil_append]
  after_results
  rfl

/-! ## The pieces read at an index -/

section Pieces
variable (x : S1600x4.Idx → EReal) (t : Fin 1600)

/-- Column 0 of a [1600,4] array, flattened, at t. -/
theorem colv0 : shapeCast S1600 (extractStridedSlice S1600x1 ![0, 0] x slices_S1600x4_S1600x1_0_0) shapeCasts_S1600x1_S1600 (ix1 t)
    = x (ix2 t (0 : Fin 4)) := by
  refine (shapeCast_apply _ _ (ix1 t) (ix2 t (0 : Fin 1)) (by
    rw [Shape.rowMajor_val_two, Shape.rowMajor_val_one]; show t.val * 1 + 0 = t.val; omega)).trans ?_
  exact extractStridedSlice_apply _ _ _ _ (ix2 t (0 : Fin 4)) (fun a => match a with
    | ⟨0, _⟩ => by show t.val = 0 + t.val; omega
    | ⟨1, _⟩ => rfl)
/-- Column 1. -/
theorem colv1 : shapeCast S1600 (extractStridedSlice S1600x1 ![0, 1] x slices_S1600x4_S1600x1_0_1) shapeCasts_S1600x1_S1600 (ix1 t)
    = x (ix2 t (1 : Fin 4)) := by
  refine (shapeCast_apply _ _ (ix1 t) (ix2 t (0 : Fin 1)) (by
    rw [Shape.rowMajor_val_two, Shape.rowMajor_val_one]; show t.val * 1 + 0 = t.val; omega)).trans ?_
  exact extractStridedSlice_apply _ _ _ _ (ix2 t (1 : Fin 4)) (fun a => match a with
    | ⟨0, _⟩ => by show t.val = 0 + t.val; omega
    | ⟨1, _⟩ => rfl)
/-- Column 2. -/
theorem colv2 : shapeCast S1600 (extractStridedSlice S1600x1 ![0, 2] x slices_S1600x4_S1600x1_0_2) shapeCasts_S1600x1_S1600 (ix1 t)
    = x (ix2 t (2 : Fin 4)) := by
  refine (shapeCast_apply _ _ (ix1 t) (ix2 t (0 : Fin 1)) (by
    rw [Shape.rowMajor_val_two, Shape.rowMajor_val_one]; show t.val * 1 + 0 = t.val; omega)).trans ?_
  exact extractStridedSlice_apply _ _ _ _ (ix2 t (2 : Fin 4)) (fun a => match a with
    | ⟨0, _⟩ => by show t.val = 0 + t.val; omega
    | ⟨1, _⟩ => rfl)
/-- Column 3. -/
theorem colv3 : shapeCast S1600 (extractStridedSlice S1600x1 ![0, 3] x slices_S1600x4_S1600x1_0_3) shapeCasts_S1600x1_S1600 (ix1 t)
    = x (ix2 t (3 : Fin 4)) := by
  refine (shapeCast_apply _ _ (ix1 t) (ix2 t (0 : Fin 1)) (by
    rw [Shape.rowMajor_val_two, Shape.rowMajor_val_one]; show t.val * 1 + 0 = t.val; omega)).trans ?_
  exact extractStridedSlice_apply _ _ _ _ (ix2 t (3 : Fin 4)) (fun a => match a with
    | ⟨0, _⟩ => by show t.val = 0 + t.val; omega
    | ⟨1, _⟩ => rfl)

/-- A [1600] vector laid as the one row of a [1,1600] array. -/
theorem row_apply (y : S1600.Idx → EReal) : broadcastInDim S1x1600 ![1] bcast_S1600_S1x1600_1 y (ix2 (0 : Fin 1) t) = y (ix1 t) :=
  broadcastInDim_apply _ _ _ _ (ix1 t) (fun a => match a with | ⟨0, _⟩ => rfl)

variable (x0 x1 x2 x3 : S1x1600.Idx → EReal)

/-- Row r of four one-row arrays stacked is the r-th of them. -/
theorem stack0 : concatenate S4x1600 0 [⟨S1x1600, x0⟩, ⟨S1x1600, x1⟩, ⟨S1x1600, x2⟩, ⟨S1x1600, x3⟩]
    concatenates_S1x1600_S1x1600_S1x1600_S1x1600_S4x1600_d0 (ix2 (0 : Fin 4) t) = x0 (ix2 (0 : Fin 1) t) :=
  concatenate_apply_piece (t := S4x1600) 0 [⟨S1x1600, x0⟩, ⟨S1x1600, x1⟩, ⟨S1x1600, x2⟩, ⟨S1x1600, x3⟩]
    concatenates_S1x1600_S1x1600_S1x1600_S1x1600_S4x1600_d0 (ix2 (0 : Fin 4) t) 0 (by decide : 0 < 4) S1x1600 x0 rfl rfl 0 rfl (ix2 (0 : Fin 1) t)
    (fun b => match b with | ⟨0, _⟩ => fun h => absurd rfl h | ⟨1, _⟩ => fun _ => rfl) rfl
theorem stack1 : concatenate S4x1600 0 [⟨S1x1600, x0⟩, ⟨S1x1600, x1⟩, ⟨S1x1600, x2⟩, ⟨S1x1600, x3⟩]
    concatenates_S1x1600_S1x1600_S1x1600_S1x1600_S4x1600_d0 (ix2 (1 : Fin 4) t) = x1 (ix2 (0 : Fin 1) t) :=
  concatenate_apply_piece (t := S4x1600) 0 [⟨S1x1600, x0⟩, ⟨S1x1600, x1⟩, ⟨S1x1600, x2⟩, ⟨S1x1600, x3⟩]
    concatenates_S1x1600_S1x1600_S1x1600_S1x1600_S4x1600_d0 (ix2 (1 : Fin 4) t) 1 (by decide : 1 < 4) S1x1600 x1 rfl rfl 1 rfl (ix2 (0 : Fin 1) t)
    (fun b => match b with | ⟨0, _⟩ => fun h => absurd rfl h | ⟨1, _⟩ => fun _ => rfl) rfl
theorem stack2 : concatenate S4x1600 0 [⟨S1x1600, x0⟩, ⟨S1x1600, x1⟩, ⟨S1x1600, x2⟩, ⟨S1x1600, x3⟩]
    concatenates_S1x1600_S1x1600_S1x1600_S1x1600_S4x1600_d0 (ix2 (2 : Fin 4) t) = x2 (ix2 (0 : Fin 1) t) :=
  concatenate_apply_piece (t := S4x1600) 0 [⟨S1x1600, x0⟩, ⟨S1x1600, x1⟩, ⟨S1x1600, x2⟩, ⟨S1x1600, x3⟩]
    concatenates_S1x1600_S1x1600_S1x1600_S1x1600_S4x1600_d0 (ix2 (2 : Fin 4) t) 2 (by decide : 2 < 4) S1x1600 x2 rfl rfl 2 rfl (ix2 (0 : Fin 1) t)
    (fun b => match b with | ⟨0, _⟩ => fun h => absurd rfl h | ⟨1, _⟩ => fun _ => rfl) rfl
theorem stack3 : concatenate S4x1600 0 [⟨S1x1600, x0⟩, ⟨S1x1600, x1⟩, ⟨S1x1600, x2⟩, ⟨S1x1600, x3⟩]
    concatenates_S1x1600_S1x1600_S1x1600_S1x1600_S4x1600_d0 (ix2 (3 : Fin 4) t) = x3 (ix2 (0 : Fin 1) t) :=
  concatenate_apply_piece (t := S4x1600) 0 [⟨S1x1600, x0⟩, ⟨S1x1600, x1⟩, ⟨S1x1600, x2⟩, ⟨S1x1600, x3⟩]
    concatenates_S1x1600_S1x1600_S1x1600_S1x1600_S4x1600_d0 (ix2 (3 : Fin 4) t) 3 (by decide : 3 < 4) S1x1600 x3 rfl rfl 3 rfl (ix2 (0 : Fin 1) t)
    (fun b => match b with | ⟨0, _⟩ => fun h => absurd rfl h | ⟨1, _⟩ => fun _ => rfl) rfl

end Pieces

/-- The spread constant reads one half everywhere. -/
theorem halfv_apply (t : Fin 1600) : halfv (ix1 t) = Cert.Spec.chalf :=
  (broadcastInDim_apply _ _ _ (ix1 t) ix0 (fun a => a.elim0)).trans rfl

/-! ## The five arrays entry by entry -/

/-- Row n of the merged logits is row (n / 900, n % 900). -/
theorem V_v0 (b : Fin 16) (q : Fin 900) (k : Fin 91) :
    (V m c main_v0 : S14400x91.Idx → EReal) (ix2 (⟨b.val * 900 + q.val, by have := b.isLt; have := q.isLt; omega⟩ : Fin 14400) k) = aL m c (ix3 b q k) := by
  rw [V_v0_eq]
  exact shapeCast_apply _ _ _ _ (by
    rw [Shape.rowMajor_val_three, Shape.rowMajor_val_two]
    show (b.val * 900 + q.val) * 91 + k.val = (b.val * 900 + q.val) * 91 + k.val
    rfl)

/-- The same for the boxes. -/
theorem V_v1 (b : Fin 16) (q : Fin 900) (k : Fin 4) :
    (V m c main_v1 : S14400x4.Idx → EReal) (ix2 (⟨b.val * 900 + q.val, by have := b.isLt; have := q.isLt; omega⟩ : Fin 14400) k) = aB m c (ix3 b q k) := by
  rw [V_v1_eq]
  exact shapeCast_apply _ _ _ _ (by
    rw [Shape.rowMajor_val_three, Shape.rowMajor_val_two]
    show (b.val * 900 + q.val) * 4 + k.val = (b.val * 900 + q.val) * 4 + k.val
    rfl)

/-- The class columns: entry (k, t) is 1 when target t's label is class k, else 0. -/
theorem V_v3 (k : Fin 91) (t : Fin 1600) :
    (V m c main_v3 : S91x1600.Idx → EReal) (ix2 k t) = Cert.Spec.onehot (aI m c (ix1 t)) k := by
  rw [V_v3_eq]
  refine (transpose_apply _ _ _ (ix2 k t) (ix2 t k) (fun b => match b with | ⟨0, _⟩ => rfl | ⟨1, _⟩ => rfl)).trans ?_
  have h1 : broadcastInDim S1600x91 ![0, 1] bcast_S1600x1_S1600x91_0_1 (broadcastInDim S1600x1 ![0] bcast_S1600_S1600x1_0 (aI m c)) (ix2 t k)
      = aI m c (ix1 t) := by
    refine (broadcastInDim_apply _ _ _ (ix2 t k) (ix2 t (0 : Fin 1)) (fun a => match a with | ⟨0, _⟩ => rfl | ⟨1, _⟩ => rfl)).trans ?_
    exact broadcastInDim_apply _ _ _ _ (ix1 t) (fun a => match a with | ⟨0, _⟩ => rfl)
  have h2 : broadcastInDim S1600x91 ![0, 1] bcast_S1x91_S1600x91_0_1 (iotaInDim S1x91 32 1) (ix2 t k) = BitVec.ofNat 32 k.val :=
    (broadcastInDim_apply _ _ _ (ix2 t k) (ix2 (0 : Fin 1) k) (fun a => match a with | ⟨0, _⟩ => rfl | ⟨1, _⟩ => rfl)).trans rfl
  show (((IntOp.cmpi .eq
      (broadcastInDim S1600x91 ![0, 1] bcast_S1600x1_S1600x91_0_1 (broadcastInDim S1600x1 ![0] bcast_S1600_S1600x1_0 (aI m c)) (ix2 t k))
      (broadcastInDim S1600x91 ![0, 1] bcast_S1x91_S1600x91_0_1 (iotaInDim S1x91 32 1) (ix2 t k))).toNat : ℝ) : EReal) = _
  rw [h1, h2]
  unfold Cert.Spec.onehot
  by_cases h : aI m c (ix1 t) = BitVec.ofNat 32 k.val
  · rw [if_pos h]
    have e : IntOp.cmpi .eq (aI m c (ix1 t)) (BitVec.ofNat 32 k.val) = 1#1 := by simp [IntOp.cmpi, h]
    rw [e]; simp
  · rw [if_neg h]
    have hb : (aI m c (ix1 t) == BitVec.ofNat 32 k.val) = false := beq_eq_false_iff_ne.mpr h
    have e : IntOp.cmpi .eq (aI m c (ix1 t)) (BitVec.ofNat 32 k.val) = 0#1 := by simp [IntOp.cmpi, hb]
    rw [e]; simp

/-- The targets in centre form, transposed. -/
theorem V_v16 (r : Fin 4) (t : Fin 1600) :
    (V m c main_v16 : S4x1600.Idx → EReal) (ix2 r t) = aT m c (ix2 t r) := by
  rw [V_v16_eq]
  match r with
  | ⟨0, _⟩ => exact (stack0 t _ _ _ _).trans ((row_apply t _).trans (colv0 _ t))
  | ⟨1, _⟩ => exact (stack1 t _ _ _ _).trans ((row_apply t _).trans (colv1 _ t))
  | ⟨2, _⟩ => exact (stack2 t _ _ _ _).trans ((row_apply t _).trans (colv2 _ t))
  | ⟨3, _⟩ => exact (stack3 t _ _ _ _).trans ((row_apply t _).trans (colv3 _ t))

/-- The targets in corner form, transposed: rows x1, y1, x2, y2. -/
theorem V_v33_0 (t : Fin 1600) : (V m c main_v33 : S4x1600.Idx → EReal) (ix2 (0 : Fin 4) t)
    = aT m c (ix2 t (0 : Fin 4)) - Cert.Spec.chalf * aT m c (ix2 t (2 : Fin 4)) := by
  rw [V_v33_eq]
  refine (stack0 t _ _ _ _).trans ((row_apply t _).trans ?_)
  show tc0 m c (ix1 t) - halfv (ix1 t) * tc2 m c (ix1 t) = _
  rw [halfv_apply, show tc0 m c (ix1 t) = _ from colv0 _ t, show tc2 m c (ix1 t) = _ from colv2 _ t]
theorem V_v33_1 (t : Fin 1600) : (V m c main_v33 : S4x1600.Idx → EReal) (ix2 (1 : Fin 4) t)
    = aT m c (ix2 t (1 : Fin 4)) - Cert.Spec.chalf * aT m c (ix2 t (3 : Fin 4)) := by
  rw [V_v33_eq]
  refine (stack1 t _ _ _ _).trans ((row_apply t _).trans ?_)
  show tc1 m c (ix1 t) - halfv (ix1 t) * tc3 m c (ix1 t) = _
  rw [halfv_apply, show tc1 m c (ix1 t) = _ from colv1 _ t, show tc3 m c (ix1 t) = _ from colv3 _ t]
theorem V_v33_2 (t : Fin 1600) : (V m c main_v33 : S4x1600.Idx → EReal) (ix2 (2 : Fin 4) t)
    = aT m c (ix2 t (0 : Fin 4)) + Cert.Spec.chalf * aT m c (ix2 t (2 : Fin 4)) := by
  rw [V_v33_eq]
  refine (stack2 t _ _ _ _).trans ((row_apply t _).trans ?_)
  show tc0 m c (ix1 t) + halfv (ix1 t) * tc2 m c (ix1 t) = _
  rw [halfv_apply, show tc0 m c (ix1 t) = _ from colv0 _ t, show tc2 m c (ix1 t) = _ from colv2 _ t]
theorem V_v33_3 (t : Fin 1600) : (V m c main_v33 : S4x1600.Idx → EReal) (ix2 (3 : Fin 4) t)
    = aT m c (ix2 t (1 : Fin 4)) + Cert.Spec.chalf * aT m c (ix2 t (3 : Fin 4)) := by
  rw [V_v33_eq]
  refine (stack3 t _ _ _ _).trans ((row_apply t _).trans ?_)
  show tc1 m c (ix1 t) + halfv (ix1 t) * tc3 m c (ix1 t) = _
  rw [halfv_apply, show tc1 m c (ix1 t) = _ from colv1 _ t, show tc3 m c (ix1 t) = _ from colv3 _ t]

end Cert.KernelIdeal.KH

end
-- ==== Proof.KVal.lean ====
import proofs.«420544_j2259152798180_3_alg».proof.Proof.FrameI
import proofs.«420544_j2259152798180_3_alg».proof.Proof.KPay
import proofs.«420544_j2259152798180_3_alg».proof.Proof.KHost
import proofs.«420544_j2259152798180_3_alg».proof.Proof.Spec
import Idealize.ShloMosaic.Lib.ValueIdx
import Idealize.ShloMosaic.Lib.Pipeline.Value
import Idealize.ShloMosaic.Lib.StableHlo.Run

/-! The kernel program's result as one function of the argument arrays.  Point t of the grid writes
back rows 720 t .. 720 t + 719 of the cost matrix, each entry the kernel's arrangement of the cost at
the numbers the host lines put in the windows' arrays; the twenty blocks cover the matrix; the last
host line splits the row axis back into (batch, query). -/

noncomputable section

namespace Cert.KernelIdeal.KV

open Idealize.ShloMosaic Idealize.ShloMosaic.ValueIdx Cert.KernelIdeal Cert.KernelIdeal.Gen Cert.KernelIdeal.Fr Idealize.SL.Sem

section Blocks

variable (m : (ℓ : Loc nD τ sig) → Buf (Elt Ideal) ℓ) (c : Dev nD)

/-- The zero offsets, as a function. -/
theorem hz : (![0, 0] : Fin 2 → Nat) = fun _ => 0 := funext fun a => by fin_cases a <;> rfl

/-- The cost matrix with the batch and query axes merged: row n is (n / 900, n % 900). -/
def Gk : S14400x1600.Idx → EReal := fun j =>
  Cert.Spec.KG (KH.aL m c) (KH.aB m c) (KH.aT m c) (KH.aI m c)
    (ix3 (⟨(j 0).val / 900, by have := idx2_lt0 j; omega⟩ : Fin 16) (⟨(j 0).val % 900, Nat.mod_lt _ (by decide)⟩ : Fin 900)
      (⟨(j 1).val, idx2_lt1 j⟩ : Fin 1600))

/-- The windows' index maps over the grid: the row-blocked windows are at block (t, 0), the resident ones at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The grid has twenty points. -/
theorem t_lt (t : Fin cfg0.N) : t.val < 20 := lt_of_lt_of_eq t.isLt N_0

/-- The logits block at point t is rows 720 t .. 720 t + 719 of the merged logits. -/
theorem blk0_apply (t : Fin cfg0.N) (p : Fin 720) (k : Fin 91) :
    (iblk m c 0 t : Vec Ideal S720x91 .f32) (ix2 p k)
      = (V m c main_v0 : S14400x91.Idx → EReal) (ix2 (⟨720 * t.val + p.val, by have := t_lt t; have := p.isLt; omega⟩ : Fin 14400) k) := by
  obtain ⟨e0, e1, -⟩ := idx_facts t
  show V m c main_v0 (((cfg0.win 0).blk t).view.emb (ix2 p k)) = V m c main_v0 _
  refine congrArg _ (funext fun a => Fin.ext ?_)
  match a with
  | ⟨0, _⟩ => show win0_0.index t (0 : Fin 2) * 720 + 1 * p.val = 720 * t.val + p.val; rw [e0]; omega
  | ⟨1, _⟩ => show win0_0.index t (1 : Fin 2) * 91 + 1 * k.val = k.val; rw [e1]; omega

/-- The boxes block at point t is the same rows of the merged boxes. -/
theorem blk1_apply (t : Fin cfg0.N) (p : Fin 720) (k : Fin 4) :
    (iblk m c 1 t : Vec Ideal S720x4 .f32) (ix2 p k)
      = (V m c main_v1 : S14400x4.Idx → EReal) (ix2 (⟨720 * t.val + p.val, by have := t_lt t; have := p.isLt; omega⟩ : Fin 14400) k) := by
  obtain ⟨-, -, e0, e1, -⟩ := idx_facts t
  show V m c main_v1 (((cfg0.win 1).blk t).view.emb (ix2 p k)) = V m c main_v1 _
  refine congrArg _ (funext fun a => Fin.ext ?_)
  match a with
  | ⟨0, _⟩ => show win0_1.index t (0 : Fin 2) * 720 + 1 * p.val = 720 * t.val + p.val; rw [e0]; omega
  | ⟨1, _⟩ => show win0_1.index t (1 : Fin 2) * 4 + 1 * k.val = k.val; rw [e1]; omega

/-- The class columns' block is the whole array at every point. -/
theorem blk2_apply (t : Fin cfg0.N) (k : Fin 91) (q : Fin 1600) :
    (iblk m c 2 t : Vec Ideal S91x1600 .f32) (ix2 k q) = (V m c main_v3 : S91x1600.Idx → EReal) (ix2 k q) := by
  obtain ⟨-, -, -, -, e0, e1, -⟩ := idx_facts t
  show V m c main_v3 (((cfg0.win 2).blk t).view.emb (ix2 k q)) = V m c main_v3 _
  refine congrArg _ (funext fun a => Fin.ext ?_)
  match a with
  | ⟨0, _⟩ => show win0_2.index t (0 : Fin 2) * 91 + 1 * k.val = k.val; rw [e0]; omega
  | ⟨1, _⟩ => show win0_2.index t (1 : Fin 2) * 1600 + 1 * q.val = q.val; rw [e1]; omega

/-- So is the block of the targets in centre form. -/
theorem blk3_apply (t : Fin cfg0.N) (r : Fin 4) (q : Fin 1600) :
    (iblk m c 3 t : Vec Ideal S4x1600 .f32) (ix2 r q) = (V m c main_v16 : S4x1600.Idx → EReal) (ix2 r q) := by
  obtain ⟨-, -, -, -, -, -, e0, e1, -⟩ := idx_facts t
  show V m c main_v16 (((cfg0.win 3).blk t).view.emb (ix2 r q)) = V m c main_v16 _
  refine congrArg _ (funext fun a => Fin.ext ?_)
  match a with
  | ⟨0, _⟩ => show win0_3.index t (0 : Fin 2) * 4 + 1 * r.val = r.val; rw [e0]; omega
  | ⟨1, _⟩ => show win0_3.index t (1 : Fin 2) * 1600 + 1 * q.val = q.val; rw [e1]; omega

/-- And of the targets in corner form. -/
theorem blk4_apply (t : Fin cfg0.N) (r : Fin 4) (q : Fin 1600) :
    (iblk m c 4 t : Vec Ideal S4x1600 .f32) (ix2 r q) = (V m c main_v33 : S4x1600.Idx → EReal) (ix2 r q) := by
  obtain ⟨-, -, -, -, -, -, -, -, e0, e1, -⟩ := idx_facts t
  show V m c main_v33 (((cfg0.win 4).blk t).view.emb (ix2 r q)) = V m c main_v33 _
  refine congrArg _ (funext fun a => Fin.ext ?_)
  match a with
  | ⟨0, _⟩ => show win0_4.index t (0 : Fin 2) * 4 + 1 * r.val = r.val; rw [e0]; omega
  | ⟨1, _⟩ => show win0_4.index t (1 : Fin 2) * 1600 + 1 * q.val = q.val; rw [e1]; omega

/-- Row n of the merged arrays is (n / 900, n % 900). -/
theorem row_split (n : Nat) (h : n < 14400) (h' : n / 900 * 900 + n % 900 < 14400) :
    (⟨n, h⟩ : Fin 14400) = ⟨n / 900 * 900 + n % 900, h'⟩ := Fin.ext (by show n = n / 900 * 900 + n % 900; omega)

/-- Row n of the merged logits, from the logits as launched. -/
theorem logits_row (n : Nat) (hn : n < 14400) (k : Fin 91) :
    (V m c main_v0 : S14400x91.Idx → EReal) (ix2 (⟨n, hn⟩ : Fin 14400) k)
      = KH.aL m c (ix3 (⟨n / 900, by omega⟩ : Fin 16) (⟨n % 900, Nat.mod_lt _ (by decide)⟩ : Fin 900) k) := by
  rw [row_split n hn (by omega)]
  exact KH.V_v0 m c (⟨n / 900, by omega⟩ : Fin 16) (⟨n % 900, Nat.mod_lt _ (by decide)⟩ : Fin 900) k

/-- Row n of the merged boxes, from the boxes as launched. -/
theorem boxes_row (n : Nat) (hn : n < 14400) (k : Fin 4) :
    (V m c main_v1 : S14400x4.Idx → EReal) (ix2 (⟨n, hn⟩ : Fin 14400) k)
      = KH.aB m c (ix3 (⟨n / 900, by omega⟩ : Fin 16) (⟨n % 900, Nat.mod_lt _ (by decide)⟩ : Fin 900) k) := by
  rw [row_split n hn (by omega)]
  exact KH.V_v1 m c (⟨n / 900, by omega⟩ : Fin 16) (⟨n % 900, Nat.mod_lt _ (by decide)⟩ : Fin 900) k

/-- Entry (p, q) of the tile of point t is entry (720 t + p, q) of the merged cost matrix. -/
theorem tile_apply (t : Fin cfg0.N) (p : Fin 720) (q : Fin 1600) :
    bodyVal (F := Ideal) (iblk m c 0 t) (iblk m c 1 t) (iblk m c 2 t) (iblk m c 3 t) (iblk m c 4 t) (ix2 p q)
      = Gk m c (ix2 (⟨720 * t.val + p.val, by have := t_lt t; have := p.isLt; omega⟩ : Fin 14400) q) := by
  have hn : 720 * t.val + p.val < 14400 := by have := t_lt t; have := p.isLt; omega
  refine (KP.bodyVal_apply (iblk m c 0 t) (iblk m c 1 t) (iblk m c 2 t) (iblk m c 3 t) (iblk m c 4 t) p q).trans ?_
  have hL : (fun k : Fin 91 => (iblk m c 0 t : Vec Ideal S720x91 .f32) (ix2 p k))
      = fun k => KH.aL m c (ix3 (⟨(720 * t.val + p.val) / 900, by omega⟩ : Fin 16) (⟨(720 * t.val + p.val) % 900, Nat.mod_lt _ (by decide)⟩ : Fin 900) k) :=
    funext fun k => (blk0_apply m c t p k).trans (logits_row m c _ hn k)
  have hH : (fun k : Fin 91 => (iblk m c 2 t : Vec Ideal S91x1600 .f32) (ix2 k q))
      = fun k => Cert.Spec.onehot (KH.aI m c (ix1 q)) k :=
    funext fun k => (blk2_apply m c t k q).trans (KH.V_v3 m c k q)
  have hB : ∀ k : Fin 4, (iblk m c 1 t : Vec Ideal S720x4 .f32) (ix2 p k)
      = KH.aB m c (ix3 (⟨(720 * t.val + p.val) / 900, by omega⟩ : Fin 16) (⟨(720 * t.val + p.val) % 900, Nat.mod_lt _ (by decide)⟩ : Fin 900) k) :=
    fun k => (blk1_apply m c t p k).trans (boxes_row m c _ hn k)
  have hT : ∀ r : Fin 4, (iblk m c 3 t : Vec Ideal S4x1600 .f32) (ix2 r q) = KH.aT m c (ix2 q r) :=
    fun r => (blk3_apply m c t r q).trans (KH.V_v16 m c r q)
  have hC0 := (blk4_apply m c t 0 q).trans (KH.V_v33_0 m c q)
  have hC1 := (blk4_apply m c t 1 q).trans (KH.V_v33_1 m c q)
  have hC2 := (blk4_apply m c t 2 q).trans (KH.V_v33_2 m c q)
  have hC3 := (blk4_apply m c t 3 q).trans (KH.V_v33_3 m c q)
  rw [hL, hH, hB 0, hB 1, hB 2, hB 3, hT 0, hT 1, hT 2, hT 3, hC0, hC1, hC2, hC3]
  rfl

/-- What point t writes back is block t of the merged cost matrix. -/
theorem flushed_eq (t : Fin cfg0.N) :
    (dats m 0 c).flushed 5 t = ((cfg0.win 5).blk t).view.read (Elt Ideal) (Gk m c) := by
  show (cfg0.win 5).cut (grid0.coords t) ((dats m 0 c).after 5 t) = _
  rw [after0_5]
  unfold out0_5
  rw [View.canon_unit_zero hz]
  simp only [View.ld_unit_zero (S := S720x91) hz, View.ld_unit_zero (S := S720x4) hz, View.ld_unit_zero (S := S91x1600) hz, View.ld_unit_zero (S := S4x1600) hz]
  funext y
  obtain ⟨p, q, rfl⟩ : ∃ (p : Fin 720) (q : Fin 1600), y = ix2 p q := ⟨y 0, y 1, eq_ix2 (n0 := 720) (n1 := 1600) y⟩
  obtain ⟨-, -, -, -, -, -, -, -, -, -, e0, e1⟩ := idx_facts t
  refine (tile_apply m c t p q).trans ?_
  show Gk m c _ = Gk m c (((cfg0.win 5).blk t).view.emb (ix2 p q))
  refine congrArg _ (funext fun a => Fin.ext ?_)
  match a with
  | ⟨0, _⟩ => show 720 * t.val + p.val = win0_5.index t (0 : Fin 2) * 720 + 1 * p.val; rw [e0]; omega
  | ⟨1, _⟩ => show q.val = win0_5.index t (1 : Fin 2) * 1600 + 1 * q.val; rw [e1]; omega

/-- An index of the merged matrix is in point t's block iff each coordinate is in the block's range on its axis. -/
theorem mem_blk (t : Fin cfg0.N) (i : S14400x1600.Idx) :
    i ∈ ((cfg0.win 5).blk t).view.set ↔ ∀ a : Fin 2, win0_5.index t a * S720x1600.size a ≤ (i a).val ∧ (i a).val < win0_5.index t a * S720x1600.size a + S720x1600.size a := by
  show i ∈ ((View.whole main_v34).slice (win0_5.rect t)).set ↔ _
  rw [View.set_slice_whole, Rect.mem_set_unit]
  exact Iff.rfl

/-- Row r of the merged matrix is in the block of point r / 720. -/
theorem cover (i : S14400x1600.Idx) : ∃ t : Fin cfg0.N, (cfg0.win 5).flush t = true ∧ i ∈ ((cfg0.win 5).blk t).view.set := by
  have hi0 : (i 0).val < 14400 := idx2_lt0 i
  have hi1 : (i 1).val < 1600 := idx2_lt1 i
  have hN : cfg0.N = 20 := N_0
  let t : Fin cfg0.N := ⟨(i 0).val / 720, by rw [hN]; omega⟩
  obtain ⟨-, -, -, -, -, -, -, -, -, -, e0, e1⟩ := idx_facts t
  have ht : t.val = (i 0).val / 720 := rfl
  refine ⟨t, flush0_5 t, ?_⟩
  rw [mem_blk]
  intro a
  match a with
  | ⟨0, _⟩ => show win0_5.index t (0 : Fin 2) * 720 ≤ (i 0).val ∧ (i 0).val < win0_5.index t (0 : Fin 2) * 720 + 720; rw [e0, ht]; omega
  | ⟨1, _⟩ => show win0_5.index t (1 : Fin 2) * 1600 ≤ (i 1).val ∧ (i 1).val < win0_5.index t (1 : Fin 2) * 1600 + 1600; rw [e1]; omega

/-- The region's result array ends holding the merged cost matrix. -/
theorem final : (dats m 0 c).arrAt 5 cfg0.N = Gk m c :=
  (dats m 0 c).arrAt_eq_of_cover 5 (Gk m c) (fun t _ => flushed_eq m c t) cover

/-- The result after the last host line: the merged matrix with its row axis split back. -/
theorem tail_eq : Pipeline.afterTail₀ cfgs (dats m) 0 (V0 m) [hostOps1] c main_v35
    = Cert.Spec.KG (KH.aL m c) (KH.aB m c) (KH.aT m c) (KH.aI m c) := by
  have e : Pipeline.withArrays (cfgs 0).spec c (V0 m c) (fun w => (dats m 0 c).arrAt w (cfgs 0).N) (Proc.devRef .tc main_v34) = Gk m c :=
    (Pipeline.withArrays_arr spec0 launch0.win.arr_inj c _ _ 5).trans (final m c)
  unfold Pipeline.afterTail₀
  show StableHlo.after hostOps1 _ (Proc.devRef .tc main_v35) = _
  after_results
  funext i
  obtain ⟨b, q, t, rfl⟩ : ∃ (b : Fin 16) (q : Fin 900) (t : Fin 1600), i = ix3 b q t :=
    ⟨i 0, i 1, i 2, eq_ix3 (n0 := 16) (n1 := 900) (n2 := 1600) i⟩
  show shapeCast S16x900x1600 (Pipeline.withArrays (cfgs 0).spec c (V0 m c) (fun w => (dats m 0 c).arrAt w (cfgs 0).N) (Proc.devRef .tc main_v34))
      shapeCasts_S14400x1600_S16x900x1600 (ix3 b q t) = _
  rw [e]
  have hb := b.isLt
  have hq := q.isLt
  refine (shapeCast_apply (Gk m c) shapeCasts_S14400x1600_S16x900x1600 (ix3 b q t)
    (ix2 (⟨b.val * 900 + q.val, by omega⟩ : Fin 14400) t) ?_).trans ?_
  · rw [Shape.rowMajor_val_two, Shape.rowMajor_val_three]
    rfl
  · unfold Gk
    refine congrArg _ (funext fun a => Fin.ext ?_)
    match a with
    | ⟨0, _⟩ => show (b.val * 900 + q.val) / 900 = b.val; omega
    | ⟨1, _⟩ => show (b.val * 900 + q.val) % 900 = q.val; omega
    | ⟨2, _⟩ => rfl

end Blocks

/-- Every weakly fair execution of the idealized kernel program ends with its result at the kernel's
    cost matrix of the argument arrays, and the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v35)
        = Cert.Spec.KG (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v35 (Pipeline.mem_restRefs_of main_v35 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.KV

end
-- ==== Proof.RefGiou.lean ====
import proofs.«420544_j2259152798180_3_alg».proof.Proof.RefRun
import proofs.«420544_j2259152798180_3_alg».proof.Proof.Spec
import Idealize.ShloMosaic.Lib.ValueIdx
import Idealize.ShloMosaic.Lib.ValueLayout
import Idealize.ShloMosaic.Lib.Pipeline.Value

/-! The reference's generalized-IoU cost of query row n and target t, read off its host lines entry
by entry: it depends on the four numbers of the query's box and the four of the target's. -/

noncomputable section

namespace Cert.RefV

open Idealize.ShloMosaic Idealize.ShloMosaic.ValueIdx Cert.ReferenceIdeal Cert.ReferenceIdeal.Gen Cert.ReferenceIdeal.Read

local macro "idx1" : tactic =>
  `(tactic| exact funext fun a => Fin.ext (by match a with | ⟨0, _⟩ => first | rfl | exact Nat.div_one _))
local macro "idx2" : tactic =>
  `(tactic| exact funext fun a => Fin.ext (by match a with
    | ⟨0, _⟩ => first | rfl | exact Nat.div_one _
    | ⟨1, _⟩ => first | rfl | exact Nat.div_one _))
local macro "idx3" : tactic =>
  `(tactic| exact funext fun a => Fin.ext (by match a with
    | ⟨0, _⟩ => first | rfl | exact Nat.div_one _
    | ⟨1, _⟩ => first | rfl | exact Nat.div_one _
    | ⟨2, _⟩ => first | rfl | exact Nat.div_one _))

/-! ## The query rows: centre form to corners -/

/-- The reshaped query array at row 900 b + q is the argument at (b, q). -/
theorem v7_at (x1 : S16x900x4.Idx → EReal) (b : Fin 16) (q : Fin 900) (k : Fin 4) :
    val_main_v7 (F := Ideal) x1 (ix2 (⟨b.val * 900 + q.val, by have := b.isLt; have := q.isLt; omega⟩ : Fin 14400) k) = x1 (ix3 b q k) := by
  rw [val_main_v7_apply]
  have hb := b.isLt; have hq := q.isLt; have hk := k.isLt
  exact congrArg _ (funext fun a => Fin.ext (by match a with
    | ⟨0, _⟩ => show ((b.val * 900 + q.val) * 4 + k.val) / 3600 = b.val; omega
    | ⟨1, _⟩ => show ((b.val * 900 + q.val) * 4 + k.val) / 4 % 900 = q.val; omega
    | ⟨2, _⟩ => show ((b.val * 900 + q.val) * 4 + k.val) % 4 = k.val; omega))

/-- Column 0 of the query array as a vector. -/
theorem v46_at (x1 : S16x900x4.Idx → EReal) (n : Fin 14400) :
    val_main_v46 (F := Ideal) x1 (ix1 n) = val_main_v7 (F := Ideal) x1 (ix2 n 0) := by
  rw [val_main_v46_apply, val_main_v45_apply]
  exact congrArg _ (by idx2)

/-- Column 1 of the query array as a vector. -/
theorem v48_at (x1 : S16x900x4.Idx → EReal) (n : Fin 14400) :
    val_main_v48 (F := Ideal) x1 (ix1 n) = val_main_v7 (F := Ideal) x1 (ix2 n 1) := by
  rw [val_main_v48_apply, val_main_v47_apply]
  exact congrArg _ (by idx2)

/-- Column 2 of the query array as a vector. -/
theorem v50_at (x1 : S16x900x4.Idx → EReal) (n : Fin 14400) :
    val_main_v50 (F := Ideal) x1 (ix1 n) = val_main_v7 (F := Ideal) x1 (ix2 n 2) := by
  rw [val_main_v50_apply, val_main_v49_apply]
  exact congrArg _ (by idx2)

/-- Column 3 of the query array as a vector. -/
theorem v52_at (x1 : S16x900x4.Idx → EReal) (n : Fin 14400) :
    val_main_v52 (F := Ideal) x1 (ix1 n) = val_main_v7 (F := Ideal) x1 (ix2 n 3) := by
  rw [val_main_v52_apply, val_main_v51_apply]
  exact congrArg _ (by idx2)

theorem v55_at (x1 : S16x900x4.Idx → EReal) (n : Fin 14400) :
    val_main_v55 (F := Ideal) x1 (ix1 n)
      = val_main_v7 (F := Ideal) x1 (ix2 n 0) - Cert.Spec.chalf * val_main_v7 (F := Ideal) x1 (ix2 n 2) := by
  rw [val_main_v55_apply, val_main_v54_apply, val_main_v53_apply, val_main_cst_11_apply, v46_at, v50_at]
  rfl

theorem v58_at (x1 : S16x900x4.Idx → EReal) (n : Fin 14400) :
    val_main_v58 (F := Ideal) x1 (ix1 n)
      = val_main_v7 (F := Ideal) x1 (ix2 n 1) - Cert.Spec.chalf * val_main_v7 (F := Ideal) x1 (ix2 n 3) := by
  rw [val_main_v58_apply, val_main_v57_apply, val_main_v56_apply, val_main_cst_12_apply, v48_at, v52_at]
  rfl

theorem v61_at (x1 : S16x900x4.Idx → EReal) (n : Fin 14400) :
    val_main_v61 (F := Ideal) x1 (ix1 n)
      = val_main_v7 (F := Ideal) x1 (ix2 n 0) + Cert.Spec.chalf * val_main_v7 (F := Ideal) x1 (ix2 n 2) := by
  rw [val_main_v61_apply, val_main_v60_apply, val_main_v59_apply, val_main_cst_13_apply, v46_at, v50_at]
  rfl

theorem v64_at (x1 : S16x900x4.Idx → EReal) (n : Fin 14400) :
    val_main_v64 (F := Ideal) x1 (ix1 n)
      = val_main_v7 (F := Ideal) x1 (ix2 n 1) + Cert.Spec.chalf * val_main_v7 (F := Ideal) x1 (ix2 n 3) := by
  rw [val_main_v64_apply, val_main_v63_apply, val_main_v62_apply, val_main_cst_14_apply, v48_at, v52_at]
  rfl

/-- The corner array of the queries, column by column: x1, y1, x2, y2. -/
theorem v69_at0 (x1 : S16x900x4.Idx → EReal) (n : Fin 14400) :
    val_main_v69 (F := Ideal) x1 (ix2 n 0) = val_main_v55 (F := Ideal) x1 (ix1 n) := by
  unfold val_main_v69
  refine (concatenate_apply_piece (α := EReal) (t := S14400x4) 1
    [⟨S14400x1, val_main_v65 (F := Ideal) x1⟩, ⟨S14400x1, val_main_v66 (F := Ideal) x1⟩,
      ⟨S14400x1, val_main_v67 (F := Ideal) x1⟩, ⟨S14400x1, val_main_v68 (F := Ideal) x1⟩]
    concatenates_S14400x1_S14400x1_S14400x1_S14400x1_S14400x4_d1 (ix2 n 0)
    0 (by show 0 < 4; omega) S14400x1 (val_main_v65 (F := Ideal) x1) rfl rfl 0 rfl (ix2 n 0)
    (fun b hb => by match b with | ⟨0, _⟩ => rfl | ⟨1, _⟩ => exact absurd rfl hb) rfl).trans ?_
  rw [val_main_v65_apply]
  exact congrArg _ (by idx1)

theorem v69_at1 (x1 : S16x900x4.Idx → EReal) (n : Fin 14400) :
    val_main_v69 (F := Ideal) x1 (ix2 n 1) = val_main_v58 (F := Ideal) x1 (ix1 n) := by
  unfold val_main_v69
  refine (concatenate_apply_piece (α := EReal) (t := S14400x4) 1
    [⟨S14400x1, val_main_v65 (F := Ideal) x1⟩, ⟨S14400x1, val_main_v66 (F := Ideal) x1⟩,
      ⟨S14400x1, val_main_v67 (F := Ideal) x1⟩, ⟨S14400x1, val_main_v68 (F := Ideal) x1⟩]
    concatenates_S14400x1_S14400x1_S14400x1_S14400x1_S14400x4_d1 (ix2 n 1)
    1 (by show 1 < 4; omega) S14400x1 (val_main_v66 (F := Ideal) x1) rfl rfl 1 rfl (ix2 n 0)
    (fun b hb => by match b with | ⟨0, _⟩ => rfl | ⟨1, _⟩ => exact absurd rfl hb) rfl).trans ?_
  rw [val_main_v66_apply]
  exact congrArg _ (by idx1)

theorem v69_at2 (x1 : S16x900x4.Idx → EReal) (n : Fin 14400) :
    val_main_v69 (F := Ideal) x1 (ix2 n 2) = val_main_v61 (F := Ideal) x1 (ix1 n) := by
  unfold val_main_v69
  refine (concatenate_apply_piece (α := EReal) (t := S14400x4) 1
    [⟨S14400x1, val_main_v65 (F := Ideal) x1⟩, ⟨S14400x1, val_main_v66 (F := Ideal) x1⟩,
      ⟨S14400x1, val_main_v67 (F := Ideal) x1⟩, ⟨S14400x1, val_main_v68 (F := Ideal) x1⟩]
    concatenates_S14400x1_S14400x1_S14400x1_S14400x1_S14400x4_d1 (ix2 n 2)
    2 (by show 2 < 4; omega) S14400x1 (val_main_v67 (F := Ideal) x1) rfl rfl 2 rfl (ix2 n 0)
    (fun b hb => by match b with | ⟨0, _⟩ => rfl | ⟨1, _⟩ => exact absurd rfl hb) rfl).trans ?_
  rw [val_main_v67_apply]
  exact congrArg _ (by idx1)

theorem v69_at3 (x1 : S16x900x4.Idx → EReal) (n : Fin 14400) :
    val_main_v69 (F := Ideal) x1 (ix2 n 3) = val_main_v64 (F := Ideal) x1 (ix1 n) := by
  unfold val_main_v69
  refine (concatenate_apply_piece (α := EReal) (t := S14400x4) 1
    [⟨S14400x1, val_main_v65 (F := Ideal) x1⟩, ⟨S14400x1, val_main_v66 (F := Ideal) x1⟩,
      ⟨S14400x1, val_main_v67 (F := Ideal) x1⟩, ⟨S14400x1, val_main_v68 (F := Ideal) x1⟩]
    concatenates_S14400x1_S14400x1_S14400x1_S14400x1_S14400x4_d1 (ix2 n 3)
    3 (by show 3 < 4; omega) S14400x1 (val_main_v68 (F := Ideal) x1) rfl rfl 3 rfl (ix2 n 0)
    (fun b hb => by match b with | ⟨0, _⟩ => rfl | ⟨1, _⟩ => exact absurd rfl hb) rfl).trans ?_
  rw [val_main_v68_apply]
  exact congrArg _ (by idx1)

/-! ## The target rows: centre form to corners -/

/-- Column 0 of the target array as a vector. -/
theorem v71_at (x2 : S1600x4.Idx → EReal) (t : Fin 1600) :
    val_main_v71 (F := Ideal) x2 (ix1 t) = x2 (ix2 t 0) := by
  rw [val_main_v71_apply, val_main_v70_apply]
  exact congrArg _ (by idx2)

/-- Column 1 of the target array as a vector. -/
theorem v73_at (x2 : S1600x4.Idx → EReal) (t : Fin 1600) :
    val_main_v73 (F := Ideal) x2 (ix1 t) = x2 (ix2 t 1) := by
  rw [val_main_v73_apply, val_main_v72_apply]
  exact congrArg _ (by idx2)

/-- Column 2 of the target array as a vector. -/
theorem v75_at (x2 : S1600x4.Idx → EReal) (t : Fin 1600) :
    val_main_v75 (F := Ideal) x2 (ix1 t) = x2 (ix2 t 2) := by
  rw [val_main_v75_apply, val_main_v74_apply]
  exact congrArg _ (by idx2)

/-- Column 3 of the target array as a vector. -/
theorem v77_at (x2 : S1600x4.Idx → EReal) (t : Fin 1600) :
    val_main_v77 (F := Ideal) x2 (ix1 t) = x2 (ix2 t 3) := by
  rw [val_main_v77_apply, val_main_v76_apply]
  exact congrArg _ (by idx2)

theorem v80_at (x2 : S1600x4.Idx → EReal) (t : Fin 1600) :
    val_main_v80 (F := Ideal) x2 (ix1 t) = x2 (ix2 t 0) - Cert.Spec.chalf * x2 (ix2 t 2) := by
  rw [val_main_v80_apply, val_main_v79_apply, val_main_v78_apply, val_main_cst_15_apply, v71_at, v75_at]
  rfl

theorem v83_at (x2 : S1600x4.Idx → EReal) (t : Fin 1600) :
    val_main_v83 (F := Ideal) x2 (ix1 t) = x2 (ix2 t 1) - Cert.Spec.chalf * x2 (ix2 t 3) := by
  rw [val_main_v83_apply, val_main_v82_apply, val_main_v81_apply, val_main_cst_16_apply, v73_at, v77_at]
  rfl

theorem v86_at (x2 : S1600x4.Idx → EReal) (t : Fin 1600) :
    val_main_v86 (F := Ideal) x2 (ix1 t) = x2 (ix2 t 0) + Cert.Spec.chalf * x2 (ix2 t 2) := by
  rw [val_main_v86_apply, val_main_v85_apply, val_main_v84_apply, val_main_cst_17_apply, v71_at, v75_at]
  rfl

theorem v89_at (x2 : S1600x4.Idx → EReal) (t : Fin 1600) :
    val_main_v89 (F := Ideal) x2 (ix1 t) = x2 (ix2 t 1) + Cert.Spec.chalf * x2 (ix2 t 3) := by
  rw [val_main_v89_apply, val_main_v88_apply, val_main_v87_apply, val_main_cst_18_apply, v73_at, v77_at]
  rfl

/-- The corner array of the targets, column by column. -/
theorem v94_at0 (x2 : S1600x4.Idx → EReal) (n : Fin 1600) :
    val_main_v94 (F := Ideal) x2 (ix2 n 0) = val_main_v80 (F := Ideal) x2 (ix1 n) := by
  unfold val_main_v94
  refine (concatenate_apply_piece (α := EReal) (t := S1600x4) 1
    [⟨S1600x1, val_main_v90 (F := Ideal) x2⟩, ⟨S1600x1, val_main_v91 (F := Ideal) x2⟩,
      ⟨S1600x1, val_main_v92 (F := Ideal) x2⟩, ⟨S1600x1, val_main_v93 (F := Ideal) x2⟩]
    concatenates_S1600x1_S1600x1_S1600x1_S1600x1_S1600x4_d1 (ix2 n 0)
    0 (by show 0 < 4; omega) S1600x1 (val_main_v90 (F := Ideal) x2) rfl rfl 0 rfl (ix2 n 0)
    (fun b hb => by match b with | ⟨0, _⟩ => rfl | ⟨1, _⟩ => exact absurd rfl hb) rfl).trans ?_
  rw [val_main_v90_apply]
  exact congrArg _ (by idx1)

theorem v94_at1 (x2 : S1600x4.Idx → EReal) (n : Fin 1600) :
    val_main_v94 (F := Ideal) x2 (ix2 n 1) = val_main_v83 (F := Ideal) x2 (ix1 n) := by
  unfold val_main_v94
  refine (concatenate_apply_piece (α := EReal) (t := S1600x4) 1
    [⟨S1600x1, val_main_v90 (F := Ideal) x2⟩, ⟨S1600x1, val_main_v91 (F := Ideal) x2⟩,
      ⟨S1600x1, val_main_v92 (F := Ideal) x2⟩, ⟨S1600x1, val_main_v93 (F := Ideal) x2⟩]
    concatenates_S1600x1_S1600x1_S1600x1_S1600x1_S1600x4_d1 (ix2 n 1)
    1 (by show 1 < 4; omega) S1600x1 (val_main_v91 (F := Ideal) x2) rfl rfl 1 rfl (ix2 n 0)
    (fun b hb => by match b with | ⟨0, _⟩ => rfl | ⟨1, _⟩ => exact absurd rfl hb) rfl).trans ?_
  rw [val_main_v91_apply]
  exact congrArg _ (by idx1)

theorem v94_at2 (x2 : S1600x4.Idx → EReal) (n : Fin 1600) :
    val_main_v94 (F := Ideal) x2 (ix2 n 2) = val_main_v86 (F := Ideal) x2 (ix1 n) := by
  unfold val_main_v94
  refine (concatenate_apply_piece (α := EReal) (t := S1600x4) 1
    [⟨S1600x1, val_main_v90 (F := Ideal) x2⟩, ⟨S1600x1, val_main_v91 (F := Ideal) x2⟩,
      ⟨S1600x1, val_main_v92 (F := Ideal) x2⟩, ⟨S1600x1, val_main_v93 (F := Ideal) x2⟩]
    concatenates_S1600x1_S1600x1_S1600x1_S1600x1_S1600x4_d1 (ix2 n 2)
    2 (by show 2 < 4; omega) S1600x1 (val_main_v92 (F := Ideal) x2) rfl rfl 2 rfl (ix2 n 0)
    (fun b hb => by match b with | ⟨0, _⟩ => rfl | ⟨1, _⟩ => exact absurd rfl hb) rfl).trans ?_
  rw [val_main_v92_apply]
  exact congrArg _ (by idx1)

theorem v94_at3 (x2 : S1600x4.Idx → EReal) (n : Fin 1600) :
    val_main_v94 (F := Ideal) x2 (ix2 n 3) = val_main_v89 (F := Ideal) x2 (ix1 n) := by
  unfold val_main_v94
  refine (concatenate_apply_piece (α := EReal) (t := S1600x4) 1
    [⟨S1600x1, val_main_v90 (F := Ideal) x2⟩, ⟨S1600x1, val_main_v91 (F := Ideal) x2⟩,
      ⟨S1600x1, val_main_v92 (F := Ideal) x2⟩, ⟨S1600x1, val_main_v93 (F := Ideal) x2⟩]
    concatenates_S1600x1_S1600x1_S1600x1_S1600x1_S1600x4_d1 (ix2 n 3)
    3 (by show 3 < 4; omega) S1600x1 (val_main_v93 (F := Ideal) x2) rfl rfl 3 rfl (ix2 n 0)
    (fun b hb => by match b with | ⟨0, _⟩ => rfl | ⟨1, _⟩ => exact absurd rfl hb) rfl).trans ?_
  rw [val_main_v93_apply]
  exact congrArg _ (by idx1)

/-! ## The two areas -/

theorem v96_at (x1 : S16x900x4.Idx → EReal) (n : Fin 14400) :
    val_main_v96 (F := Ideal) x1 (ix1 n) = val_main_v69 (F := Ideal) x1 (ix2 n 2) := by
  rw [val_main_v96_apply, val_main_v95_apply]
  exact congrArg _ (by idx2)

theorem v98_at (x1 : S16x900x4.Idx → EReal) (n : Fin 14400) :
    val_main_v98 (F := Ideal) x1 (ix1 n) = val_main_v69 (F := Ideal) x1 (ix2 n 0) := by
  rw [val_main_v98_apply, val_main_v97_apply]
  exact congrArg _ (by idx2)

theorem v101_at (x1 : S16x900x4.Idx → EReal) (n : Fin 14400) :
    val_main_v101 (F := Ideal) x1 (ix1 n) = val_main_v69 (F := Ideal) x1 (ix2 n 3) := by
  rw [val_main_v101_apply, val_main_v100_apply]
  exact congrArg _ (by idx2)

theorem v103_at (x1 : S16x900x4.Idx → EReal) (n : Fin 14400) :
    val_main_v103 (F := Ideal) x1 (ix1 n) = val_main_v69 (F := Ideal) x1 (ix2 n 1) := by
  rw [val_main_v103_apply, val_main_v102_apply]
  exact congrArg _ (by idx2)

/-- The area of the query's box. -/
theorem v105_at (x1 : S16x900x4.Idx → EReal) (n : Fin 14400) :
    val_main_v105 (F := Ideal) x1 (ix1 n)
      = (val_main_v69 (F := Ideal) x1 (ix2 n 2) - val_main_v69 (F := Ideal) x1 (ix2 n 0))
        * (val_main_v69 (F := Ideal) x1 (ix2 n 3) - val_main_v69 (F := Ideal) x1 (ix2 n 1)) := by
  rw [val_main_v105_apply, val_main_v99_apply, val_main_v104_apply, v96_at, v98_at, v101_at, v103_at]
  rfl

theorem v107_at (x2 : S1600x4.Idx → EReal) (t : Fin 1600) :
    val_main_v107 (F := Ideal) x2 (ix1 t) = val_main_v94 (F := Ideal) x2 (ix2 t 2) := by
  rw [val_main_v107_apply, val_main_v106_apply]
  exact congrArg _ (by idx2)

theorem v109_at (x2 : S1600x4.Idx → EReal) (t : Fin 1600) :
    val_main_v109 (F := Ideal) x2 (ix1 t) = val_main_v94 (F := Ideal) x2 (ix2 t 0) := by
  rw [val_main_v109_apply, val_main_v108_apply]
  exact congrArg _ (by idx2)

theorem v112_at (x2 : S1600x4.Idx → EReal) (t : Fin 1600) :
    val_main_v112 (F := Ideal) x2 (ix1 t) = val_main_v94 (F := Ideal) x2 (ix2 t 3) := by
  rw [val_main_v112_apply, val_main_v111_apply]
  exact congrArg _ (by idx2)

theorem v114_at (x2 : S1600x4.Idx → EReal) (t : Fin 1600) :
    val_main_v114 (F := Ideal) x2 (ix1 t) = val_main_v94 (F := Ideal) x2 (ix2 t 1) := by
  rw [val_main_v114_apply, val_main_v113_apply]
  exact congrArg _ (by idx2)

/-- The area of the target's box. -/
theorem v116_at (x2 : S1600x4.Idx → EReal) (t : Fin 1600) :
    val_main_v116 (F := Ideal) x2 (ix1 t)
      = (val_main_v94 (F := Ideal) x2 (ix2 t 2) - val_main_v94 (F := Ideal) x2 (ix2 t 0))
        * (val_main_v94 (F := Ideal) x2 (ix2 t 3) - val_main_v94 (F := Ideal) x2 (ix2 t 1)) := by
  rw [val_main_v116_apply, val_main_v110_apply, val_main_v115_apply, v107_at, v109_at, v112_at, v114_at]
  rfl

/-! ## The pair (n, t): intersection, union, enclosing box -/

/-- Column k of the first two corner columns, and of the last two. -/
abbrev lo (k : Fin 2) : Fin 4 := ⟨k.val, by have := k.isLt; omega⟩
abbrev hi (k : Fin 2) : Fin 4 := ⟨2 + k.val, by have := k.isLt; omega⟩

theorem v121_at (x1 : S16x900x4.Idx → EReal) (n : Fin 14400) (t : Fin 1600) (k : Fin 2) :
    val_main_v121 (F := Ideal) x1 (ix3 n t k) = val_main_v69 (F := Ideal) x1 (ix2 n (lo k)) := by
  rw [val_main_v121_apply, val_main_v118_apply, val_main_v117_apply]
  exact congrArg _ (by idx2)

theorem v122_at (x2 : S1600x4.Idx → EReal) (n : Fin 14400) (t : Fin 1600) (k : Fin 2) :
    val_main_v122 (F := Ideal) x2 (ix3 n t k) = val_main_v94 (F := Ideal) x2 (ix2 t (lo k)) := by
  rw [val_main_v122_apply, val_main_v120_apply, val_main_v119_apply]
  exact congrArg _ (by idx2)

theorem v128_at (x1 : S16x900x4.Idx → EReal) (n : Fin 14400) (t : Fin 1600) (k : Fin 2) :
    val_main_v128 (F := Ideal) x1 (ix3 n t k) = val_main_v69 (F := Ideal) x1 (ix2 n (hi k)) := by
  rw [val_main_v128_apply, val_main_v125_apply, val_main_v124_apply]
  exact congrArg _ (by idx2)

theorem v129_at (x2 : S1600x4.Idx → EReal) (n : Fin 14400) (t : Fin 1600) (k : Fin 2) :
    val_main_v129 (F := Ideal) x2 (ix3 n t k) = val_main_v94 (F := Ideal) x2 (ix2 t (hi k)) := by
  rw [val_main_v129_apply, val_main_v127_apply, val_main_v126_apply]
  exact congrArg _ (by idx2)

theorem v149_at (x1 : S16x900x4.Idx → EReal) (n : Fin 14400) (t : Fin 1600) (k : Fin 2) :
    val_main_v149 (F := Ideal) x1 (ix3 n t k) = val_main_v69 (F := Ideal) x1 (ix2 n (lo k)) := by
  rw [val_main_v149_apply, val_main_v146_apply, val_main_v145_apply]
  exact congrArg _ (by idx2)

theorem v150_at (x2 : S1600x4.Idx → EReal) (n : Fin 14400) (t : Fin 1600) (k : Fin 2) :
    val_main_v150 (F := Ideal) x2 (ix3 n t k) = val_main_v94 (F := Ideal) x2 (ix2 t (lo k)) := by
  rw [val_main_v150_apply, val_main_v148_apply, val_main_v147_apply]
  exact congrArg _ (by idx2)

theorem v156_at (x1 : S16x900x4.Idx → EReal) (n : Fin 14400) (t : Fin 1600) (k : Fin 2) :
    val_main_v156 (F := Ideal) x1 (ix3 n t k) = val_main_v69 (F := Ideal) x1 (ix2 n (hi k)) := by
  rw [val_main_v156_apply, val_main_v153_apply, val_main_v152_apply]
  exact congrArg _ (by idx2)

theorem v157_at (x2 : S1600x4.Idx → EReal) (n : Fin 14400) (t : Fin 1600) (k : Fin 2) :
    val_main_v157 (F := Ideal) x2 (ix3 n t k) = val_main_v94 (F := Ideal) x2 (ix2 t (hi k)) := by
  rw [val_main_v157_apply, val_main_v155_apply, val_main_v154_apply]
  exact congrArg _ (by idx2)

/-- The clipped extent of the intersection along axis k. -/
theorem v132_at (x1 : S16x900x4.Idx → EReal) (x2 : S1600x4.Idx → EReal) (n : Fin 14400) (t : Fin 1600) (k : Fin 2) :
    val_main_v132 (F := Ideal) x1 x2 (ix3 n t k)
      = max Cert.Spec.c0 (min (val_main_v69 (F := Ideal) x1 (ix2 n (hi k))) (val_main_v94 (F := Ideal) x2 (ix2 t (hi k))) - max (val_main_v69 (F := Ideal) x1 (ix2 n (lo k))) (val_main_v94 (F := Ideal) x2 (ix2 t (lo k)))) := by
  rw [val_main_v132_apply, val_main_call0_v1_apply, val_main_call0_v0_apply, val_main_cst_19_apply, val_main_v131_apply,
    val_main_v130_apply, val_main_v123_apply, v121_at, v122_at, v128_at, v129_at]
  rfl

/-- The clipped extent of the enclosing box along axis k. -/
theorem v160_at (x1 : S16x900x4.Idx → EReal) (x2 : S1600x4.Idx → EReal) (n : Fin 14400) (t : Fin 1600) (k : Fin 2) :
    val_main_v160 (F := Ideal) x1 x2 (ix3 n t k)
      = max Cert.Spec.c0 (max (val_main_v69 (F := Ideal) x1 (ix2 n (hi k))) (val_main_v94 (F := Ideal) x2 (ix2 t (hi k))) - min (val_main_v69 (F := Ideal) x1 (ix2 n (lo k))) (val_main_v94 (F := Ideal) x2 (ix2 t (lo k)))) := by
  rw [val_main_v160_apply, val_main_call1_v1_apply, val_main_call1_v0_apply, val_main_cst_20_apply, val_main_v159_apply,
    val_main_v158_apply, val_main_v151_apply, v149_at, v150_at, v156_at, v157_at]
  rfl

theorem v134_at (x1 : S16x900x4.Idx → EReal) (x2 : S1600x4.Idx → EReal) (n : Fin 14400) (t : Fin 1600) :
    val_main_v134 (F := Ideal) x1 x2 (ix2 n t) = val_main_v132 (F := Ideal) x1 x2 (ix3 n t 0) := by
  rw [val_main_v134_apply, val_main_v133_apply]
  have hn := n.isLt; have ht := t.isLt
  exact congrArg _ (funext fun a => Fin.ext (by match a with
    | ⟨0, _⟩ => show (n.val * 1600 + t.val) / 1600 = n.val; omega
    | ⟨1, _⟩ => show (n.val * 1600 + t.val) / 1 % 1600 = t.val; omega
    | ⟨2, _⟩ => rfl))

theorem v136_at (x1 : S16x900x4.Idx → EReal) (x2 : S1600x4.Idx → EReal) (n : Fin 14400) (t : Fin 1600) :
    val_main_v136 (F := Ideal) x1 x2 (ix2 n t) = val_main_v132 (F := Ideal) x1 x2 (ix3 n t 1) := by
  rw [val_main_v136_apply, val_main_v135_apply]
  have hn := n.isLt; have ht := t.isLt
  exact congrArg _ (funext fun a => Fin.ext (by match a with
    | ⟨0, _⟩ => show (n.val * 1600 + t.val) / 1600 = n.val; omega
    | ⟨1, _⟩ => show (n.val * 1600 + t.val) / 1 % 1600 = t.val; omega
    | ⟨2, _⟩ => rfl))

theorem v162_at (x1 : S16x900x4.Idx → EReal) (x2 : S1600x4.Idx → EReal) (n : Fin 14400) (t : Fin 1600) :
    val_main_v162 (F := Ideal) x1 x2 (ix2 n t) = val_main_v160 (F := Ideal) x1 x2 (ix3 n t 0) := by
  rw [val_main_v162_apply, val_main_v161_apply]
  have hn := n.isLt; have ht := t.isLt
  exact congrArg _ (funext fun a => Fin.ext (by match a with
    | ⟨0, _⟩ => show (n.val * 1600 + t.val) / 1600 = n.val; omega
    | ⟨1, _⟩ => show (n.val * 1600 + t.val) / 1 % 1600 = t.val; omega
    | ⟨2, _⟩ => rfl))

theorem v164_at (x1 : S16x900x4.Idx → EReal) (x2 : S1600x4.Idx → EReal) (n : Fin 14400) (t : Fin 1600) :
    val_main_v164 (F := Ideal) x1 x2 (ix2 n t) = val_main_v160 (F := Ideal) x1 x2 (ix3 n t 1) := by
  rw [val_main_v164_apply, val_main_v163_apply]
  have hn := n.isLt; have ht := t.isLt
  exact congrArg _ (funext fun a => Fin.ext (by match a with
    | ⟨0, _⟩ => show (n.val * 1600 + t.val) / 1600 = n.val; omega
    | ⟨1, _⟩ => show (n.val * 1600 + t.val) / 1 % 1600 = t.val; omega
    | ⟨2, _⟩ => rfl))

theorem v140_at (x1 : S16x900x4.Idx → EReal) (n : Fin 14400) (t : Fin 1600) :
    val_main_v140 (F := Ideal) x1 (ix2 n t) = val_main_v105 (F := Ideal) x1 (ix1 n) := by
  rw [val_main_v140_apply, val_main_v138_apply]
  exact congrArg _ (by idx1)

theorem v141_at (x2 : S1600x4.Idx → EReal) (n : Fin 14400) (t : Fin 1600) :
    val_main_v141 (F := Ideal) x2 (ix2 n t) = val_main_v116 (F := Ideal) x2 (ix1 t) := by
  rw [val_main_v141_apply, val_main_v139_apply]
  exact congrArg _ (by idx1)

/-- The intersection's area. -/
theorem v137_at (x1 : S16x900x4.Idx → EReal) (x2 : S1600x4.Idx → EReal) (n : Fin 14400) (t : Fin 1600) :
    val_main_v137 (F := Ideal) x1 x2 (ix2 n t)
      = val_main_v132 (F := Ideal) x1 x2 (ix3 n t 0) * val_main_v132 (F := Ideal) x1 x2 (ix3 n t 1) := by
  rw [val_main_v137_apply, v134_at, v136_at]
  rfl

/-- The union's area. -/
theorem v143_at (x1 : S16x900x4.Idx → EReal) (x2 : S1600x4.Idx → EReal) (n : Fin 14400) (t : Fin 1600) :
    val_main_v143 (F := Ideal) x1 x2 (ix2 n t)
      = (val_main_v105 (F := Ideal) x1 (ix1 n) + val_main_v116 (F := Ideal) x2 (ix1 t))
        - val_main_v137 (F := Ideal) x1 x2 (ix2 n t) := by
  rw [val_main_v143_apply, val_main_v142_apply, v140_at, v141_at]
  rfl

/-- The enclosing box's area. -/
theorem v165_at (x1 : S16x900x4.Idx → EReal) (x2 : S1600x4.Idx → EReal) (n : Fin 14400) (t : Fin 1600) :
    val_main_v165 (F := Ideal) x1 x2 (ix2 n t)
      = val_main_v160 (F := Ideal) x1 x2 (ix3 n t 0) * val_main_v160 (F := Ideal) x1 x2 (ix3 n t 1) := by
  rw [val_main_v165_apply, v162_at, v164_at]
  rfl

/-- The negated generalized IoU from the three areas. -/
theorem v169_at (x1 : S16x900x4.Idx → EReal) (x2 : S1600x4.Idx → EReal) (n : Fin 14400) (t : Fin 1600) :
    val_main_v169 (F := Ideal) x1 x2 (ix2 n t)
      = -(Ideal.div (val_main_v137 (F := Ideal) x1 x2 (ix2 n t)) (val_main_v143 (F := Ideal) x1 x2 (ix2 n t))
          - Ideal.div (val_main_v165 (F := Ideal) x1 x2 (ix2 n t) - val_main_v143 (F := Ideal) x1 x2 (ix2 n t))
              (val_main_v165 (F := Ideal) x1 x2 (ix2 n t))) := by
  rw [val_main_v169_apply, val_main_v168_apply, val_main_v144_apply, val_main_v167_apply, val_main_v166_apply]
  rfl

/-! ## Assembly -/

theorem v132_at0 (x1 : S16x900x4.Idx → EReal) (x2 : S1600x4.Idx → EReal) (n : Fin 14400) (t : Fin 1600) :
    val_main_v132 (F := Ideal) x1 x2 (ix3 n t 0)
      = max Cert.Spec.c0 (min (val_main_v69 (F := Ideal) x1 (ix2 n 2)) (val_main_v94 (F := Ideal) x2 (ix2 t 2)) - max (val_main_v69 (F := Ideal) x1 (ix2 n 0)) (val_main_v94 (F := Ideal) x2 (ix2 t 0))) :=
  v132_at x1 x2 n t 0

theorem v132_at1 (x1 : S16x900x4.Idx → EReal) (x2 : S1600x4.Idx → EReal) (n : Fin 14400) (t : Fin 1600) :
    val_main_v132 (F := Ideal) x1 x2 (ix3 n t 1)
      = max Cert.Spec.c0 (min (val_main_v69 (F := Ideal) x1 (ix2 n 3)) (val_main_v94 (F := Ideal) x2 (ix2 t 3)) - max (val_main_v69 (F := Ideal) x1 (ix2 n 1)) (val_main_v94 (F := Ideal) x2 (ix2 t 1))) :=
  v132_at x1 x2 n t 1

theorem v160_at0 (x1 : S16x900x4.Idx → EReal) (x2 : S1600x4.Idx → EReal) (n : Fin 14400) (t : Fin 1600) :
    val_main_v160 (F := Ideal) x1 x2 (ix3 n t 0)
      = max Cert.Spec.c0 (max (val_main_v69 (F := Ideal) x1 (ix2 n 2)) (val_main_v94 (F := Ideal) x2 (ix2 t 2)) - min (val_main_v69 (F := Ideal) x1 (ix2 n 0)) (val_main_v94 (F := Ideal) x2 (ix2 t 0))) :=
  v160_at x1 x2 n t 0

theorem v160_at1 (x1 : S16x900x4.Idx → EReal) (x2 : S1600x4.Idx → EReal) (n : Fin 14400) (t : Fin 1600) :
    val_main_v160 (F := Ideal) x1 x2 (ix3 n t 1)
      = max Cert.Spec.c0 (max (val_main_v69 (F := Ideal) x1 (ix2 n 3)) (val_main_v94 (F := Ideal) x2 (ix2 t 3)) - min (val_main_v69 (F := Ideal) x1 (ix2 n 1)) (val_main_v94 (F := Ideal) x2 (ix2 t 1))) :=
  v160_at x1 x2 n t 1

/-- The negated generalized IoU at (n, t) from row n of the reshaped query array and row t of the targets. -/
theorem giou_rows (x1 : S16x900x4.Idx → EReal) (x2 : S1600x4.Idx → EReal) (n : Fin 14400) (t : Fin 1600) :
    val_main_v169 (F := Ideal) x1 x2 (ix2 n t)
      = Cert.Spec.giouR (fun k : Fin 4 => val_main_v7 (F := Ideal) x1 (ix2 n k)) (fun k : Fin 4 => x2 (ix2 t k)) := by
  rw [v169_at, v165_at, v143_at, v137_at, v105_at, v116_at, v132_at0, v132_at1, v160_at0, v160_at1,
    v69_at0, v69_at1, v69_at2, v69_at3, v94_at0, v94_at1, v94_at2, v94_at3,
    v55_at, v58_at, v61_at, v64_at, v80_at, v83_at, v86_at, v89_at]
  rfl

/-- The negated generalized IoU at (n, t), n = 900 b + q. -/
theorem giou_apply (x1 : S16x900x4.Idx → EReal) (x2 : S1600x4.Idx → EReal) (b : Fin 16) (q : Fin 900) (t : Fin 1600) :
    val_main_v169 (F := Ideal) x1 x2 (ix2 (⟨b.val * 900 + q.val, by have := b.isLt; have := q.isLt; omega⟩ : Fin 14400) t)
      = Cert.Spec.giouR (fun k : Fin 4 => x1 (ix3 b q k)) (fun k : Fin 4 => x2 (ix2 t k)) := by
  rw [giou_rows]
  exact congrArg (fun f => Cert.Spec.giouR f (fun k : Fin 4 => x2 (ix2 t k))) (funext fun k => v7_at x1 b q k)

end Cert.RefV

end
-- ==== Proof.RefVal.lean ====
import proofs.«420544_j2259152798180_3_alg».proof.Proof.RefRun
import proofs.«420544_j2259152798180_3_alg».proof.Proof.RefGiou
import proofs.«420544_j2259152798180_3_alg».proof.Proof.Spec
import Idealize.ShloMosaic.Lib.ValueIdx
import Idealize.ShloMosaic.Lib.ValueLayout
import Idealize.ShloMosaic.Lib.Pipeline.Value

/-! The reference's result as one function of the argument arrays, at labels among the 91 classes:
the probability of the target's class is gathered from the row of probabilities, the focal cost,
the L1 distance and the generalized-IoU cost are formed for the pair, and weighted and added. -/

noncomputable section

namespace Cert.RefV

open Idealize.ShloMosaic Idealize.ShloMosaic.ValueIdx Cert.ReferenceIdeal Cert.ReferenceIdeal.Read

/-- The gather of the probabilities read at (n, t): row n of the operand at the column the start index
    of target t names, read signed and clamped into [0, 90]. -/
theorem gather_apply {α : Type} (x : S14400x91.Idx → α) (idx : IVec S1600x1 32) (n : Fin 14400) (t : Fin 1600) :
    Host.gather gather_S14400x91_S1600x1_S14400x1600_0_1_n_n_1_1_144001 x idx (ix2 n t)
      = x (ix2 n (⟨min (idx (ix2 t (0 : Fin 1))).toInt.toNat 90, by omega⟩ : Fin 91)) := by
  unfold Host.gather
  congr 1
  funext a
  refine Fin.ext ?_
  match a with
  | ⟨0, _⟩ =>
    show gather_S14400x91_S1600x1_S14400x1600_0_1_n_n_1_1_144001.start (ix2 n t) idx 0
      + gather_S14400x91_S1600x1_S14400x1600_0_1_n_n_1_1_144001.batchCoord (ix2 n t) 0
      + gather_S14400x91_S1600x1_S14400x1600_0_1_n_n_1_1_144001.offCoord (ix2 n t) 0 = n.val
    rw [GatherDims.batchCoord_eq_zero _ _ _ List.not_mem_nil]
    unfold GatherDims.start
    rw [dif_neg (by decide)]
    unfold GatherDims.offCoord
    rw [dif_pos (by decide)]
    simp only [Nat.add_zero, Nat.zero_add]
    rfl
  | ⟨1, _⟩ =>
    show gather_S14400x91_S1600x1_S14400x1600_0_1_n_n_1_1_144001.start (ix2 n t) idx 1
      + gather_S14400x91_S1600x1_S14400x1600_0_1_n_n_1_1_144001.batchCoord (ix2 n t) 1
      + gather_S14400x91_S1600x1_S14400x1600_0_1_n_n_1_1_144001.offCoord (ix2 n t) 1 = _
    rw [GatherDims.batchCoord_eq_zero _ _ _ List.not_mem_nil,
      GatherDims.offCoord_eq_zero _ _ _ (by decide)]
    simp only [Nat.add_zero]
    unfold GatherDims.start
    rw [dif_pos (by decide)]
    have hsi : gather_S14400x91_S1600x1_S14400x1600_0_1_n_n_1_1_144001.siIdx (ix2 n t)
        ⟨List.idxOf (1 : Fin S14400x91.rank) gather_S14400x91_S1600x1_S14400x1600_0_1_n_n_1_1_144001.startIndexMap,
          List.idxOf_lt_length_iff.2 (by decide)⟩ = ix2 t (0 : Fin 1) := by
      funext b; refine Fin.ext ?_
      match b with
      | ⟨0, _⟩ => rfl
      | ⟨1, _⟩ => rfl
    rw [hsi]
    rfl

/-- A label below 91 is not negative as a signed word. -/
theorem slt_zero_of_lt {lab : BitVec 32} (h : lab.toNat < 91) : IntOp.cmpi .slt lab 0#32 = 0#1 := by
  have hti : lab.toInt = lab.toNat := BitVec.toInt_eq_toNat_of_lt (by omega)
  have hs : lab.slt 0#32 = false := by
    simp only [BitVec.slt, hti, BitVec.toInt_zero]
    exact decide_eq_false (by omega)
  unfold IntOp.cmpi
  show BitVec.ofBool (lab.slt 0#32) = 0#1
  rw [hs]; rfl

/-- A label below 91, read signed and clamped into the 91 classes, is the class it names. -/
theorem clamp_eq_cls {w lab : BitVec 32} (hw : w = lab) (h : lab.toNat < 91) :
    (⟨min w.toInt.toNat 90, by omega⟩ : Fin 91) = Cert.Spec.cls lab := by
  subst hw
  have hti : w.toInt = w.toNat := BitVec.toInt_eq_toNat_of_lt (by omega)
  refine Fin.ext ?_
  show min w.toInt.toNat 90 = w.toNat % 91
  rw [hti, Int.toNat_natCast]
  omega

/-- The probability of class k at row n = 900 b + q. -/
theorem sig_apply (x0 : S16x900x91.Idx → EReal) (b : Fin 16) (q : Fin 900) (k : Fin 91) :
    val_main_v6 (F := Ideal) x0 (ix2 (⟨b.val * 900 + q.val, by have := b.isLt; have := q.isLt; omega⟩ : Fin 14400) k)
      = Cert.Spec.sigR (x0 (ix3 b q k)) := by
  have hidx : idx_main_v0 (ix2 (⟨b.val * 900 + q.val, by have := b.isLt; have := q.isLt; omega⟩ : Fin 14400) k) = ix3 b q k := by
    funext a; refine Fin.ext ?_
    have := b.isLt; have := q.isLt; have := k.isLt
    match a with
    | ⟨0, _⟩ => show ((b.val * 900 + q.val) * 91 + k.val) / 81900 = b.val; omega
    | ⟨1, _⟩ => show ((b.val * 900 + q.val) * 91 + k.val) / 91 % 900 = q.val; omega
    | ⟨2, _⟩ => show ((b.val * 900 + q.val) * 91 + k.val) % 91 = k.val; omega
  rw [val_main_v6_apply, val_main_v5_apply, val_main_cst_0_apply, val_main_v4_apply, val_main_v3_apply,
    val_main_cst_apply, val_main_v2_apply, val_main_v1_apply, val_main_v0_apply, hidx]
  simp only [Ideal.ofBits_def, Ideal.hostDivf_def, Ideal.addf_def, Ideal.hostUnary_exp_def, Ideal.hostNegf_def, Ideal.negf_def]
  rfl

/-- The fixed-up label of target t is the label itself when it is below 91. -/
theorem label_apply (x3 : S1600.Idx → BitVec 32) (t : Fin 1600) (ht : (x3 (ix1 t)).toNat < 91) :
    val_main_v13 (F := Ideal) x3 (ix2 t (0 : Fin 1)) = x3 (ix1 t) := by
  have hidx : idx_main_v13 (ix2 t (0 : Fin 1)) = ix1 t := by
    funext a; refine Fin.ext ?_
    match a with
    | ⟨0, _⟩ => rfl
  rw [val_main_v13_apply, hidx, val_main_v12_apply, val_main_v9_apply, val_main_v8_apply, val_main_c_apply,
    slt_zero_of_lt ht, select_zero]

/-- The gathered probability at (n, t), n = 900 b + q: the probability of the target's class. -/
theorem gathered_apply (x0 : S16x900x91.Idx → EReal) (x3 : S1600.Idx → BitVec 32) (b : Fin 16) (q : Fin 900) (t : Fin 1600)
    (ht : (x3 (ix1 t)).toNat < 91) :
    val_main_v14 (F := Ideal) x0 x3 (ix2 (⟨b.val * 900 + q.val, by have := b.isLt; have := q.isLt; omega⟩ : Fin 14400) t)
      = Cert.Spec.sigR (x0 (ix3 b q (Cert.Spec.cls (x3 (ix1 t))))) := by
  unfold val_main_v14
  rw [gather_apply, clamp_eq_cls (label_apply x3 t ht) ht, sig_apply]

/-- The focal cost at (n, t), n = 900 b + q, for a label in range. -/
theorem focal_apply (x0 : S16x900x91.Idx → EReal) (x3 : S1600.Idx → BitVec 32) (b : Fin 16) (q : Fin 900) (t : Fin 1600)
    (ht : (x3 (ix1 t)).toNat < 91) :
    val_main_v37 (F := Ideal) x0 x3 (ix2 (⟨b.val * 900 + q.val, by have := b.isLt; have := q.isLt; omega⟩ : Fin 14400) t)
      = Cert.Spec.focalR (Cert.Spec.sigR (x0 (ix3 b q (Cert.Spec.cls (x3 (ix1 t)))))) := by
  rw [val_main_v37_apply, val_main_v36_apply, val_main_v35_apply, val_main_v34_apply, val_main_v33_apply,
    val_main_v32_apply, val_main_cst_9_apply, val_main_v31_apply, val_main_v30_apply, val_main_cst_8_apply,
    val_main_v29_apply, val_main_v28_apply, val_main_cst_7_apply, val_main_v27_apply, val_main_v26_apply,
    val_main_cst_6_apply, val_main_v25_apply, val_main_v24_apply, val_main_v23_apply, val_main_v22_apply,
    val_main_v21_apply, val_main_cst_5_apply, val_main_v20_apply, val_main_v19_apply, val_main_cst_4_apply,
    val_main_v18_apply, val_main_v17_apply, val_main_cst_3_apply, val_main_v16_apply, val_main_v15_apply,
    val_main_cst_2_apply, gathered_apply x0 x3 b q t ht]
  simp only [Ideal.ofBits_def, Ideal.subf_def, Ideal.mulf_def, Ideal.addf_def, Ideal.hostUnary_log_def, Ideal.hostNegf_def,
    Ideal.negf_def, Ideal.hostPowf_def]
  rfl

/-- The L1 distance at (n, t). -/
theorem l1_apply (x1 : S16x900x4.Idx → EReal) (x2 : S1600x4.Idx → EReal) (b : Fin 16) (q : Fin 900) (t : Fin 1600) :
    val_main_v44 (F := Ideal) x1 x2 (ix2 (⟨b.val * 900 + q.val, by have := b.isLt; have := q.isLt; omega⟩ : Fin 14400) t)
      = Cert.Spec.l1R (fun k : Fin 4 => x1 (ix3 b q k)) (fun k : Fin 4 => x2 (ix2 t k)) := by
  have hb : ∀ k : Fin 4, idx_main_v7 (idx_main_v38 (idx_main_v40 (idx_main_v44
      (ix2 (⟨b.val * 900 + q.val, by have := b.isLt; have := q.isLt; omega⟩ : Fin 14400) t) k))) = ix3 b q k := by
    intro k
    funext a; refine Fin.ext ?_
    have := b.isLt; have := q.isLt; have := k.isLt
    match a with
    | ⟨0, _⟩ => show ((b.val * 900 + q.val) * 4 + k.val) / 3600 = b.val; omega
    | ⟨1, _⟩ => show ((b.val * 900 + q.val) * 4 + k.val) / 4 % 900 = q.val; omega
    | ⟨2, _⟩ => show ((b.val * 900 + q.val) * 4 + k.val) % 4 = k.val; omega
  have ht : ∀ k : Fin 4, idx_main_v39 (idx_main_v41 (idx_main_v44
      (ix2 (⟨b.val * 900 + q.val, by have := b.isLt; have := q.isLt; omega⟩ : Fin 14400) t) k)) = ix2 t k := by
    intro k
    funext a; refine Fin.ext ?_
    match a with
    | ⟨0, _⟩ => rfl
    | ⟨1, _⟩ => rfl
  rw [val_main_v44_apply, val_main_cst_10_apply]
  unfold Cert.Spec.l1R
  refine congrArg₂ (· + ·) rfl (Finset.sum_congr rfl fun k _ => ?_)
  rw [val_main_v43_apply, val_main_v42_apply, val_main_v41_apply, val_main_v39_apply, val_main_v40_apply,
    val_main_v38_apply, val_main_v7_apply, hb k, ht k]
  rfl

/-- The reference's result is its cost matrix of the argument arrays. -/
theorem val_eq_RG (x0 : S16x900x91.Idx → EReal) (x1 : S16x900x4.Idx → EReal) (x2 : S1600x4.Idx → EReal) (x3 : S1600.Idx → BitVec 32)
    (hI : ∀ t : Fin 1600, (x3 (Cert.Spec.iI t)).toNat < 91) :
    val_main_v178 (F := Ideal) x0 x1 x2 x3 = Cert.Spec.RG x0 x1 x2 x3 := by
  funext i
  obtain ⟨b, q, t, rfl⟩ : ∃ (b : Fin 16) (q : Fin 900) (t : Fin 1600), i = ix3 b q t := ⟨i 0, i 1, i 2, eq_ix3 i⟩
  have hidx : idx_main_v178 (ix3 b q t)
      = ix2 (⟨b.val * 900 + q.val, by have := b.isLt; have := q.isLt; omega⟩ : Fin 14400) t := by
    funext a; refine Fin.ext ?_
    have := b.isLt; have := q.isLt; have := t.isLt
    match a with
    | ⟨0, _⟩ => show ((b.val * 900 + q.val) * 1600 + t.val) / 1600 = b.val * 900 + q.val; omega
    | ⟨1, _⟩ => show ((b.val * 900 + q.val) * 1600 + t.val) % 1600 = t.val; omega
  rw [val_main_v178_apply, hidx, val_main_v177_apply, val_main_v176_apply, val_main_v175_apply, val_main_cst_23_apply,
    val_main_v174_apply, val_main_v173_apply, val_main_v172_apply, val_main_cst_22_apply, val_main_v171_apply,
    val_main_v170_apply, val_main_cst_21_apply, focal_apply x0 x3 b q t (hI t), l1_apply, giou_apply]
  simp only [Ideal.ofBits_def, Ideal.addf_def, Ideal.mulf_def]
  rfl

end Cert.RefV

end
-- ==== Proof.Algebra.lean ====
import proofs.«420544_j2259152798180_3_alg».proof.Proof.Spec
import Mathlib.Data.EReal.Basic
import Mathlib.Analysis.SpecialFunctions.Pow.Real

/-! The two arrangements of the cost agree on finite boxes and logits with non-negative widths and
heights and labels among the 91 classes. -/

noncomputable section

namespace Cert.Alg

open Idealize.ShloMosaic Cert.Spec

/-! ## The constant words -/

theorem c0_eq : c0 = 0 := by simp [Ideal.ofBits, Ideal.ieee]
theorem c1_eq : c1 = 1 := by simp [Ideal.ofBits, Ideal.ieee, -EReal.coe_mul]; norm_num
theorem c2_eq : c2 = ((2 : ℝ) : EReal) := by simp [Ideal.ofBits, Ideal.ieee, -EReal.coe_mul]; norm_num
theorem chalf_eq : chalf = ((1 / 2 : ℝ) : EReal) := by simp [Ideal.ofBits, Ideal.ieee, -EReal.coe_mul]; norm_num

/-! ## The class cost -/

/-- The reference's quotient for the probability is the logistic function. -/
theorem sigR_eq (x : EReal) : sigR x = Ideal.logistic x := by
  unfold sigR Ideal.logistic
  rw [c1_eq]

/-- The square of a real as a power with exponent two. -/
theorem pow_two_coe (p : ℝ) : Ideal.pow (p : EReal) c2 = (p : EReal) * (p : EReal) := by
  rw [c2_eq, Ideal.pow_coe_coe, ← EReal.coe_mul]
  congr 1
  show p ^ (2 : ℝ) = p * p
  rw [Real.rpow_two, sq]

/-- At a real logit the kernel's doubled focal cost is twice the reference's. -/
theorem focalK_eq (r : ℝ) : focalK (r : EReal) = c2 * focalR (sigR (r : EReal)) := by
  unfold focalK focalR
  rw [sigR_eq, Ideal.logistic_coe]
  have h1 : c1 - (((1 + Real.exp (-r))⁻¹ : ℝ) : EReal) = ((1 - (1 + Real.exp (-r))⁻¹ : ℝ) : EReal) := by
    rw [c1_eq, ← EReal.coe_one, ← EReal.coe_sub]
  simp only [h1, pow_two_coe, c0_eq, zero_sub]

/-- A label among the 91 classes equals the word of a class number exactly at its own class. -/
theorem label_eq_iff (lab : BitVec 32) (h : lab.toNat < 91) (k : Fin 91) :
    lab = BitVec.ofNat 32 k.val ↔ k = cls lab := by
  constructor
  · intro e
    apply Fin.ext
    have hk := k.isLt
    have : lab.toNat = k.val := by
      rw [e, BitVec.toNat_ofNat]
      omega
    show k.val = lab.toNat % 91
    omega
  · intro e
    have : k.val = lab.toNat := by
      rw [e]
      show lab.toNat % 91 = lab.toNat
      omega
    rw [this, BitVec.ofNat_toNat, BitVec.setWidth_eq]

/-- The 0/1 column picks the focal cost of the label's class out of the sum over the classes. -/
theorem clsK_onehot (lg : Fin 91 → EReal) (lab : BitVec 32) (h : lab.toNat < 91) :
    clsK lg (onehot lab) = focalK (lg (cls lab)) := by
  unfold clsK
  rw [Finset.sum_eq_single (cls lab)]
  · unfold onehot
    rw [if_pos ((label_eq_iff lab h _).2 rfl), mul_one]
  · intro k _ hk
    unfold onehot
    rw [if_neg (fun e => hk ((label_eq_iff lab h k).1 e)), mul_zero]
  · intro hn
    exact absurd (Finset.mem_univ _) hn

/-! ## The L1 distance -/

theorem l1K_eq (b t : Fin 4 → EReal) :
    l1K (b 0) (b 1) (b 2) (b 3) (t 0) (t 1) (t 2) (t 3) = l1R b t := by
  unfold l1K l1R
  rw [c0_eq, zero_add, Fin.sum_univ_four]

/-! ## The generalized IoU -/

theorem div_zero_of_pos {x : EReal} (h : 0 < x) : Ideal.div x 0 = ⊤ := by
  rw [Ideal.div, if_pos rfl, if_pos h]

theorem div_zero_of_nonpos {x : EReal} (h : x ≤ 0) : Ideal.div x 0 = ⊥ := by
  rw [Ideal.div, if_pos rfl, if_neg (not_lt.2 h)]

/-- The two arrangements of the generalized IoU from the intersection, union and enclosing areas. -/
theorem giou_core (i u e : ℝ) (hi : 0 ≤ i) (hu : 0 ≤ u) (he : 0 ≤ e) (hie : 0 < i → 0 < e) :
    c1 - Ideal.div ((i * e + u * u : ℝ) : EReal) ((u * e : ℝ) : EReal)
      = -(Ideal.div (i : EReal) (u : EReal) - Ideal.div ((e - u : ℝ) : EReal) (e : EReal)) := by
  rw [c1_eq]
  rcases hu.eq_or_lt with hu0 | hu0
  · subst hu0
    rcases he.eq_or_lt with he0 | he0
    · subst he0
      have hi0 : i = 0 := by
        rcases hi.eq_or_lt with h | h
        · exact h.symm
        · exact absurd (hie h) (lt_irrefl _)
      subst hi0
      simp [Ideal.div]
      rw [← EReal.coe_one, EReal.coe_sub_bot]
    · rcases hi.eq_or_lt with hi0 | hi0
      · subst hi0
        simp [Ideal.div]
        rw [← EReal.coe_one, EReal.coe_sub_bot]
      · have hpos : (0 : EReal) < ((i * e + 0 * 0 : ℝ) : EReal) := by
          have : (0 : ℝ) < i * e + 0 * 0 := by positivity
          exact_mod_cast this
        have hipos : (0 : EReal) < (i : EReal) := by exact_mod_cast hi0
        have hz : ((0 * e : ℝ) : EReal) = 0 := by simp
        rw [hz, EReal.coe_zero, div_zero_of_pos hpos, div_zero_of_pos hipos, Ideal.div_coe he0.ne',
          ← EReal.coe_mul, EReal.top_sub_coe, EReal.neg_top, EReal.sub_top]
  · rcases he.eq_or_lt with he0 | he0
    · subst he0
      have hpos : (0 : EReal) < ((i * 0 + u * u : ℝ) : EReal) := by
        have : (0 : ℝ) < i * 0 + u * u := by positivity
        exact_mod_cast this
      have hneg : ((0 - u : ℝ) : EReal) ≤ 0 := by
        have : (0 - u : ℝ) ≤ 0 := by linarith
        exact_mod_cast this
      have hz : ((u * 0 : ℝ) : EReal) = 0 := by simp
      rw [hz, EReal.coe_zero, div_zero_of_pos hpos, div_zero_of_nonpos hneg, Ideal.div_coe hu0.ne',
        ← EReal.coe_mul, EReal.coe_sub_bot, EReal.neg_top, EReal.sub_top]
    · have hue : u * e ≠ 0 := (mul_pos hu0 he0).ne'
      rw [Ideal.div_coe hue, Ideal.div_coe hu0.ne', Ideal.div_coe he0.ne']
      have : (1 : ℝ) - (i * e + u * u) * (1 / (u * e)) = -(i * (1 / u) - (e - u) * (1 / e)) := by
        field_simp
        ring
      exact_mod_cast this

theorem coe_max (a b : ℝ) : ((max a b : ℝ) : EReal) = max (a : EReal) (b : EReal) :=
  EReal.coe_strictMono.monotone.map_max

theorem coe_min (a b : ℝ) : ((min a b : ℝ) : EReal) = min (a : EReal) (b : EReal) :=
  EReal.coe_strictMono.monotone.map_min

/-- The areas of two boxes in corner form: the intersection, the union and the enclosing box are
    non-negative, and a positive intersection forces a positive enclosing box. -/
theorem inter_facts (x1 x2 y1 y2 tx1 tx2 ty1 ty2 : ℝ) (hx : x1 ≤ x2) (hy : y1 ≤ y2) (htx : tx1 ≤ tx2)
    (hty : ty1 ≤ ty2) :
    0 ≤ max (min x2 tx2 - max x1 tx1) 0 * max (min y2 ty2 - max y1 ty1) 0 ∧
    0 ≤ (x2 - x1) * (y2 - y1) + (tx2 - tx1) * (ty2 - ty1)
          - max (min x2 tx2 - max x1 tx1) 0 * max (min y2 ty2 - max y1 ty1) 0 ∧
    0 ≤ max (max x2 tx2 - min x1 tx1) 0 * max (max y2 ty2 - min y1 ty1) 0 ∧
    (0 < max (min x2 tx2 - max x1 tx1) 0 * max (min y2 ty2 - max y1 ty1) 0 →
      0 < max (max x2 tx2 - min x1 tx1) 0 * max (max y2 ty2 - min y1 ty1) 0) := by
  have ha : 0 ≤ max (min x2 tx2 - max x1 tx1) 0 := le_max_right _ _
  have hb : 0 ≤ max (min y2 ty2 - max y1 ty1) 0 := le_max_right _ _
  have ha' : max (min x2 tx2 - max x1 tx1) 0 ≤ x2 - x1 :=
    max_le (by linarith [min_le_left x2 tx2, le_max_left x1 tx1]) (sub_nonneg.2 hx)
  have hb' : max (min y2 ty2 - max y1 ty1) 0 ≤ y2 - y1 :=
    max_le (by linarith [min_le_left y2 ty2, le_max_left y1 ty1]) (sub_nonneg.2 hy)
  have hle : max (min x2 tx2 - max x1 tx1) 0 * max (min y2 ty2 - max y1 ty1) 0 ≤ (x2 - x1) * (y2 - y1) :=
    mul_le_mul ha' hb' hb (sub_nonneg.2 hx)
  have h2 : 0 ≤ (tx2 - tx1) * (ty2 - ty1) := mul_nonneg (sub_nonneg.2 htx) (sub_nonneg.2 hty)
  refine ⟨mul_nonneg ha hb, by linarith, mul_nonneg (le_max_right _ _) (le_max_right _ _), ?_⟩
  intro hI
  have hapos : 0 < max (min x2 tx2 - max x1 tx1) 0 := by
    rcases ha.eq_or_lt with h | h
    · rw [← h, zero_mul] at hI
      exact absurd hI (lt_irrefl _)
    · exact h
  have hbpos : 0 < max (min y2 ty2 - max y1 ty1) 0 := by
    rcases hb.eq_or_lt with h | h
    · rw [← h, mul_zero] at hI
      exact absurd hI (lt_irrefl _)
    · exact h
  have hdx : 0 < min x2 tx2 - max x1 tx1 := by
    rcases lt_max_iff.1 hapos with h | h
    · exact h
    · exact absurd h (lt_irrefl _)
  have hdy : 0 < min y2 ty2 - max y1 ty1 := by
    rcases lt_max_iff.1 hbpos with h | h
    · exact h
    · exact absurd h (lt_irrefl _)
  have hDx : 0 < max x2 tx2 - min x1 tx1 := by
    linarith [min_le_left x2 tx2, le_max_left x2 tx2, min_le_left x1 tx1, le_max_left x1 tx1]
  have hDy : 0 < max y2 ty2 - min y1 ty1 := by
    linarith [min_le_left y2 ty2, le_max_left y2 ty2, min_le_left y1 ty1, le_max_left y1 ty1]
  exact mul_pos (lt_max_of_lt_left hDx) (lt_max_of_lt_left hDy)

/-- The kernel's merged quotient, doubled, is twice the reference's generalized-IoU cost on finite
    boxes with non-negative widths and heights. -/
theorem giouK_eq (b t : Fin 4 → EReal) (hb : ∀ k, ∃ r : ℝ, b k = (r : EReal))
    (ht : ∀ k, ∃ r : ℝ, t k = (r : EReal)) (hb2 : 0 ≤ b 2) (hb3 : 0 ≤ b 3) (ht2 : 0 ≤ t 2) (ht3 : 0 ≤ t 3) :
    giouK (b 0) (b 1) (b 2) (b 3) (t 0 - chalf * t 2) (t 1 - chalf * t 3) (t 0 + chalf * t 2) (t 1 + chalf * t 3)
      = c2 * giouR b t := by
  obtain ⟨b0, e0⟩ := hb 0
  obtain ⟨b1, e1⟩ := hb 1
  obtain ⟨b2, e2⟩ := hb 2
  obtain ⟨b3, e3⟩ := hb 3
  obtain ⟨t0, f0⟩ := ht 0
  obtain ⟨t1, f1⟩ := ht 1
  obtain ⟨t2, f2⟩ := ht 2
  obtain ⟨t3, f3⟩ := ht 3
  rw [e2] at hb2
  rw [e3] at hb3
  rw [f2] at ht2
  rw [f3] at ht3
  have hb2' : 0 ≤ b2 := by exact_mod_cast hb2
  have hb3' : 0 ≤ b3 := by exact_mod_cast hb3
  have ht2' : 0 ≤ t2 := by exact_mod_cast ht2
  have ht3' : 0 ≤ t3 := by exact_mod_cast ht3
  have hc0 : c0 = ((0 : ℝ) : EReal) := by rw [c0_eq, EReal.coe_zero]
  have hch : chalf = ((1 / 2 : ℝ) : EReal) := chalf_eq
  have hpos : (0 : ℝ) ≤ 1 / 2 := by norm_num
  generalize (1 / 2 : ℝ) = ch at hch hpos
  obtain ⟨hI, hU, hE, hIE⟩ := inter_facts (b0 - ch * b2) (b0 + ch * b2) (b1 - ch * b3) (b1 + ch * b3)
    (t0 - ch * t2) (t0 + ch * t2) (t1 - ch * t3) (t1 + ch * t3)
    (by nlinarith [mul_nonneg hpos hb2']) (by nlinarith [mul_nonneg hpos hb3'])
    (by nlinarith [mul_nonneg hpos ht2']) (by nlinarith [mul_nonneg hpos ht3'])
  unfold giouK giouR
  simp only [e0, e1, e2, e3, f0, f1, f2, f3, hc0, hch]
  simp only [max_comm ((0 : ℝ) : EReal)]
  simp only [← EReal.coe_mul, ← EReal.coe_add, ← EReal.coe_sub, ← coe_max, ← coe_min]
  congr 1
  exact giou_core _ _ _ hI hU hE hIE

/-! ## The whole matrices -/

/-- The whole cost matrices agree. -/
theorem KG_eq_RG (L : S16x900x91.Idx → EReal) (B : S16x900x4.Idx → EReal) (T : S1600x4.Idx → EReal) (I : S1600.Idx → BitVec 32)
    (hL : ∀ i, ∃ r : ℝ, L i = (r : EReal)) (hB : ∀ i, ∃ r : ℝ, B i = (r : EReal)) (hT : ∀ i, ∃ r : ℝ, T i = (r : EReal))
    (hI : ∀ t : Fin 1600, (I (iI t)).toNat < 91)
    (hBw : ∀ (b : Fin 16) (q : Fin 900), 0 ≤ B (iB b q 2) ∧ 0 ≤ B (iB b q 3))
    (hTw : ∀ t : Fin 1600, 0 ≤ T (iT t 2) ∧ 0 ≤ T (iT t 3)) :
    KG L B T I = RG L B T I := by
  funext i
  have h1 := l1K_eq (fun k => B (iB (i 0) (i 1) k)) (fun k => T (iT (i 2) k))
  have h2 := clsK_onehot (fun k => L (iL (i 0) (i 1) k)) (I (iI (i 2))) (hI (i 2))
  have h3 := giouK_eq (fun k => B (iB (i 0) (i 1) k)) (fun k => T (iT (i 2) k)) (fun k => hB _) (fun k => hT _)
    (hBw (i 0) (i 1)).1 (hBw (i 0) (i 1)).2 (hTw (i 2)).1 (hTw (i 2)).2
  obtain ⟨r, hr⟩ := hL (iL (i 0) (i 1) (cls (I (iI (i 2)))))
  have h4 := focalK_eq r
  rw [← hr] at h4
  beta_reduce at h1 h2 h3
  simp only [KG, RG, Kcost, Rcost]
  rw [h2, h4, h1, h3]

end Cert.Alg

end
-- ==== Proof.PreDecode.lean ====
import proofs.«420544_j2259152798180_3_alg».proof.Pre_finite_inputs
import proofs.«420544_j2259152798180_3_alg».proof.Proof.Gen.Pre_finite_inputs
import proofs.«420544_j2259152798180_3_alg».proof.Proof.Spec
import Idealize.ShloMosaic.Lib.ReduceAll
import Idealize.ShloMosaic.Lib.StableHlo.Predicate

/-! What the precondition says of the four argument arrays, entry by entry: every float entry is a
real number, every label is one of the 91 classes, every width and height is non-negative. -/

noncomputable section

namespace Cert.PreD

open Idealize.ShloMosaic Cert.Spec

/-- The rank-0 shape has one index. -/
local instance : Subsingleton Cert.Pre_finite_inputs.S_.Idx := ⟨fun _ _ => funext fun d => d.elim0⟩

/-- An extended real whose absolute value is below +∞ is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- A comparison 0 ≤ x that came out 1. -/
theorem nonneg_of_oge (x : EReal)
    (h : Ideal.cmp .oge x (Ideal.ofBits .f32 0x00000000#32) = 1#1) : (0 : EReal) ≤ x := by
  have h0 : Ideal.ofBits .f32 0x00000000#32 = 0 := by simp [Ideal.ofBits, Ideal.ieee]
  rw [h0] at h
  by_contra hn
  simp [Ideal.cmp, hn] at h

/-- A word in [0, 91) signed is below 91 unsigned. -/
theorem toNat_lt_91 (w : BitVec 32) (h0 : IntOp.cmpi .sge w (0#32) = 1#1) (h1 : IntOp.cmpi .slt w (91#32) = 1#1) :
    w.toNat < 91 := by
  rw [IntOp.cmpi_sge] at h0
  rw [IntOp.cmpi_slt] at h1
  have e0 : (0#32 : BitVec 32).toInt = 0 := by decide
  have e1 : (91#32 : BitVec 32).toInt = 91 := by decide
  rw [e0] at h0
  rw [e1] at h1
  have := BitVec.toInt_eq_toNat_of_msb (x := w)
  unfold BitVec.toInt at h0 h1
  have := w.isLt
  split at h1 <;> omega

/-- The slice [:, :, 2:4] of a [16, 900, 4] array at (b, q, c) is the array at (b, q, 2 + c). -/
theorem slice3 {α : Type} (x : Cert.Pre_finite_inputs.S16x900x4.Idx → α)
    (hs : Cert.Pre_finite_inputs.S16x900x4.Slices ![0, 0, 2] Cert.Pre_finite_inputs.S16x900x2)
    (b : Fin 16) (q : Fin 900) (c : Fin 2) (k : Fin 4) (hk : k.val = 2 + c.val) :
    extractStridedSlice Cert.Pre_finite_inputs.S16x900x2 ![0, 0, 2] x hs (ValueIdx.ix3 b q c) = x (iB b q k) := by
  unfold extractStridedSlice
  refine congrArg x (funext fun a => Fin.ext ?_)
  unfold iB
  match a with
  | ⟨0, _⟩ => show 0 + b.val = b.val; omega
  | ⟨1, _⟩ => show 0 + q.val = q.val; omega
  | ⟨2, _⟩ => show 2 + c.val = k.val; omega

/-- The slice [:, 2:4] of a [1600, 4] array at (t, c) is the array at (t, 2 + c). -/
theorem slice2 {α : Type} (x : Cert.Pre_finite_inputs.S1600x4.Idx → α)
    (hs : Cert.Pre_finite_inputs.S1600x4.Slices ![0, 2] Cert.Pre_finite_inputs.S1600x2)
    (t : Fin 1600) (c : Fin 2) (k : Fin 4) (hk : k.val = 2 + c.val) :
    extractStridedSlice Cert.Pre_finite_inputs.S1600x2 ![0, 2] x hs (ValueIdx.ix2 t c) = x (iT t k) := by
  unfold extractStridedSlice
  refine congrArg x (funext fun a => Fin.ext ?_)
  unfold iT
  match a with
  | ⟨0, _⟩ => show 0 + t.val = t.val; omega
  | ⟨1, _⟩ => show 2 + c.val = k.val; omega

open Cert.Pre_finite_inputs.Facts in
/-- The precondition, read entry by entry. -/
theorem decode [Cert.Pre_finite_inputs.Facts]
    (a0 : FVec Ideal Cert.Pre_finite_inputs.S16x900x91 .f32) (a1 : FVec Ideal Cert.Pre_finite_inputs.S16x900x4 .f32)
    (a2 : FVec Ideal Cert.Pre_finite_inputs.S1600x4 .f32) (a3 : IVec Cert.Pre_finite_inputs.S1600 32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
    ∧ (∀ t : Fin 1600, (a3 (iI t)).toNat < 91)
    ∧ (∀ (b : Fin 16) (q : Fin 900), (0 : EReal) ≤ a1 (iB b q 2) ∧ (0 : EReal) ≤ a1 (iB b q 3))
    ∧ (∀ t : Fin 1600, (0 : EReal) ≤ a2 (iT t 2) ∧ (0 : EReal) ≤ a2 (iT t 3)) := by
  have e := congrFun h ValueIdx.ix0
  dsimp only [Cert.Pre_finite_inputs.fn, Cert.Pre_finite_inputs.fn_part1] at e
  simp only [andi, IntOp.andi_eq_one] at e
  obtain ⟨⟨⟨⟨⟨⟨h0, h1⟩, h2⟩, h3⟩, h4⟩, h5⟩, h6⟩ := e
  have H0 := Host.reduce_andi_all _ _ _ _ _ h0
  have H1 := Host.reduce_andi_all _ _ _ _ _ h1
  have H2 := Host.reduce_andi_all _ _ _ _ _ h2
  have H3 := Host.reduce_andi_all _ _ _ _ _ h3
  have H4 := Host.reduce_andi_all _ _ _ _ _ h4
  have H5 := Host.reduce_andi_all _ _ _ _ _ h5
  have H6 := Host.reduce_andi_all _ _ _ _ _ h6
  refine ⟨fun i => real_of_abs_lt_top _ (H0 i), fun i => real_of_abs_lt_top _ (H1 i),
    fun i => real_of_abs_lt_top _ (H2 i), fun t => toNat_lt_91 _ (H3 (iI t)) (H4 (iI t)), ?_, ?_⟩
  · intro b q
    have A := H5 (ValueIdx.ix3 b q (0 : Fin 2))
    have B := H5 (ValueIdx.ix3 b q (1 : Fin 2))
    refine ⟨nonneg_of_oge _ ?_, nonneg_of_oge _ ?_⟩
    · rw [← slice3 a1 slices_S16x900x4_S16x900x2_0_0_2 b q 0 2 rfl]; exact A
    · rw [← slice3 a1 slices_S16x900x4_S16x900x2_0_0_2 b q 1 3 rfl]; exact B
  · intro t
    have A := H6 (ValueIdx.ix2 t (0 : Fin 2))
    have B := H6 (ValueIdx.ix2 t (1 : Fin 2))
    refine ⟨nonneg_of_oge _ ?_, nonneg_of_oge _ ?_⟩
    · rw [← slice2 a2 slices_S1600x4_S1600x2_0_2 t 0 2 rfl]; exact A
    · rw [← slice2 a2 slices_S1600x4_S1600x2_0_2 t 1 3 rfl]; exact B

end Cert.PreD

end
-- ==== Proof.lean ====
import proofs.«420544_j2259152798180_3_alg».proof.Defs
import proofs.«420544_j2259152798180_3_alg».proof.Proof.Gen.Kernel
import proofs.«420544_j2259152798180_3_alg».proof.Proof.Gen.KernelIdeal
import proofs.«420544_j2259152798180_3_alg».proof.Proof.Gen.ReferenceIdeal
import proofs.«420544_j2259152798180_3_alg».proof.Proof.Gen.Pre_finite_inputs
import proofs.«420544_j2259152798180_3_alg».proof.Proof.RefRun
import proofs.«420544_j2259152798180_3_alg».proof.Proof.FrameI
import proofs.«420544_j2259152798180_3_alg».proof.Proof.FrameK
import proofs.«420544_j2259152798180_3_alg».proof.Proof.KVal
import proofs.«420544_j2259152798180_3_alg».proof.Proof.RefVal
import proofs.«420544_j2259152798180_3_alg».proof.Proof.Algebra
import proofs.«420544_j2259152798180_3_alg».proof.Proof.PreDecode
import Idealize.ShloMosaic.Adequacy
import Idealize.ShloMosaic.Init

/-! The certificate of the matching-cost kernel against its reference.

The three frames: the two kernel programs run to the end and leave their arguments as launched
(the region's body loads and stores whole buffers only; no host line writes an argument); the
reference is host lines only.  The idealization rewrote nothing.  The value claim: the kernel program
ends with the kernel's arrangement of the cost matrix (KG) of the argument arrays and the reference
with its own (RG); under the precondition — every float entry finite, every label one of the 91
classes, every width and height non-negative — the two arrangements are the same function. -/

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Fr.frame m ρ,
  fun m ρ _ => Cert.KernelIdeal.Fr.frame m ρ,
  fun m ρ _ => (θ_run Cert.ReferenceIdeal.defs _ _).mono (fun _ h c => (h c).2) (Cert.ReferenceIdeal.Value.run (F := Ideal) m ρ),
  trivial,
  fun m ρ m' ρ' hpre hagree =>
    ⟨fun c => Cert.Spec.KG (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
     Cert.KernelIdeal.KV.run_value m ρ,
     (θ_run Cert.ReferenceIdeal.defs _ _).mono (fun _ h c => ⟨by
        obtain ⟨hL, hB, hT, hI, hBw, hTw⟩ := Cert.PreD.decode _ _ _ _ (hpre c)
        rw [(h c).1, Cert.ReferenceIdeal.Read.val_main_v178_eq, (hagree c).1, (hagree c).2.1, (hagree c).2.2.1, (hagree c).2.2.2,
          Cert.RefV.val_eq_RG _ _ _ _ hI]
        exact (Cert.Alg.KG_eq_RG _ _ _ _ hL hB hT hI hBw hTw).symm, (h c).2⟩)
       (Cert.ReferenceIdeal.Value.run (F := Ideal) m' ρ')⟩⟩

end Cert.Proof

end
